-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v56)) (v3 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_v58) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x2560 : Shape := ⟨2, ![32000, 2560]⟩
abbrev S8x576x2560 : Shape := ⟨3, ![8, 576, 2560]⟩
abbrev S8x2048 : Shape := ⟨2, ![8, 2048]⟩
abbrev S8 : Shape := ⟨1, ![8]⟩
abbrev S_ : Shape := ⟨0, ![]⟩

class Facts : Prop where
  bcast_S_S32000x2560 : S_.BroadcastsInDim S32000x2560 (![] : Fin 0 → Fin S32000x2560.rank)
  reducesTo_S32000x2560_S_d0_1 : S32000x2560.ReducesTo [0, 1] S_
  h_S_ : 0 < S_.numel
  bcast_S_S8x576x2560 : S_.BroadcastsInDim S8x576x2560 (![] : Fin 0 → Fin S8x576x2560.rank)
  reducesTo_S8x576x2560_S_d0_1_2 : S8x576x2560.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : IVec S8 32) (main_v12 : IVec S_ 1) (main_v15 : IVec S_ 1) : IVec S_ 1 :=
  let main_v16 : IVec S_ 1 := andi main_v12 main_v15
  let main_c_6 : IVec S_ 32 := constantI S_ 32 0#32
  let main_v17 : IVec S8 32 := broadcastInDim S8 ![] bcast_S_S8 main_c_6
  let main_v18 : IVec S8 1 := cmpi .sge main_arg4 main_v17
  let main_c_7 : IVec S_ 1 := constantI S_ 1 1#1
  let main_v19 : IVec S_ 1 := (fun x v => Host.reduce IntOp.andi x v reducesTo_S8_S_d0 h_S_) main_v18 main_c_7
  let main_v20 : IVec S_ 1 := andi main_v16 main_v19
  let main_c_8 : IVec S_ 32 := constantI S_ 32 2048#32
  let main_v21 : IVec S8 32 := broadcastInDim S8 ![] bcast_S_S8 main_c_8
  let main_v22 : IVec S8 1 := cmpi .slt main_arg4 main_v21
  let main_c_9 : IVec S_ 1 := constantI S_ 1 1#1
  let main_v23 : IVec S_ 1 := (fun x v => Host.reduce IntOp.andi x v reducesTo_S8_S_d0 h_S_) main_v22 main_c_9
  let main_v24 : IVec S_ 1 := andi main_v20 main_v23
  main_v24

def fn {F : FTy → Type} [FloatOps F] (main_arg0 : FVec F S32000x2560 .f32) (main_arg1 : FVec F S8x576x2560 .f32) (main_arg2 : IVec S8x2048 32) (main_arg3 : IVec S8x2048 32) (main_arg4 : IVec S8 32) : IVec S_ 1 :=
  let main_v0 : FVec F S32000x2560 .f32 := Host.absf main_arg0
  let main_cst : FVec F S_ .f32 := constant S_ .f32 0x7F800000#32
  let main_v1 : FVec F S32000x2560 .f32 := broadcastInDim S32000x2560 ![] bcast_S_S32000x2560 main_cst
  let main_v2 : IVec S32000x2560 1 := cmpf .olt main_v0 main_v1
  let main_c : IVec S_ 1 := constantI S_ 1 1#1
  let main_v3 : IVec S_ 1 := (fun x v => Host.reduce IntOp.andi x v reducesTo_S32000x2560_S_d0_1 h_S_) main_v2 main_c
  let main_v4 : FVec F S8x576x2560 .f32 := Host.absf main_arg1
  let main_cst_0 : FVec F S_ .f32 := constant S_ .f32 0x7F800000#32
  let main_v5 : FVec F S8x576x2560 .f32 := broadcastInDim S8x576x2560 ![] bcast_S_S8x576x2560 main_cst_0
  let main_v6 : IVec S8x576x2560 1 := cmpf .olt main_v4 main_v5
  let main_c_1 : IVec S_ 1 := constantI S_ 1 1#1
  let main_v7 : IVec S_ 1 := (fun x v => Host.reduce IntOp.andi x v reducesTo_S8x576x2560_S_d0_1_2 h_S_) main_v6 main_c_1
  let main_v8 : IVec S_ 1 := andi main_v3 main_v7
  let main_c_2 : IVec S_ 32 := constantI S_ 32 0#32
  let main_v9 : IVec S8x2048 32 := broadcastInDim S8x2048 ![] bcast_S_S8x2048 main_c_2
  let main_v10 : IVec S8x2048 1 := cmpi .sge main_arg2 main_v9
  let main_c_3 : IVec S_ 1 := constantI S_ 1 1#1
  let main_v11 : IVec S_ 1 := (fun x v => Host.reduce IntOp.andi x v reducesTo_S8x2048_S_d0_1 h_S_) main_v10 main_c_3
  let main_v12 : IVec S_ 1 := andi main_v8 main_v11
  let main_c_4 : IVec S_ 32 := constantI S_ 32 32000#32
  let main_v13 : IVec S8x2048 32 := broadcastInDim S8x2048 ![] bcast_S_S8x2048 main_c_4
  let main_v14 : IVec S8x2048 1 := cmpi .slt main_arg2 main_v13
  let main_c_5 : IVec S_ 1 := constantI S_ 1 1#1
  let main_v15 : IVec S_ 1 := (fun x v => Host.reduce IntOp.andi x v reducesTo_S8x2048_S_d0_1 h_S_) main_v14 main_c_5
  fn_part1 (F := F) main_arg4 main_v12 main_v15
-- ==== Kernel.lean ====
abbrev S32000x2560 : Shape := ⟨2, ![32000, 2560]⟩
abbrev S8x576x2560 : Shape := ⟨3, ![8, 576, 2560]⟩
abbrev S8x2048 : Shape := ⟨2, ![8, 2048]⟩
abbrev S8 : Shape := ⟨1, ![8]⟩
abbrev S2048 : Shape := ⟨1, ![2048]⟩
abbrev S1x2048 : Shape := ⟨2, ![1, 2048]⟩
abbrev S8x1 : Shape := ⟨2, ![8, 1]⟩
abbrev S_ : Shape := ⟨0, ![]⟩
abbrev S16384 : Shape := ⟨1, ![16384]⟩
abbrev S576 : Shape := ⟨1, ![576]⟩
abbrev S1x576 : Shape := ⟨2, ![1, 576]⟩
abbrev S8x576 : Shape := ⟨2, ![8, 576]⟩
abbrev S4608 : Shape := ⟨1, ![4608]⟩
abbrev S4608x1x2560 : Shape := ⟨3, ![4608, 1, 2560]⟩
abbrev S32000x1x2560 : Shape := ⟨3, ![32000, 1, 2560]⟩
abbrev S20984x1x2560 : Shape := ⟨3, ![20984, 1, 2560]⟩
abbrev S1x1x2560 : Shape := ⟨3, ![1, 1, 2560]⟩
abbrev S1 : Shape := ⟨1, ![1]⟩
abbrev S8x2623x2560 : Shape := ⟨3, ![8, 2623, 2560]⟩
abbrev S2623 : Shape := ⟨1, ![2623]⟩
abbrev S1x2623 : Shape := ⟨2, ![1, 2623]⟩
abbrev S8x2623 : Shape := ⟨2, ![8, 2623]⟩
abbrev S8x2623x1 : Shape := ⟨3, ![8, 2623, 1]⟩
abbrev S1x1x1 : Shape := ⟨3, ![1, 1, 1]⟩

abbrev nBuf : Space → Nat
  | .hbm => 103
  | .vmem => 8
  | .smem => 3
  | _ => 0

abbrev bufTy : (tb : Table) → Fin (tcTables nBuf tb) → BufTy
  | .hbm, ⟨0, _⟩ => ⟨S32000x2560, .f32⟩
  | .hbm, ⟨1, _⟩ => ⟨S8x576x2560, .f32⟩
  | .hbm, ⟨2, _⟩ => ⟨S8x2048, .i32⟩
  | .hbm, ⟨3, _⟩ => ⟨S8x2048, .i32⟩
  | .hbm, ⟨4, _⟩ => ⟨S8, .i32⟩
  | .hbm, ⟨5, _⟩ => ⟨S2048, .i32⟩
  | .hbm, ⟨6, _⟩ => ⟨S1x2048, .i32⟩
  | .hbm, ⟨7, _⟩ => ⟨S8x1, .i32⟩
  | .hbm, ⟨8, _⟩ => ⟨S8x2048, .i32⟩
  | .hbm, ⟨9, _⟩ => ⟨S8x2048, .i32⟩
  | .hbm, ⟨10, _⟩ => ⟨S8x2048, .i1⟩
  | .hbm, ⟨11, _⟩ => ⟨S_, .i32⟩
  | .hbm, ⟨12, _⟩ => ⟨S1x2048, .i32⟩
  | .hbm, ⟨13, _⟩ => ⟨S1x2048, .i32⟩
  | .hbm, ⟨14, _⟩ => ⟨S_, .i32⟩
  | .hbm, ⟨15, _⟩ => ⟨S1x2048, .i32⟩
  | .hbm, ⟨16, _⟩ => ⟨S1x2048, .i32⟩
  | .hbm, ⟨17, _⟩ => ⟨S8x2048, .i32⟩
  | .hbm, ⟨18, _⟩ => ⟨S8x2048, .i32⟩
  | .hbm, ⟨19, _⟩ => ⟨S8x2048, .i32⟩
  | .hbm, ⟨20, _⟩ => ⟨S8, .i32⟩
  | .hbm, ⟨21, _⟩ => ⟨S8x1, .i32⟩
  | .hbm, ⟨22, _⟩ => ⟨S_, .i32⟩
  | .hbm, ⟨23, _⟩ => ⟨S8x1, .i32⟩
  | .hbm, ⟨24, _⟩ => ⟨S8x1, .i32⟩
  | .hbm, ⟨25, _⟩ => ⟨S8x2048, .i32⟩
  | .hbm, ⟨26, _⟩ => ⟨S8x2048, .i32⟩
  | .hbm, ⟨27, _⟩ => ⟨S576, .i32⟩
  | .hbm, ⟨28, _⟩ => ⟨S1x576, .i32⟩
  | .hbm, ⟨29, _⟩ => ⟨S8x576, .i32⟩
  | .hbm, ⟨30, _⟩ => ⟨S8x576, .i32⟩
  | .hbm, ⟨31, _⟩ => ⟨S8x576, .i32⟩
  | .hbm, ⟨32, _⟩ => ⟨S_, .i32⟩
  | .hbm, ⟨33, _⟩ => ⟨S8x1, .i32⟩
  | .hbm, ⟨34, _⟩ => ⟨S8x1, .i32⟩
  | .hbm, ⟨35, _⟩ => ⟨S8x576, .i32⟩
  | .hbm, ⟨36, _⟩ => ⟨S8x576, .i32⟩
  | .hbm, ⟨37, _⟩ => ⟨S4608x1x2560, .f32⟩
  | .hbm, ⟨38, _⟩ => ⟨S32000x1x2560, .f32⟩
  | .hbm, ⟨39, _⟩ => ⟨S20984x1x2560, .f32⟩
  | .hbm, ⟨40, _⟩ => ⟨S20984x1x2560, .f32⟩
  | .hbm, ⟨41, _⟩ => ⟨S8x2623x2560, .f32⟩
  | .hbm, ⟨42, _⟩ => ⟨S2623, .i32⟩
  | .hbm, ⟨43, _⟩ => ⟨S1x2623, .i32⟩
  | .hbm, ⟨44, _⟩ => ⟨S8x2623, .i32⟩
  | .hbm, ⟨45, _⟩ => ⟨S8x2623, .i32⟩
  | .hbm, ⟨46, _⟩ => ⟨S8x2623, .i1⟩
  | .hbm, ⟨47, _⟩ => ⟨S_, .i32⟩
  | .hbm, ⟨48, _⟩ => ⟨S8x1, .i32⟩
  | .hbm, ⟨49, _⟩ => ⟨S8x1, .i32⟩
  | .hbm, ⟨50, _⟩ => ⟨S8x2623, .i32⟩
  | .hbm, ⟨51, _⟩ => ⟨S8x2623, .i32⟩
  | .hbm, ⟨52, _⟩ => ⟨S8x2623, .i1⟩
  | .hbm, ⟨53, _⟩ => ⟨S8x2623, .i1⟩
  | .hbm, ⟨54, _⟩ => ⟨S8x2623, .i32⟩
  | .hbm, ⟨55, _⟩ => ⟨S8x2623, .i32⟩
  | .hbm, ⟨56, _⟩ => ⟨S8x2623, .i1⟩
  | .hbm, ⟨57, _⟩ => ⟨S_, .i32⟩
  | .hbm, ⟨58, _⟩ => ⟨S1x2623, .i32⟩
  | .hbm, ⟨59, _⟩ => ⟨S1x2623, .i32⟩
  | .hbm, ⟨60, _⟩ => ⟨S_, .i32⟩
  | .hbm, ⟨61, _⟩ => ⟨S1x2623, .i32⟩
  | .hbm, ⟨62, _⟩ => ⟨S1x2623, .i32⟩
  | .hbm, ⟨63, _⟩ => ⟨S8x2623, .i32⟩
  | .hbm, ⟨64, _⟩ => ⟨S8x2623, .i32⟩
  | .hbm, ⟨65, _⟩ => ⟨S8x2623, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S8x2623, .i32⟩
  | .hbm, ⟨70, _⟩ => ⟨S8x2623, .i32⟩
  | .hbm, ⟨71, _⟩ => ⟨S_, .i32⟩
  | .hbm, ⟨72, _⟩ => ⟨S8x2623, .i32⟩
  | .hbm, ⟨73, _⟩ => ⟨S8x2623, .i32⟩
  | .hbm, ⟨74, _⟩ => ⟨S_, .i32⟩
  | .hbm, ⟨75, _⟩ => ⟨S8x2623, .i32⟩
  | .hbm, ⟨76, _⟩ => ⟨S8x2623, .i1⟩
  | .hbm, ⟨77, _⟩ => ⟨S_, .i32⟩
  | .hbm, ⟨78, _⟩ => ⟨S8x2623, .i32⟩
  | .hbm, ⟨79, _⟩ => ⟨S8x2623, .i32⟩
  | .hbm, ⟨80, _⟩ => ⟨S8x2623, .i32⟩
  | .hbm, ⟨81, _⟩ => ⟨S8x2623x1, .i32⟩
  | .hbm, ⟨82, _⟩ => ⟨S1, .i32⟩
  | .hbm, ⟨83, _⟩ => ⟨S_, .i32⟩
  | .hbm, ⟨84, _⟩ => ⟨S8x2623x1, .i32⟩
  | .hbm, ⟨85, _⟩ => ⟨S8x2623x1, .i1⟩
  | .hbm, ⟨86, _⟩ => ⟨S1x1x1, .i32⟩
  | .hbm, ⟨87, _⟩ => ⟨S8x2623x1, .i32⟩
  | .hbm, ⟨88, _⟩ => ⟨S8x2623x1, .i1⟩
  | .hbm, ⟨89, _⟩ => ⟨S8x2623x1, .i1⟩
  | .hbm, ⟨90, _⟩ => ⟨S_, .i1⟩
  | .hbm, ⟨91, _⟩ => ⟨S8x2623, .i1⟩
  | .hbm, ⟨92, _⟩ => ⟨S8x2623, .i32⟩
  | .hbm, ⟨93, _⟩ => ⟨S_, .i32⟩
  | .hbm, ⟨94, _⟩ => ⟨S8x2623, .i32⟩
  | .hbm, ⟨95, _⟩ => ⟨S8x2623, .i32⟩
  | .hbm, ⟨96, _⟩ => ⟨S_, .i32⟩
  | .hbm, ⟨97, _⟩ => ⟨S8x2623, .i32⟩
  | .hbm, ⟨98, _⟩ => ⟨S8x2623, .i32⟩
  | .hbm, ⟨99, _⟩ => ⟨S_, .i1⟩
  | .hbm, ⟨100, _⟩ => ⟨S8x2623, .i1⟩
  | .hbm, ⟨101, _⟩ => ⟨S2623, .i32⟩
  | .hbm, ⟨102, _⟩ => ⟨S8x2623, .i32⟩
  | .local _ .vmem, ⟨0, _⟩ => ⟨S1x1x2560, .f32⟩
  | .local _ .vmem, ⟨1, _⟩ => ⟨S1x1x2560, .f32⟩
  | .local _ .vmem, ⟨2, _⟩ => ⟨S1x1x2560, .f32⟩
  | .local _ .vmem, ⟨3, _⟩ => ⟨S1x1x2560, .f32⟩
  | .local _ .vmem, ⟨4, _⟩ => ⟨S1x1x2560, .f32⟩
  | .local _ .vmem, ⟨5, _⟩ => ⟨S1x1x2560, .f32⟩
  | .local _ .vmem, ⟨6, _⟩ => ⟨S1x1x2560, .f32⟩
  | .local _ .vmem, ⟨7, _⟩ => ⟨S1x1x2560, .f32⟩
  | .local _ .smem, ⟨0, _⟩ => ⟨S16384, .i32⟩
  | .local _ .smem, ⟨1, _⟩ => ⟨S16384, .i32⟩
  | .local _ .smem, ⟨2, _⟩ => ⟨S4608, .i32⟩
  | _, _ => ⟨S32000x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_c_4 : Ref sig .tc := ⟨.hbm, 57, rfl⟩
abbrev main_v48 : Ref sig .tc := ⟨.hbm, 58, rfl⟩
abbrev main_v49 : Ref sig .tc := ⟨.hbm, 59, rfl⟩
abbrev main_c_5 : Ref sig .tc := ⟨.hbm, 60, rfl⟩
abbrev main_v50 : Ref sig .tc := ⟨.hbm, 61, rfl⟩
abbrev main_v51 : Ref sig .tc := ⟨.hbm, 62, rfl⟩
abbrev main_call1_v0 : Ref sig .tc := ⟨.hbm, 63, rfl⟩
abbrev main_call1_v1 : Ref sig .tc := ⟨.hbm, 64, rfl⟩
abbrev main_v52 : Ref sig .tc := ⟨.hbm, 65, rfl⟩
abbrev main_c_6 : Ref sig .tc := ⟨.hbm, 66, rfl⟩
abbrev main_c_7 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v53 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_c_4 : Ref sig .tc := ⟨.hbm, 93, rfl⟩
abbrev main_call3_v14 : Ref sig .tc := ⟨.hbm, 94, rfl⟩
abbrev main_v54 : Ref sig .tc := ⟨.hbm, 95, rfl⟩
abbrev main_c_8 : Ref sig .tc := ⟨.hbm, 96, rfl⟩
abbrev main_call4_v0 : Ref sig .tc := ⟨.hbm, 97, rfl⟩
abbrev main_v55 : Ref sig .tc := ⟨.hbm, 98, rfl⟩
abbrev main_c_9 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v18 : Ref sig .tc := ⟨.smem, 0, rfl⟩
abbrev main_v17 : Ref sig .tc := ⟨.smem, 1, rfl⟩
abbrev main_v28 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![16384], ![false]⟩

abbrev pre0 : Pipeline.Prefetch sig := ⟨2, ![main_v18.idx, main_v17.idx], fun | 0 => main_v18.names | 1 => main_v17.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4608], ![false]⟩

abbrev pre1 : Pipeline.Prefetch sig := ⟨1, ![main_v28.idx], fun | 0 => main_v28.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (k1_off1_inb : ∀ i : grid1.Coords, ∀ a, (k1_off1 i) a + S1.size a ≤ S4608.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S4608) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x1x2560 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2560 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S2048_S1x2048_1 : S2048.BroadcastsInDim S1x2048 (![1] : Fin 1 → Fin S1x2048.rank)
  bcast_S8_S8x1_0 : S8.BroadcastsInDim S8x1 (![0] : Fin 1 → Fin S8x1.rank)
  bcast_S1x2048_S8x2048_0_1 : S1x2048.BroadcastsInDim S8x2048 (![0, 1] : Fin 2 → Fin S8x2048.rank)
  bcast_S8x1_S8x2048_0_1 : S8x1.BroadcastsInDim S8x2048 (![0, 1] : Fin 2 → Fin S8x2048.rank)
  bcast_S_S1x2048 : S_.BroadcastsInDim S1x2048 (![] : Fin 0 → Fin S1x2048.rank)
  bcast_S_S8x1 : S_.BroadcastsInDim S8x1 (![] : Fin 0 → Fin S8x1.rank)
  shapeCasts_S8x2048_S16384 : S8x2048.ShapeCasts S16384
  bcast_S576_S1x576_1 : S576.BroadcastsInDim S1x576 (![1] : Fin 1 → Fin S1x576.rank)
  bcast_S8x1_S8x576_0_1 : S8x1.BroadcastsInDim S8x576 (![0, 1] : Fin 2 → Fin S8x576.rank)
  bcast_S1x576_S8x576_0_1 : S1x576.BroadcastsInDim S8x576 (![0, 1] : Fin 2 → Fin S8x576.rank)
  shapeCasts_S8x576_S4608 : S8x576.ShapeCasts S4608
  shapeCasts_S8x576x2560_S4608x1x2560 : S8x576x2560.ShapeCasts S4608x1x2560
  shapeCasts_S32000x2560_S32000x1x2560 : S32000x2560.ShapeCasts S32000x1x2560
  numel1_S1 : S1.numel = 1
  inb_S1x1x2560_S1x1x2560_0_0_0 : ∀ a, (![0, 0, 0] : Fin 3 → Nat) a + S1x1x2560.size a ≤ S1x1x2560.size a
  h_S1x1x2560 : 0 < S1x1x2560.numel
  shapeCasts_S1x1x2560_S1x1x2560 : S1x1x2560.ShapeCasts S1x1x2560
  shapeCasts_S20984x1x2560_S8x2623x2560 : S20984x1x2560.ShapeCasts S8x2623x2560
  bcast_S2623_S1x2623_1 : S2623.BroadcastsInDim S1x2623 (![1] : Fin 1 → Fin S1x2623.rank)
  bcast_S1x2623_S8x2623_0_1 : S1x2623.BroadcastsInDim S8x2623 (![0, 1] : Fin 2 → Fin S8x2623.rank)
  bcast_S8x1_S8x2623_0_1 : S8x1.BroadcastsInDim S8x2623 (![0, 1] : Fin 2 → Fin S8x2623.rank)
  bcast_S_S1x2623 : S_.BroadcastsInDim S1x2623 (![] : Fin 0 → Fin S1x2623.rank)
  bcast_S_S8x2623 : S_.BroadcastsInDim S8x2623 (![] : Fin 0 → Fin S8x2623.rank)
  shapeCasts_S8x2623_S8x2623x1 : S8x2623.ShapeCasts S8x2623x1
  bcast_S_S8x2623x1 : S_.BroadcastsInDim S8x2623x1 (![] : Fin 0 → Fin S8x2623x1.rank)
  bcast_S1_S1x1x1_2 : S1.BroadcastsInDim S1x1x1 (![2] : Fin 1 → Fin S1x1x1.rank)
  bcast_S1x1x1_S8x2623x1_0_1_2 : S1x1x1.BroadcastsInDim S8x2623x1 (![0, 1, 2] : Fin 3 → Fin S8x2623x1.rank)
  reducesTo_S8x2623x1_S8x2623_d2 : S8x2623x1.ReducesTo [2] S8x2623
  h_S_ : 0 < S_.numel
  bcast_S2623_S8x2623_1 : S2623.BroadcastsInDim S8x2623 (![1] : Fin 1 → Fin S8x2623.rank)
  gather_S8x2048_S8x2623x1_S8x2623_n_1_0_0_1_2_11_wf : GatherDims.WF S8x2048 S8x2623x1 S8x2623 [] [1] [0] [1] [0] 2 ![1, 1]
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hrank1 : 0 < grid1.rank
  k1_off1_inb : ∀ i : grid1.Coords, ∀ a, (k1_off1 i) a + S1.size a ≤ S4608.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2560.size a ≤ S4608x1x2560.size a
  hwx1_0 : ∀ i : grid1.Coords, EltTy.bits .f32 = 32 ∨ (Rect.block (s := S4608x1x2560) S1x1x2560.size (cc1_transform_0 i) (hinb1_0 i)).WholeWords (EltTy.packing .f32)
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_2 k1_off1_inb numel1_S1 pf i = cc1_transform_2 k1_off1_inb numel1_S1 pf i'

variable [Facts₀]

def gather_S8x2048_S8x2623x1_S8x2623_n_1_0_0_1_2_11 : GatherDims S8x2048 S8x2623x1 S8x2623 where
  offsetDims := []
  collapsedSliceDims := [1]
  operandBatchingDims := [0]
  startIndicesBatchingDims := [0]
  startIndexMap := [1]
  indexVectorDim := 2
  sliceSizes := ![1, 1]
  wf := gather_S8x2048_S8x2623x1_S8x2623_n_1_0_0_1_2_11_wf

abbrev spec0_0 : Pipeline.WinSpec sig grid0.rank :=
  Pipeline.WinSpec.ofSpec (Memref.whole main_v30) S1x1x2560.size reads0_0 false false 2 stage0_0 sem0_0 nbuf0_0 hstage0_0

abbrev spec0_1 : Pipeline.WinSpec sig grid0.rank :=
  Pipeline.WinSpec.ofSpec (Memref.whole main_v31) S1x1x2560.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 k0_off1_inb numel1_S1 pf | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x2560.size a ≤ S32000x1x2560.size a), EltTy.bits .f32 = 32 ∨ (Rect.block (s := S32000x1x2560) S1x1x2560.size (cc0_transform_0 k0_off1_inb numel1_S1 pf i) h).WholeWords (EltTy.packing .f32)) ∧
  (∀ i : grid0.Coords, ∃ h : (∀ a, (cc0_transform_1 k0_off1_inb numel1_S1 pf i a + 1) * S1x1x2560.size a ≤ S20984x1x2560.size a), EltTy.bits .f32 = 32 ∨ (Rect.block (s := S20984x1x2560) S1x1x2560.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | ⟨_ + 2, h⟩ => absurd h (Nat.not_lt.2 (Nat.le_add_left _ _))
abbrev spec1_0 : Pipeline.WinSpec sig grid1.rank :=
  Pipeline.WinSpec.ofSpec (Memref.whole main_v29) S1x1x2560.size reads1_0 false false 2 stage1_0 sem1_0 nbuf1_0 hstage1_0

abbrev spec1_1 : Pipeline.WinSpec sig grid1.rank :=
  Pipeline.WinSpec.ofSpec (Memref.whole main_v32) S1x1x2560.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 | 1 => cc1_transform_2 k1_off1_inb numel1_S1 pf | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 pf | ⟨_ + 2, h⟩ => absurd h (Nat.not_lt.2 (Nat.le_add_left _ _))
def ok1 (pf : pre1.Contents (Elt F)) : Prop :=
  (∀ i : grid1.Coords, ∃ h : (∀ a, (cc1_transform_2 k1_off1_inb numel1_S1 pf i a + 1) * S1x1x2560.size a ≤ S20984x1x2560.size a), EltTy.bits .f32 = 32 ∨ (Rect.block (s := S20984x1x2560) S1x1x2560.size (cc1_transform_2 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => fun i a => (hok i).elim fun h _ => h a | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => fun i => (hok i).elim fun _ h => h | ⟨_ + 2, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S32000x2560 : Shape := ⟨2, ![32000, 2560]⟩
abbrev S8x576x2560 : Shape := ⟨3, ![8, 576, 2560]⟩
abbrev S8x2048 : Shape := ⟨2, ![8, 2048]⟩
abbrev S8 : Shape := ⟨1, ![8]⟩
abbrev S_ : Shape := ⟨0, ![]⟩
abbrev S8x2048x1 : Shape := ⟨3, ![8, 2048, 1]⟩
abbrev S8x2048x2560 : Shape := ⟨3, ![8, 2048, 2560]⟩
abbrev S2623 : Shape := ⟨1, ![2623]⟩
abbrev S1x2623 : Shape := ⟨2, ![1, 2623]⟩
abbrev S8x1 : Shape := ⟨2, ![8, 1]⟩
abbrev S8x2623 : Shape := ⟨2, ![8, 2623]⟩
abbrev S8x2623x1 : Shape := ⟨3, ![8, 2623, 1]⟩
abbrev S1 : Shape := ⟨1, ![1]⟩
abbrev S1x1x1 : Shape := ⟨3, ![1, 1, 1]⟩
abbrev S8x2623x2560 : Shape := ⟨3, ![8, 2623, 2560]⟩

abbrev nBuf : Space → Nat
  | .hbm => 136
  | .vmem => 0
  | .smem => 0
  | _ => 0

abbrev hbmTy0_0 (i : Nat) : BufTy := match i % 128 with
  | 0 => ⟨S32000x2560, .f32⟩
  | 1 => ⟨S8x576x2560, .f32⟩
  | 2 => ⟨S8x2048, .i32⟩
  | 3 => ⟨S8x2048, .i32⟩
  | 4 => ⟨S8, .i32⟩
  | 5 => ⟨S_, .i32⟩
  | 6 => ⟨S8x2048, .i32⟩
  | 7 => ⟨S8x2048, .i1⟩
  | 8 => ⟨S_, .i32⟩
  | 9 => ⟨S8x2048, .i32⟩
  | 10 => ⟨S8x2048, .i32⟩
  | 11 => ⟨S8x2048, .i32⟩
  | 12 => ⟨S8x2048x1, .i32⟩
  | 13 => ⟨S8x2048x2560, .f32⟩
  | 14 => ⟨S2623, .i32⟩
  | 15 => ⟨S1x2623, .i32⟩
  | 16 => ⟨S8x1, .i32⟩
  | 17 => ⟨S8x2623, .i32⟩
  | 18 => ⟨S8x2623, .i32⟩
  | 19 => ⟨S8x2623, .i1⟩
  | 20 => ⟨S_, .i32⟩
  | 21 => ⟨S8x1, .i32⟩
  | 22 => ⟨S8x1, .i32⟩
  | 23 => ⟨S8x2623, .i32⟩
  | 24 => ⟨S8x2623, .i32⟩
  | 25 => ⟨S8x2623, .i1⟩
  | 26 => ⟨S8x2623, .i1⟩
  | 27 => ⟨S8x2623, .i32⟩
  | 28 => ⟨S8x2623, .i32⟩
  | 29 => ⟨S8x2623, .i1⟩
  | 30 => ⟨S_, .i32⟩
  | 31 => ⟨S1x2623, .i32⟩
  | 32 => ⟨S1x2623, .i32⟩
  | 33 => ⟨S_, .i32⟩
  | 34 => ⟨S1x2623, .i32⟩
  | 35 => ⟨S1x2623, .i32⟩
  | 36 => ⟨S8x2623, .i32⟩
  | 37 => ⟨S8x2623, .i32⟩
  | 38 => ⟨S8x2623, .i32⟩
  | 39 => ⟨S_, .i32⟩
  | 40 => ⟨S_, .i32⟩
  | 41 => ⟨S_, .i32⟩
  | 42 => ⟨S8x2623, .i32⟩
  | 43 => ⟨S8x2623, .i32⟩
  | 44 => ⟨S_, .i32⟩
  | 45 => ⟨S8x2623, .i32⟩
  | 46 => ⟨S8x2623, .i32⟩
  | 47 => ⟨S8x2623, .i32⟩
  | 48 => ⟨S8x2623, .i32⟩
  | 49 => ⟨S8x2623, .i32⟩
  | 50 => ⟨S_, .i32⟩
  | 51 => ⟨S_, .i32⟩
  | 52 => ⟨S_, .i32⟩
  | 53 => ⟨S8x2623, .i32⟩
  | 54 => ⟨S8x2623, .i32⟩
  | 55 => ⟨S_, .i32⟩
  | 56 => ⟨S8x2623, .i32⟩
  | 57 => ⟨S8x2623, .i32⟩
  | 58 => ⟨S8x2623x1, .i32⟩
  | 59 => ⟨S_, .i32⟩
  | 60 => ⟨S8x2623x1, .i32⟩
  | 61 => ⟨S8x2623x1, .i1⟩
  | 62 => ⟨S_, .i32⟩
  | 63 => ⟨S8x2623x1, .i32⟩
  | 64 => ⟨S8x2623x1, .i32⟩
  | 65 => ⟨S8x2623x1, .i32⟩
  | 66 => ⟨S1, .i32⟩
  | 67 => ⟨S_, .i32⟩
  | 68 => ⟨S8x2623x1, .i32⟩
  | 69 => ⟨S8x2623x1, .i1⟩
  | 70 => ⟨S1x1x1, .i32⟩
  | 71 => ⟨S8x2623x1, .i32⟩
  | 72 => ⟨S8x2623x1, .i1⟩
  | 73 => ⟨S8x2623x1, .i1⟩
  | 74 => ⟨S_, .i1⟩
  | 75 => ⟨S8x2623, .i1⟩
  | 76 => ⟨S8x2623x2560, .f32⟩
  | 77 => ⟨S8x2623x2560, .i1⟩
  | 78 => ⟨S_, .f32⟩
  | 79 => ⟨S8x2623x2560, .f32⟩
  | 80 => ⟨S8x2623x2560, .f32⟩
  | 81 => ⟨S8x2623x1, .i32⟩
  | 82 => ⟨S_, .i32⟩
  | 83 => ⟨S8x2623x1, .i32⟩
  | 84 => ⟨S8x2623x1, .i1⟩
  | 85 => ⟨S_, .i32⟩
  | 86 => ⟨S8x2623x1, .i32⟩
  | 87 => ⟨S8x2623x1, .i32⟩
  | 88 => ⟨S8x2623x1, .i32⟩
  | 89 => ⟨S1, .i32⟩
  | 90 => ⟨S_, .i32⟩
  | 91 => ⟨S8x2623x1, .i32⟩
  | 92 => ⟨S8x2623x1, .i1⟩
  | 93 => ⟨S1x1x1, .i32⟩
  | 94 => ⟨S8x2623x1, .i32⟩
  | 95 => ⟨S8x2623x1, .i1⟩
  | 96 => ⟨S8x2623x1, .i1⟩
  | 97 => ⟨S_, .i1⟩
  | 98 => ⟨S8x2623, .i1⟩
  | 99 => ⟨S8x2623x2560, .f32⟩
  | 100 => ⟨S8x2623x2560, .i1⟩
  | 101 => ⟨S_, .f32⟩
  | 102 => ⟨S8x2623x2560, .f32⟩
  | 103 => ⟨S8x2623x2560, .f32⟩
  | 104 => ⟨S8x2623x1, .i1⟩
  | 105 => ⟨S8x2623x2560, .i1⟩
  | 106 => ⟨S8x2623x2560, .f32⟩
  | 107 => ⟨S_, .i32⟩
  | 108 => ⟨S8x2623, .i32⟩
  | 109 => ⟨S8x2623, .i1⟩
  | 110 => ⟨S_, .i32⟩
  | 111 => ⟨S8x2623, .i32⟩
  | 112 => ⟨S8x2623, .i32⟩
  | 113 => ⟨S8x2623, .i32⟩
  | 114 => ⟨S8x2623x1, .i32⟩
  | 115 => ⟨S1, .i32⟩
  | 116 => ⟨S_, .i32⟩
  | 117 => ⟨S8x2623x1, .i32⟩
  | 118 => ⟨S8x2623x1, .i1⟩
  | 119 => ⟨S1x1x1, .i32⟩
  | 120 => ⟨S8x2623x1, .i32⟩
  | 121 => ⟨S8x2623x1, .i1⟩
  | 122 => ⟨S8x2623x1, .i1⟩
  | 123 => ⟨S_, .i1⟩
  | 124 => ⟨S8x2623, .i1⟩
  | 125 => ⟨S8x2623, .i32⟩
  | 126 => ⟨S_, .i32⟩
  | 127 => ⟨S8x2623, .i32⟩
  | _ => ⟨S32000x2560, .f32⟩

abbrev hbmTy0_1 (i : Nat) : BufTy := match i % 128 with
  | 0 => ⟨S8x2623, .i32⟩
  | 1 => ⟨S_, .i32⟩
  | 2 => ⟨S8x2623, .i32⟩
  | 3 => ⟨S8x2623, .i32⟩
  | 4 => ⟨S_, .i1⟩
  | 5 => ⟨S8x2623, .i1⟩
  | 6 => ⟨S2623, .i32⟩
  | 7 => ⟨S8x2623, .i32⟩
  | _ => ⟨S32000x2560, .f32⟩

abbrev hbmTy (i : Nat) : BufTy := match i / 128 with
  | 0 => hbmTy0_0 i
  | 1 => hbmTy0_1 i
  | _ => ⟨S32000x2560, .f32⟩

abbrev bufTy : (tb : Table) → Fin (tcTables nBuf tb) → BufTy
  | .hbm, ⟨i, _⟩ => hbmTy i
  | _, _ => ⟨S32000x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_c_7 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v31 : Ref sig .tc := ⟨.hbm, 57, rfl⟩
abbrev main_v32 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_c_1 : Ref sig .tc := ⟨.hbm, 66, rfl⟩
abbrev main_call3_c_2 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_c_3 : Ref sig .tc := ⟨.hbm, 74, rfl⟩
abbrev main_call3_v11 : Ref sig .tc := ⟨.hbm, 75, rfl⟩
abbrev main_call3_v12 : Ref sig .tc := ⟨.hbm, 76, rfl⟩
abbrev main_call3_v13 : Ref sig .tc := ⟨.hbm, 77, rfl⟩
abbrev main_call3_cst : Ref sig .tc := ⟨.hbm, 78, rfl⟩
abbrev main_call3_v14 : Ref sig .tc := ⟨.hbm, 79, rfl⟩
abbrev main_v33 : Ref sig .tc := ⟨.hbm, 80, rfl⟩
abbrev main_v34 : Ref sig .tc := ⟨.hbm, 81, rfl⟩
abbrev main_call4_c : Ref sig .tc := ⟨.hbm, 82, rfl⟩
abbrev main_call4_v0 : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_c_1 : Ref sig .tc := ⟨.hbm, 89, rfl⟩
abbrev main_call4_c_2 : Ref sig .tc := ⟨.hbm, 90, rfl⟩
abbrev main_call4_v5 : Ref sig .tc := ⟨.hbm, 91, rfl⟩
abbrev main_call4_v6 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_call4_c_3 : Ref sig .tc := ⟨.hbm, 97, rfl⟩
abbrev main_call4_v11 : Ref sig .tc := ⟨.hbm, 98, rfl⟩
abbrev main_call4_v12 : Ref sig .tc := ⟨.hbm, 99, rfl⟩
abbrev main_call4_v13 : Ref sig .tc := ⟨.hbm, 100, rfl⟩
abbrev main_call4_cst : Ref sig .tc := ⟨.hbm, 101, rfl⟩
abbrev main_call4_v14 : Ref sig .tc := ⟨.hbm, 102, rfl⟩
abbrev main_v35 : Ref sig .tc := ⟨.hbm, 103, rfl⟩
abbrev main_v36 : Ref sig .tc := ⟨.hbm, 104, rfl⟩
abbrev main_call5_v0 : Ref sig .tc := ⟨.hbm, 105, rfl⟩
abbrev main_v37 : Ref sig .tc := ⟨.hbm, 106, rfl⟩
abbrev main_call6_c : Ref sig .tc := ⟨.hbm, 107, rfl⟩
abbrev main_call6_v0 : Ref sig .tc := ⟨.hbm, 108, rfl⟩
abbrev main_call6_v1 : Ref sig .tc := ⟨.hbm, 109, rfl⟩
abbrev main_call6_c_0 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_c_1 : Ref sig .tc := ⟨.hbm, 115, rfl⟩
abbrev main_call6_c_2 : Ref sig .tc := ⟨.hbm, 116, rfl⟩
abbrev main_call6_v6 : Ref sig .tc := ⟨.hbm, 117, rfl⟩
abbrev main_call6_v7 : Ref sig .tc := ⟨.hbm, 118, rfl⟩
abbrev main_call6_v8 : Ref sig .tc := ⟨.hbm, 119, rfl⟩
abbrev main_call6_v9 : Ref sig .tc := ⟨.hbm, 120, rfl⟩
abbrev main_call6_v10 : Ref sig .tc := ⟨.hbm, 121, rfl⟩
abbrev main_call6_v11 : Ref sig .tc := ⟨.hbm, 122, rfl⟩
abbrev main_call6_c_3 : Ref sig .tc := ⟨.hbm, 123, rfl⟩
abbrev main_call6_v12 : Ref sig .tc := ⟨.hbm, 124, rfl⟩
abbrev main_call6_v13 : Ref sig .tc := ⟨.hbm, 125, rfl⟩
abbrev main_call6_c_4 : Ref sig .tc := ⟨.hbm, 126, rfl⟩
abbrev main_call6_v14 : Ref sig .tc := ⟨.hbm, 127, rfl⟩
abbrev main_v38 : Ref sig .tc := ⟨.hbm, 128, rfl⟩
abbrev main_c_8 : Ref sig .tc := ⟨.hbm, 129, rfl⟩
abbrev main_call7_v0 : Ref sig .tc := ⟨.hbm, 130, rfl⟩
abbrev main_v39 : Ref sig .tc := ⟨.hbm, 131, rfl⟩
abbrev main_c_9 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S2623_S1x2623_1 : S2623.BroadcastsInDim S1x2623 (![1] : Fin 1 → Fin S1x2623.rank)
  bcast_S8_S8x1_0 : S8.BroadcastsInDim S8x1 (![0] : Fin 1 → Fin S8x1.rank)
  bcast_S1x2623_S8x2623_0_1 : S1x2623.BroadcastsInDim S8x2623 (![0, 1] : Fin 2 → Fin S8x2623.rank)
  bcast_S8x1_S8x2623_0_1 : S8x1.BroadcastsInDim S8x2623 (![0, 1] : Fin 2 → Fin S8x2623.rank)
  bcast_S_S8x1 : S_.BroadcastsInDim S8x1 (![] : Fin 0 → Fin S8x1.rank)
  bcast_S_S1x2623 : S_.BroadcastsInDim S1x2623 (![] : Fin 0 → Fin S1x2623.rank)
  bcast_S_S8x2623 : S_.BroadcastsInDim S8x2623 (![] : Fin 0 → Fin S8x2623.rank)
  bcast_S8x2623_S8x2623x1_0_1 : S8x2623.BroadcastsInDim S8x2623x1 (![0, 1] : Fin 2 → Fin S8x2623x1.rank)
  bcast_S_S8x2623x1 : S_.BroadcastsInDim S8x2623x1 (![] : Fin 0 → Fin S8x2623x1.rank)
  bcast_S1_S1x1x1_2 : S1.BroadcastsInDim S1x1x1 (![2] : Fin 1 → Fin S1x1x1.rank)
  bcast_S1x1x1_S8x2623x1_0_1_2 : S1x1x1.BroadcastsInDim S8x2623x1 (![0, 1, 2] : Fin 3 → Fin S8x2623x1.rank)
  reducesTo_S8x2623x1_S8x2623_d2 : S8x2623x1.ReducesTo [2] S8x2623
  h_S_ : 0 < S_.numel
  bcast_S8x2623_S8x2623x2560_0_1 : S8x2623.BroadcastsInDim S8x2623x2560 (![0, 1] : Fin 2 → Fin S8x2623x2560.rank)
  bcast_S_S8x2623x2560 : S_.BroadcastsInDim S8x2623x2560 (![] : Fin 0 → Fin S8x2623x2560.rank)
  bcast_S8x2623x1_S8x2623x2560_0_1_2 : S8x2623x1.BroadcastsInDim S8x2623x2560 (![0, 1, 2] : Fin 3 → Fin S8x2623x2560.rank)
  shapeCasts_S8x2623_S8x2623x1 : S8x2623.ShapeCasts S8x2623x1
  bcast_S2623_S8x2623_1 : S2623.BroadcastsInDim S8x2623 (![1] : Fin 1 → Fin S8x2623.rank)
  gather_S32000x2560_S8x2048x1_S8x2048x2560_2_0_n_n_0_2_12560_wf : GatherDims.WF S32000x2560 S8x2048x1 S8x2048x2560 [2] [0] [] [0] [] 2 ![1, 2560]
  gather_S8x2048x2560_S8x2623x1_S8x2623x2560_2_1_0_0_1_2_112560_wf : GatherDims.WF S8x2048x2560 S8x2623x1 S8x2623x2560 [2] [1] [0] [1] [0] 2 ![1, 1, 2560]
  gather_S8x576x2560_S8x2623x1_S8x2623x2560_2_1_0_0_1_2_112560_wf : GatherDims.WF S8x576x2560 S8x2623x1 S8x2623x2560 [2] [1] [0] [1] [0] 2 ![1, 1, 2560]
  gather_S8x2048_S8x2623x1_S8x2623_n_1_0_0_1_2_11_wf : GatherDims.WF S8x2048 S8x2623x1 S8x2623 [] [1] [0] [1] [0] 2 ![1, 1]

variable [Facts₀]

def gather_S32000x2560_S8x2048x1_S8x2048x2560_2_0_n_n_0_2_12560 : GatherDims S32000x2560 S8x2048x1 S8x2048x2560 where
  offsetDims := [2]
  collapsedSliceDims := [0]
  operandBatchingDims := []
  startIndicesBatchingDims := []
  startIndexMap := [0]
  indexVectorDim := 2
  sliceSizes := ![1, 2560]
  wf := gather_S32000x2560_S8x2048x1_S8x2048x2560_2_0_n_n_0_2_12560_wf
def gather_S8x2048x2560_S8x2623x1_S8x2623x2560_2_1_0_0_1_2_112560 : GatherDims S8x2048x2560 S8x2623x1 S8x2623x2560 where
  offsetDims := [2]
  collapsedSliceDims := [1]
  operandBatchingDims := [0]
  startIndicesBatchingDims := [0]
  startIndexMap := [1]
  indexVectorDim := 2
  sliceSizes := ![1, 1, 2560]
  wf := gather_S8x2048x2560_S8x2623x1_S8x2623x2560_2_1_0_0_1_2_112560_wf
def gather_S8x576x2560_S8x2623x1_S8x2623x2560_2_1_0_0_1_2_112560 : GatherDims S8x576x2560 S8x2623x1 S8x2623x2560 where
  offsetDims := [2]
  collapsedSliceDims := [1]
  operandBatchingDims := [0]
  startIndicesBatchingDims := [0]
  startIndexMap := [1]
  indexVectorDim := 2
  sliceSizes := ![1, 1, 2560]
  wf := gather_S8x576x2560_S8x2623x1_S8x2623x2560_2_1_0_0_1_2_112560_wf
def gather_S8x2048_S8x2623x1_S8x2623_n_1_0_0_1_2_11 : GatherDims S8x2048 S8x2623x1 S8x2623 where
  offsetDims := []
  collapsedSliceDims := [1]
  operandBatchingDims := [0]
  startIndicesBatchingDims := [0]
  startIndexMap := [1]
  indexVectorDim := 2
  sliceSizes := ![1, 1]
  wf := gather_S8x2048_S8x2623x1_S8x2623_n_1_0_0_1_2_11_wf

class Facts : Prop extends Facts₀ where

variable [Facts]
-- ==== Proof.Spec.lean ====
/-
  The specification: the spliced sequence as ONE function of the argument arrays, index by index.

  A sample `b` has `L = 2048` tokens, one of which, at position `p = pos[b]`, stands for an image of `P = 576` patches.
  The spliced sequence has `T = L - 1 + P = 2623` rows of `D = 2560` numbers: rows `j < p` are the embeddings of tokens
  `j`; rows `p ≤ j < p + P` are the image's patches `j - p`; rows `j ≥ p + P` are the embeddings of tokens `j - P + 1`
  (the image token itself is dropped). The embedding of a token is the row of the table its id names. Indices are
  clamped into their arrays so that the function is total; where `0 ≤ p < L` and every id is a row of the table no
  clamp binds.
-/
import Idealize.ShloMosaic.PureOps.Ideal
import Idealize.ShloMosaic.Lib.ValueIdx

noncomputable section

namespace Cert.Splice

open Idealize.ShloMosaic Idealize.ShloMosaic.ValueIdx

/-- The token whose embedding row `j` of the spliced sequence holds, when the image sits at `p` and `j` is no image row:
    `j` itself before the image, `j - (P - 1)` after it. -/
def tokOf (p j : ℕ) : ℕ := if j < p then j else j - 575

/-- The spliced embeddings `[8, 2623, 2560]` from the table `[32000, 2560]`, the image features `[8, 576, 2560]`, the
    token ids `[8, 2048]` and the image positions `[8]`. -/
def spliced {α : Type} (emb : (⟨2, ![32000, 2560]⟩ : Shape).Idx → α) (img : (⟨3, ![8, 576, 2560]⟩ : Shape).Idx → α)
    (ids : (⟨2, ![8, 2048]⟩ : Shape).Idx → BitVec 32) (pos : (⟨1, ![8]⟩ : Shape).Idx → BitVec 32) :
    (⟨3, ![8, 2623, 2560]⟩ : Shape).Idx → α := fun i =>
  if (pos (ix1 (i 0))).toNat ≤ (i 1).val ∧ (i 1).val < (pos (ix1 (i 0))).toNat + 576 then
    img (ix3 (i 0) ⟨min ((i 1).val - (pos (ix1 (i 0))).toNat) 575, by omega⟩ (i 2))
  else
    emb (ix2 ⟨min (ids (ix2 (i 0) ⟨min (tokOf (pos (ix1 (i 0))).toNat (i 1).val) 2047, by omega⟩)).toNat 31999, by omega⟩ (i 2))

/-- Every token id is a row of the table. -/
def IdsInRange (ids : (⟨2, ![8, 2048]⟩ : Shape).Idx → BitVec 32) : Prop :=
  ∀ i, 0 ≤ (ids i).toInt ∧ (ids i).toInt < 32000

/-- Every image position is a position of the token sequence. -/
def PosInRange (pos : (⟨1, ![8]⟩ : Shape).Idx → BitVec 32) : Prop :=
  ∀ i, 0 ≤ (pos i).toInt ∧ (pos i).toInt < 2048

/-- A word in `[0, n)` read signed, `n` below `2^31`, is the same number read unsigned. -/
theorem toNat_of_range {w : BitVec 32} {n : ℕ} (hn : n ≤ 2147483648) (h : 0 ≤ w.toInt ∧ w.toInt < n) :
    (w.toNat : ℤ) = w.toInt ∧ w.toNat < n := by
  have := BitVec.toInt_eq_toNat_cond w
  have hw := w.isLt
  split at this <;> omega

end Cert.Splice

end
-- ==== Proof.PreDecode.lean ====
/-
  The precondition decoded. The precondition is one bit: the conjunction of six "every element satisfies" tests of the
  argument arrays, two of them about the finiteness of the floating-point arrays and four about the integer arrays:
  every token id is at least 0, every token id is below 32000, every image position is at least 0, every image position
  is below 2048, each compared as a signed 32-bit word. When the bit is 1 every one of the six tests is 1; a test that is
  1 is a conjunction over all elements that came out 1, so the compared bit of every element is 1; and a signed
  comparison bit that is 1 is the order of the two words read as integers. The two finiteness tests are split off and
  never looked into.
-/
import proofs.«423035_j55576876810961_2_alg».proof.Proof.Spec
import proofs.«423035_j55576876810961_2_alg».proof.Proof.Gen.Pre_finite_inputs
import Idealize.ShloMosaic.Lib.ReduceAll
import Idealize.ShloMosaic.Lib.ValueIdx

noncomputable section

namespace Cert.Splice

open Idealize.ShloMosaic

/-- A scalar has no axis, so it has exactly one index. -/
local instance scalarIdxSubsingleton : Subsingleton Cert.Pre_finite_inputs.S_.Idx :=
  ⟨fun a b => funext fun d => d.elim0⟩

/-- The constant 0, read signed, is 0. -/
private theorem toInt_zero32 : (0#32 : BitVec 32).toInt = 0 := by decide

/-- The constant 32000, read signed, is 32000. -/
private theorem toInt_32000 : (32000#32 : BitVec 32).toInt = 32000 := by decide

/-- The constant 2048, read signed, is 2048. -/
private theorem toInt_2048 : (2048#32 : BitVec 32).toInt = 2048 := by decide

/-- THE PRECONDITION DECODED: where the precondition's bit is 1, every token id is a row of the table and every image
    position is a position of the token sequence. -/
theorem ranges_of_pre {F : FTy → Type} [FloatOps F]
    (e : FVec F Cert.Pre_finite_inputs.S32000x2560 .f32) (t : FVec F Cert.Pre_finite_inputs.S8x576x2560 .f32)
    (ids lab : IVec Cert.Pre_finite_inputs.S8x2048 32) (pos : IVec Cert.Pre_finite_inputs.S8 32)
    (h : Cert.Pre_finite_inputs.fn (F := F) e t ids lab pos = fun _ => 1#1) :
    IdsInRange ids ∧ PosInRange pos := by
  -- the one bit of the precondition, as the nested conjunction of its six tests
  have hb := congrFun h ValueIdx.ix0
  unfold Cert.Pre_finite_inputs.fn Cert.Pre_finite_inputs.fn_part1 at hb
  simp only [andi, IntOp.andi_eq_one] at hb
  -- the two finiteness tests stay closed; the four integer tests are kept
  obtain ⟨⟨⟨⟨-, hIdsGe⟩, hIdsLt⟩, hPosGe⟩, hPosLt⟩ := hb
  refine ⟨fun i => ⟨?_, ?_⟩, fun i => ⟨?_, ?_⟩⟩
  · -- 0 ≤ ids[i]
    have hc : IntOp.cmpi .sge (ids i) 0#32 = 1#1 := Host.reduce_andi_all _ _ _ _ _ hIdsGe i
    have := IntOp.cmpi_sge.1 hc
    rwa [toInt_zero32] at this
  · -- ids[i] < 32000
    have hc : IntOp.cmpi .slt (ids i) 32000#32 = 1#1 := Host.reduce_andi_all _ _ _ _ _ hIdsLt i
    have := IntOp.cmpi_slt.1 hc
    rwa [toInt_32000] at this
  · -- 0 ≤ pos[i]
    have hc : IntOp.cmpi .sge (pos i) 0#32 = 1#1 := Host.reduce_andi_all _ _ _ _ _ hPosGe i
    have := IntOp.cmpi_sge.1 hc
    rwa [toInt_zero32] at this
  · -- pos[i] < 2048
    have hc : IntOp.cmpi .slt (pos i) 2048#32 = 1#1 := Host.reduce_andi_all _ _ _ _ _ hPosLt i
    have := IntOp.cmpi_slt.1 hc
    rwa [toInt_2048] at this

end Cert.Splice

end
-- ==== Proof.KWBody.lean ====
/-
  The two kernel bodies. Each copies ONE row of 2560 floats: it loads the whole [1, 1, 2560] block of its input
  window, and stores it, unchanged, over the whole block of its output window (the load of the output block that
  the body also makes is discarded). So, on whole staging memrefs, the input's at contents `x` and the output's at
  anything, either body ends with the input's as it was and the output's holding `x` again, read back through the
  one store that covers the block. The scalar tables (the row numbers) and, in the second kernel, the array left in
  HBM are arguments the bodies never touch.
-/
import proofs.«423035_j55576876810961_2_alg».proof.Proof.Gen.Kernel.Launch
import proofs.«423035_j55576876810961_2_alg».proof.Proof.Gen.Kernel.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block [1, 1, 2560], as the rectangle both bodies load and store through. -/
abbrev rRow : Rect S1x1x2560 := Rect.unit (s := S1x1x2560) ![0, 0, 0] S1x1x2560.size inb_S1x1x2560_S1x1x2560_0_0_0

/-- The row's one store covers the block. -/
theorem coverRow (p0 : Vec F S1x1x2560 .f32) (y : S1x1x2560.Idx) :
    ∃ pc ∈ ([⟨rRow, p0⟩] : List (View.Piece (Elt F) S1x1x2560 .f32)), y ∈ pc.1.set :=
  View.cover_of_tiled [⟨rRow, p0⟩] S1x1x2560.size (by rfl) y

/-! ## The gathering kernel's body -/

/-- What the first body leaves in its output block: the one store, of the input block re-shaped to itself. -/
def out0 (x0 : Vec F S1x1x2560 .f32) : Vec F S1x1x2560 .f32 :=
  View.canon [⟨rRow, k0_pay1 (View.ld x0 rRow)⟩]

set_option maxHeartbeats 1000000 in
/-- The first body on whole memrefs: input block at `x0`, output block at anything; it ends with the input as it was
    and the output at `out0 x0`. -/
theorem sound_kernel0 (c : Dev nD) (E : Set ℕ) (i : grid0.Coords)
    (arg1 : Memref sig .tc .smem S16384 .i32) (harg1 : arg1.IsWhole) (arg2 : Memref sig .tc .smem S16384 .i32) (harg2 : arg2.IsWhole)
    (arg3 : Memref sig .tc .vmem S1x1x2560 .f32) (harg3 : arg3.IsWhole) (arg4 : Memref sig .tc .vmem S1x1x2560 .f32) (harg4 : arg4.IsWhole)
    (x0 : Vec F S1x1x2560 .f32) (K : PUnit → sProp 𝕄) :
    iprop(owns (c : Thread nD τ) arg3 fullShare x0 ∗ (∃ d, owns (c : Thread nD τ) arg4 fullShare d)
        ∗ (iprop(owns (c : Thread nD τ) arg3 fullShare x0 ∗ owns (c : Thread nD τ) arg4 fullShare (out0 x0)) -∗ K ⟨⟩))
      ⊢ wp frame (wpE (defs₀ (F := F)) Variants.none c none) E (cc0__gather_place_body i arg1 harg1 arg2 harg2 arg3 harg3 arg4 harg4) K := by
  simp only [cc0__gather_place_body_eq_skeleton]; unfold cc0__gather_place_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverRow _)

/-! ## The overwriting kernel's body -/

/-- What the second body leaves in its output block. -/
def out1 (x0 : Vec F S1x1x2560 .f32) : Vec F S1x1x2560 .f32 :=
  View.canon [⟨rRow, k1_pay1 (View.ld x0 rRow)⟩]

set_option maxHeartbeats 1000000 in
/-- The second body on whole memrefs, likewise. -/
theorem sound_kernel1 (c : Dev nD) (E : Set ℕ) (i : grid1.Coords)
    (arg1 : Memref sig .tc .smem S4608 .i32) (harg1 : arg1.IsWhole)
    (arg2 : Memref sig .tc .vmem S1x1x2560 .f32) (harg2 : arg2.IsWhole) (arg3 : Memref sig .tc .hbm S20984x1x2560 .f32) (harg3 : arg3.IsWhole)
    (arg4 : Memref sig .tc .vmem S1x1x2560 .f32) (harg4 : arg4.IsWhole)
    (x0 : Vec F S1x1x2560 .f32) (K : PUnit → sProp 𝕄) :
    iprop(owns (c : Thread nD τ) arg2 fullShare x0 ∗ (∃ d, owns (c : Thread nD τ) arg4 fullShare d)
        ∗ (iprop(owns (c : Thread nD τ) arg2 fullShare x0 ∗ owns (c : Thread nD τ) arg4 fullShare (out1 x0)) -∗ K ⟨⟩))
      ⊢ wp frame (wpE (defs₀ (F := F)) Variants.none c none) E (cc1__image_overwrite_body i arg1 harg1 arg2 harg2 arg3 harg3 arg4 harg4) K := by
  simp only [cc1__image_overwrite_body_eq_skeleton]; unfold cc1__image_overwrite_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverRow _)

/-! ## What the bodies leave is the input block itself -/

/-- The row rectangle starts at the origin. -/
theorem rRow_off : (![0, 0, 0] : Fin S1x1x2560.rank → Nat) = fun _ => 0 := by
  funext a; match a with | ⟨0, _⟩ => rfl | ⟨1, _⟩ => rfl | ⟨2, _⟩ => rfl

/-- The first body's output block is its input block. -/
theorem out0_eq (x0 : Vec F S1x1x2560 .f32) : out0 x0 = x0 := by
  unfold out0 k0_pay1
  rw [View.canon_unit_zero (S := S1x1x2560) rRow_off]
  exact (shapeCast_self (View.ld x0 rRow) shapeCasts_S1x1x2560_S1x1x2560).trans (View.ld_unit_zero (S := S1x1x2560) rRow_off _ x0)

/-- The second body's output block is its input block. -/
theorem out1_eq (x0 : Vec F S1x1x2560 .f32) : out1 x0 = x0 := by
  unfold out1 k1_pay1
  rw [View.canon_unit_zero (S := S1x1x2560) rRow_off]
  exact (shapeCast_self (View.ld x0 rRow) shapeCasts_S1x1x2560_S1x1x2560).trans (View.ld_unit_zero (S := S1x1x2560) rRow_off _ x0)

end Cert.Kernel.Hand

end
-- ==== Proof.KWData.lean ====
/-
  The proof data of the two pipelines, each at a PARAMETER `V`: the TensorCore's buffer contents when the region is
  entered. A region's scalar tables are read off `V`; under the hypothesis that they are admissible (every block the
  index maps name lies inside its array) the pipeline is pinned at them, each window's block at a grid point is the
  array's row the tables name there, and the body leaves in the output's staging buffer the input's block.
-/
import proofs.«423035_j55576876810961_2_alg».proof.Proof.Gen.Kernel.Launch
import proofs.«423035_j55576876810961_2_alg».proof.Proof.Gen.Kernel.Skeleton
import proofs.«423035_j55576876810961_2_alg».proof.Proof.KWBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 -/

/-- The scalar tables' contents when region 0 is entered (there is one device). -/
def tbl0 : pre0.Contents (Elt F) := fun j => V (0 : Dev nD) (pre0.ref j)
theorem V_pre0 (c : Dev nD) (j : Fin 2) : V c (pre0.ref j) = tbl0 V j := by
  obtain rfl : c = 0 := Subsingleton.elim _ _; rfl

section
variable (hO : ok0 (F := F) (tbl0 V))

/-- The tables as admissible contents, and the pipeline at them. -/
abbrev adm0 : (pcfg0 (F := F)).Adm := ⟨tbl0 V, hO⟩
abbrev cfgM0 : Pipeline.Cfg sig Λ₀ := cfg0 (adm0 V hO)

/-- Window `w`'s block at point `t`, read off its array as the region finds it. -/
def iblk0 (c : Dev nD) (w : Fin (cfgM0 V hO).W) (t : Fin (cfgM0 V hO).N) :
    (((cfgM0 V hO).win w).xblock ((cfgM0 V hO).grid.coords t)).Idx → Elt F ((cfgM0 V hO).win w).elt :=
  (((cfgM0 V hO).win w).blk t).view.read (Elt F) (V c (Pipeline.arrRef spec0 w))

/-- The input window's current staging buffer holds its block at every point, fetched there or not. -/
theorem before0_0_of {c : Dev nD} (dat : Dat τ (Elt F) Unit ℕ (UR sig nD τ) ℕ (cfgM0 V hO) c) (hA : dat.A 0 = V c (Pipeline.arrRef spec0 0))
    (hafter : ∀ t, dat.after 0 t = iblk0 V hO c 0 t) (t : Fin (cfgM0 V hO).N) (d) : dat.before 0 t d = iblk0 V hO c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, and its wholeness. -/
abbrev ms0_0 (t : Fin (cfgM0 V hO).N) : Memref sig .tc .vmem S1x1x2560 .f32 := spec0_0.stage ((cfgM0 V hO).slots t 0)
abbrev hs0_0 (t : Fin (cfgM0 V hO).N) : (ms0_0 V hO t).IsWhole := hstage0_0 (((cfgM0 V hO).slots t 0).cast nbuf0_0)
abbrev ms0_1 (t : Fin (cfgM0 V hO).N) : Memref sig .tc .vmem S1x1x2560 .f32 := spec0_1.stage ((cfgM0 V hO).slots t 1)
abbrev hs0_1 (t : Fin (cfgM0 V hO).N) : (ms0_1 V hO t).IsWhole := hstage0_1 (((cfgM0 V hO).slots t 1).cast nbuf0_1)

/-- The kernel body at point `t`, on what the pipeline calls it with. -/
abbrev bodyAt0 (t : Fin (cfgM0 V hO).N) : Prog (TpuEff nD τ sig (Elt F) Λ₀ .tc) PUnit :=
  cc0__gather_place_body (grid0.coords t) (Memref.whole main_v18) (Memref.isWhole_whole _) (Memref.whole main_v17) (Memref.isWhole_whole _) (ms0_0 V hO t) (hs0_0 V hO t) (ms0_1 V hO t) (hs0_1 V hO t)

/-- The proof data of pipeline 0: the arrays as the region finds them; after the body at point `t` the input's buffer
    at its block and the output's at the body's result of that block; the invariant is the scoped rest and the
    generator register, beside the scalar tables held whole at their contents (no body reads them); nothing owed. -/
def dat0 (c : Dev nD) : Dat τ (Elt F) Unit ℕ (UR sig nD τ) ℕ (cfgM0 V hO) c where
  A w := V c (Pipeline.arrRef spec0 w)
  after w t := match w with
    | ⟨0, _⟩ => iblk0 V hO c 0 t
    | ⟨1, _⟩ => out0 (iblk0 V hO c 0 t)
  Φ _ := iprop(Pipeline.ΦA spec0 c ∗ (Pipeline.prefHeld pre0 c (fun _ => fullShare) (tbl0 V) : sProp 𝕄))
  q _ := fullShare
  owed _ := 0

theorem A_eq0 (c : Dev nD) (w : Fin (cfgM0 V hO).W) : (dat0 V hO c).A w = V c (Pipeline.arrRef spec0 w) := by
  dsimp only [dat0]
theorem after0_0 (c : Dev nD) (t : Fin (cfgM0 V hO).N) : (dat0 V hO c).after 0 t = iblk0 V hO c 0 t := by dsimp only [dat0]; rfl
theorem after0_1 (c : Dev nD) (t : Fin (cfgM0 V hO).N) : (dat0 V hO c).after 1 t = out0 (iblk0 V hO c 0 t) := by dsimp only [dat0]; rfl
theorem before0_0 (c : Dev nD) (t : Fin (cfgM0 V hO).N) (d) : (dat0 V hO c).before 0 t d = iblk0 V hO c 0 t :=
  before0_0_of V hO (dat0 V hO c) (A_eq0 V hO c 0) (after0_0 V hO c) t d

/-- What the body is called with at point `t`, the windows one by one, -/
def bodyPre0 (c : Dev nD) (t : Fin (cfgM0 V hO).N) : sProp 𝕄 :=
  iprop((dat0 V hO c).Φ t.castSucc ∗ (dat0 V hO c).owesAt () t.castSucc
    ∗ (∃ d, owns (c : Thread nD τ) (ms0_0 V hO t) fullShare ((dat0 V hO c).before 0 t d))
    ∗ (∃ d, owns (c : Thread nD τ) (ms0_1 V hO t) fullShare ((dat0 V hO c).before 1 t d)))

/-- and what it returns. -/
def bodyPost0 (c : Dev nD) (t : Fin (cfgM0 V hO).N) : sProp 𝕄 :=
  iprop((dat0 V hO c).Φ t.succ ∗ (dat0 V hO c).owesAt () t.succ
    ∗ owns (c : Thread nD τ) (ms0_0 V hO t) fullShare ((dat0 V hO c).after 0 t)
    ∗ owns (c : Thread nD τ) (ms0_1 V hO t) fullShare ((dat0 V hO c).after 1 t))

/-- The body at any point: the input's memref holds its block, so the body's triple applies; the invariant and the
    core's debts pass through unread. -/
theorem sound_body0 (c : Dev nD) (t : Fin (cfgM0 V hO).N) :
    bodyPre0 V hO c t ⊢ wp frame (wpE (defs₀ (F := F)) Variants.none c none) Set.univ (bodyAt0 V hO t) (fun _ => bodyPost0 V hO c t) := by
  unfold bodyPre0 bodyPost0 bodyAt0
  simp only [before0_0]
  rw [show (dat0 V hO c).Φ t.succ = (dat0 V hO c).Φ t.castSucc from rfl,
    show (dat0 V hO c).owesAt () t.succ = (dat0 V hO c).owesAt () t.castSucc from rfl,
    after0_0, after0_1]
  iintro ⟨HΦ, Ho, ⟨%d0, H0⟩, ⟨%d1, H1⟩⟩
  iapply (sound_kernel0 c Set.univ _ _ _ _ _ _ _ _ _ (iblk0 V hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V hO c) (defs₀ (F := F)) Variants.none () Set.univ := fun t => by
  rw [bigSep_W0, bigSep_W0]
  exact sound_body0 V hO c t

end

/-! # Region 1 -/

/-- The scalar tables' contents when region 1 is entered (there is one device). -/
def tbl1 : pre1.Contents (Elt F) := fun j => V (0 : Dev nD) (pre1.ref j)
theorem V_pre1 (c : Dev nD) (j : Fin 1) : V c (pre1.ref j) = tbl1 V j := by
  obtain rfl : c = 0 := Subsingleton.elim _ _; rfl

section
variable (hO : ok1 (F := F) (tbl1 V))

/-- The tables as admissible contents, and the pipeline at them. -/
abbrev adm1 : (pcfg1 (F := F)).Adm := ⟨tbl1 V, hO⟩
abbrev cfgM1 : Pipeline.Cfg sig Λ₀ := cfg1 (adm1 V hO)

/-- Window `w`'s block at point `t`, read off its array as the region finds it. -/
def iblk1 (c : Dev nD) (w : Fin (cfgM1 V hO).W) (t : Fin (cfgM1 V hO).N) :
    (((cfgM1 V hO).win w).xblock ((cfgM1 V hO).grid.coords t)).Idx → Elt F ((cfgM1 V hO).win w).elt :=
  (((cfgM1 V hO).win w).blk t).view.read (Elt F) (V c (Pipeline.arrRef spec1 w))

/-- The input window's current staging buffer holds its block at every point, fetched there or not. -/
theorem before1_0_of {c : Dev nD} (dat : Dat τ (Elt F) Unit ℕ (UR sig nD τ) ℕ (cfgM1 V hO) c) (hA : dat.A 0 = V c (Pipeline.arrRef spec1 0))
    (hafter : ∀ t, dat.after 0 t = iblk1 V hO c 0 t) (t : Fin (cfgM1 V hO).N) (d) : dat.before 0 t d = iblk1 V hO c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and its wholeness. -/
abbrev ms1_0 (t : Fin (cfgM1 V hO).N) : Memref sig .tc .vmem S1x1x2560 .f32 := spec1_0.stage ((cfgM1 V hO).slots t 0)
abbrev hs1_0 (t : Fin (cfgM1 V hO).N) : (ms1_0 V hO t).IsWhole := hstage1_0 (((cfgM1 V hO).slots t 0).cast nbuf1_0)
abbrev ms1_1 (t : Fin (cfgM1 V hO).N) : Memref sig .tc .vmem S1x1x2560 .f32 := spec1_1.stage ((cfgM1 V hO).slots t 1)
abbrev hs1_1 (t : Fin (cfgM1 V hO).N) : (ms1_1 V hO t).IsWhole := hstage1_1 (((cfgM1 V hO).slots t 1).cast nbuf1_1)

/-- The kernel body at point `t`, on what the pipeline calls it with. -/
abbrev bodyAt1 (t : Fin (cfgM1 V hO).N) : Prog (TpuEff nD τ sig (Elt F) Λ₀ .tc) PUnit :=
  cc1__image_overwrite_body (grid1.coords t) (Memref.whole main_v28) (Memref.isWhole_whole _) (ms1_0 V hO t) (hs1_0 V hO t) (Memref.whole main_v31) (Memref.isWhole_whole _) (ms1_1 V hO t) (hs1_1 V hO t)

/-- The proof data of pipeline 1: the arrays as the region finds them; after the body at point `t` the input's buffer
    at its block and the output's at the body's result of that block; the invariant is the scoped rest and the
    generator register, beside the scalar tables held whole at their contents (no body reads them); nothing owed. -/
def dat1 (c : Dev nD) : Dat τ (Elt F) Unit ℕ (UR sig nD τ) ℕ (cfgM1 V hO) c where
  A w := V c (Pipeline.arrRef spec1 w)
  after w t := match w with
    | ⟨0, _⟩ => iblk1 V hO c 0 t
    | ⟨1, _⟩ => out1 (iblk1 V hO c 0 t)
  Φ _ := iprop(Pipeline.ΦA spec1 c ∗ (Pipeline.prefHeld pre1 c (fun _ => fullShare) (tbl1 V) : sProp 𝕄))
  q _ := fullShare
  owed _ := 0

theorem A_eq1 (c : Dev nD) (w : Fin (cfgM1 V hO).W) : (dat1 V hO c).A w = V c (Pipeline.arrRef spec1 w) := by
  dsimp only [dat1]
theorem after1_0 (c : Dev nD) (t : Fin (cfgM1 V hO).N) : (dat1 V hO c).after 0 t = iblk1 V hO c 0 t := by dsimp only [dat1]; rfl
theorem after1_1 (c : Dev nD) (t : Fin (cfgM1 V hO).N) : (dat1 V hO c).after 1 t = out1 (iblk1 V hO c 0 t) := by dsimp only [dat1]; rfl
theorem before1_0 (c : Dev nD) (t : Fin (cfgM1 V hO).N) (d) : (dat1 V hO c).before 0 t d = iblk1 V hO c 0 t :=
  before1_0_of V hO (dat1 V hO c) (A_eq1 V hO c 0) (after1_0 V hO c) t d

/-- What the body is called with at point `t`, the windows one by one, -/
def bodyPre1 (c : Dev nD) (t : Fin (cfgM1 V hO).N) : sProp 𝕄 :=
  iprop((dat1 V hO c).Φ t.castSucc ∗ (dat1 V hO c).owesAt () t.castSucc
    ∗ (∃ d, owns (c : Thread nD τ) (ms1_0 V hO t) fullShare ((dat1 V hO c).before 0 t d))
    ∗ (∃ d, owns (c : Thread nD τ) (ms1_1 V hO t) fullShare ((dat1 V hO c).before 1 t d)))

/-- and what it returns. -/
def bodyPost1 (c : Dev nD) (t : Fin (cfgM1 V hO).N) : sProp 𝕄 :=
  iprop((dat1 V hO c).Φ t.succ ∗ (dat1 V hO c).owesAt () t.succ
    ∗ owns (c : Thread nD τ) (ms1_0 V hO t) fullShare ((dat1 V hO c).after 0 t)
    ∗ owns (c : Thread nD τ) (ms1_1 V hO t) fullShare ((dat1 V hO c).after 1 t))

/-- The body at any point: the input's memref holds its block, so the body's triple applies; the invariant and the
    core's debts pass through unread. -/
theorem sound_body1 (c : Dev nD) (t : Fin (cfgM1 V hO).N) :
    bodyPre1 V hO c t ⊢ wp frame (wpE (defs₀ (F := F)) Variants.none c none) Set.univ (bodyAt1 V hO t) (fun _ => bodyPost1 V hO c t) := by
  unfold bodyPre1 bodyPost1 bodyAt1
  simp only [before1_0]
  rw [show (dat1 V hO c).Φ t.succ = (dat1 V hO c).Φ t.castSucc from rfl,
    show (dat1 V hO c).owesAt () t.succ = (dat1 V hO c).owesAt () t.castSucc from rfl,
    after1_0, after1_1]
  iintro ⟨HΦ, Ho, ⟨%d0, H0⟩, ⟨%d1, H1⟩⟩
  iapply (sound_kernel1 c Set.univ _ _ _ _ _ _ _ _ _ (iblk1 V hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V hO c) (defs₀ (F := F)) Variants.none () Set.univ := fun t => by
  rw [bigSep_W1, bigSep_W1]
  exact sound_body1 V hO c t

end

end Regions

end Cert.Kernel.Hand

end
-- ==== Proof.KWRun.lean ====
/-
  @main's run: the TensorCore's buffer contents at every boundary between two items of @main, folded from the launch
  memory (a host stretch applies its operations; a region leaves in its windows' arrays what its write-backs leave and
  every other buffer as it found it), the two pipelines' proof data at their regions' entry contents, each region as a
  segment between two such thread states, and the launch: every weakly fair execution of @main terminates, nothing
  faulting, with every unscoped buffer at the last boundary's contents. The hypotheses `hO0`, `hO1` say that the scalar
  tables each region is entered with are admissible: every row they name lies inside its array.
-/
import proofs.«423035_j55576876810961_2_alg».proof.Proof.Gen.Kernel.Launch
import proofs.«423035_j55576876810961_2_alg».proof.Proof.Gen.Kernel.Skeleton
import proofs.«423035_j55576876810961_2_alg».proof.Proof.KWData
import proofs.«423035_j55576876810961_2_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- What region 0 is entered with, read at the TensorCore's references: the launch memory after the three host stretches
    before it. -/
abbrev En0 : (c : Dev nD) → (b : Ref sig .tc) → Buf (Elt F) ((c : Thread nD τ).loc b) := fun c b => V3 m c b

section
variable (hO0 : ok0 (F := F) (tbl0 (En0 m)))

/-- At region 0's exit: its arrays at what the pipeline leaves, every other buffer as entered. -/
def W4 (c : Dev nD) : Valuation τ sig (Elt F) :=
  Pipeline.withArrays spec0 c (V3 m c) fun w => (dat0 (En0 m) hO0 c).arrAt w (cfgM0 (En0 m) hO0).N
theorem W4_arr (c : Dev nD) (w : Fin (cfgM0 (En0 m) hO0).W) :
    W4 m hO0 c (Proc.devRef .tc (Pipeline.arrRef spec0 w)) = (dat0 (En0 m) hO0 c).arrAt w (cfgM0 (En0 m) hO0).N := by
  unfold W4; exact Pipeline.withArrays_arr spec0 (launch0 (F := F)).win.arr_inj c _ _ w
theorem W4_of_ne (c : Dev nD) (b : Ref sig .tc) (hb : ∀ w, Pipeline.arrRef spec0 w ≠ b) :
    W4 m hO0 c (Proc.devRef .tc b) = V3 m c (Proc.devRef .tc b) := by
  unfold W4; exact Pipeline.withArrays_of_ne spec0 c _ _ b hb
abbrev Ex0 : (c : Dev nD) → (b : Ref sig .tc) → Buf (Elt F) ((c : Thread nD τ).loc b) := fun c b => W4 m hO0 c b
theorem hF0 (c : Dev nD) (w : Fin (cfgM0 (En0 m) hO0).W) : (dat0 (En0 m) hO0 c).arrAt w (cfgM0 (En0 m) hO0).N = Ex0 m hO0 c (Pipeline.arrRef spec0 w) :=
  (W4_arr m hO0 c w).symm
theorem hrest0 (c : Dev nD) : ∀ b, b ∉ Finset.univ.image (Pipeline.arrRef spec0) → Ex0 m hO0 c b = En0 m c b :=
  fun b hb => W4_of_ne m hO0 c b fun w e => hb (Finset.mem_image.mpr ⟨w, Finset.mem_univ _, e⟩)

/-- After the one host operation between the regions (region 1's entry). -/
abbrev W5 : Dev nD → Valuation τ sig (Elt F) := fun c => StableHlo.after hostOps1 (W4 m hO0 c)
abbrev En1 : (c : Dev nD) → (b : Ref sig .tc) → Buf (Elt F) ((c : Thread nD τ).loc b) := fun c b => W5 m hO0 c b

section
variable (hO1 : ok1 (F := F) (tbl1 (En1 m hO0)))

/-- At region 1's exit. -/
def W6 (c : Dev nD) : Valuation τ sig (Elt F) :=
  Pipeline.withArrays spec1 c (W5 m hO0 c) fun w => (dat1 (En1 m hO0) hO1 c).arrAt w (cfgM1 (En1 m hO0) hO1).N
theorem W6_arr (c : Dev nD) (w : Fin (cfgM1 (En1 m hO0) hO1).W) :
    W6 m hO0 hO1 c (Proc.devRef .tc (Pipeline.arrRef spec1 w)) = (dat1 (En1 m hO0) hO1 c).arrAt w (cfgM1 (En1 m hO0) hO1).N := by
  unfold W6; exact Pipeline.withArrays_arr spec1 (launch1 (F := F)).win.arr_inj c _ _ w
theorem W6_of_ne (c : Dev nD) (b : Ref sig .tc) (hb : ∀ w, Pipeline.arrRef spec1 w ≠ b) :
    W6 m hO0 hO1 c (Proc.devRef .tc b) = W5 m hO0 c (Proc.devRef .tc b) := by
  unfold W6; exact Pipeline.withArrays_of_ne spec1 c _ _ b hb
abbrev Ex1 : (c : Dev nD) → (b : Ref sig .tc) → Buf (Elt F) ((c : Thread nD τ).loc b) := fun c b => W6 m hO0 hO1 c b
theorem hF1 (c : Dev nD) (w : Fin (cfgM1 (En1 m hO0) hO1).W) : (dat1 (En1 m hO0) hO1 c).arrAt w (cfgM1 (En1 m hO0) hO1).N = Ex1 m hO0 hO1 c (Pipeline.arrRef spec1 w) :=
  (W6_arr m hO0 hO1 c w).symm
theorem hrest1 (c : Dev nD) : ∀ b, b ∉ Finset.univ.image (Pipeline.arrRef spec1) → Ex1 m hO0 hO1 c b = En1 m hO0 c b :=
  fun b hb => W6_of_ne m hO0 hO1 c b fun w e => hb (Finset.mem_image.mpr ⟨w, Finset.mem_univ _, e⟩)

/-- After each of the eight host stretches that follow region 1. -/
abbrev W7 : Dev nD → Valuation τ sig (Elt F) := fun c => StableHlo.after hostOps2 (W6 m hO0 hO1 c)
abbrev W8 : Dev nD → Valuation τ sig (Elt F) := fun c => StableHlo.after hostOps2_1 (W7 m hO0 hO1 c)
abbrev W9 : Dev nD → Valuation τ sig (Elt F) := fun c => StableHlo.after hostOps2_2 (W8 m hO0 hO1 c)
abbrev W10 : Dev nD → Valuation τ sig (Elt F) := fun c => StableHlo.after hostOps2_3 (W9 m hO0 hO1 c)
abbrev W11 : Dev nD → Valuation τ sig (Elt F) := fun c => StableHlo.after hostOps2_4 (W10 m hO0 hO1 c)
abbrev W12 : Dev nD → Valuation τ sig (Elt F) := fun c => StableHlo.after hostOps2_5 (W11 m hO0 hO1 c)
abbrev W13 : Dev nD → Valuation τ sig (Elt F) := fun c => StableHlo.after hostOps2_6 (W12 m hO0 hO1 c)
abbrev W14 : Dev nD → Valuation τ sig (Elt F) := fun c => StableHlo.after hostOps2_7 (W13 m hO0 hO1 c)

/-! ## The proof data family and the thread state -/

/-- The tables' admissible contents, pipeline by pipeline. -/
abbrev adm : (p : Fin 2) → (pcfgs (F := F) p).Adm
  | ⟨0, _⟩ => adm0 (En0 m) hO0
  | ⟨1, _⟩ => adm1 (En1 m hO0) hO1
/-- Every pipeline's proof data, each at its region's entry contents. -/
def pdats : (p : Fin 2) → (c : Dev nD) → Dat τ (Elt F) Unit ℕ (UR sig nD τ) ℕ (Pipeline.pin (pcfgs (F := F)) (adm m hO0 hO1) p) c
  | ⟨0, _⟩ => fun c => dat0 (En0 m) hO0 c
  | ⟨1, _⟩ => fun c => dat1 (En1 m hO0) hO1 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

-- a library lemma stated over `pin pcs a p` unifies with the pinned configuration only when unification may unfold plain
-- definitions in a metavariable's type
set_option backward.isDefEq.respectTransparency.types false in
/-- Region 0 over the thread state: entered with every unscoped buffer at the entry contents, left with them at the exit
    contents. Out of the unscoped buffers come the windows' arrays and the scalar tables (held whole, at the contents the
    pipeline is pinned at); the tables and the generator register ride the invariant and come back; at the exit the arrays
    at what the write-backs leave, the tables and the rest are the unscoped buffers again. -/
def reg0 : Pipeline.RegionSeg (pcfgs (F := F)) (adm m hO0 hO1) (pdats m hO0 hO1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (En0 m) hO0 c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m hO0 c) ∗ R c)
  X c := iprop(∃ r, prngReg c r)
  Y c := iprop((∃ r, prngReg c r) ∗ (Pipeline.prefHeld pre0 c (fun _ => fullShare) (tbl0 (En0 m)) : sProp 𝕄))
  Z c := Pipeline.unscopedRestP (Ix := Unit) (Name := ℕ) (U := UR sig nD τ) (Lvl := ℕ) pre0 spec0 c (En0 m c)
  hentry c := by
    have htab : (fun k => En0 m c ((pcfgs (F := F) 0).pre.ref k)) = tbl0 (En0 m) := funext fun k => V_pre0 (En0 m) c k
    rw [Pipeline.ownSems0_none]
    have hsplit := Pipeline.arrays_of_unscopedBufs (p := 0) (pcfgs (F := F)) (adm m hO0 hO1) (pdats m hO0 hO1) (launch0 (F := F)).win (launch0 (F := F)).arr_whole c
      ((pdats m hO0 hO1 0 c).share_full fun _ => rfl) (En0 m c) fun _ => rfl
    rw [Pipeline.unscopedBufs_held, Pipeline.unscopedRest_split (launch0 (F := F)).pre c (En0 m c), htab] at hsplit
    iintro ⟨⟨Hub, Hp, HO⟩, -, -⟩
    ihave H := hsplit $$ Hub
    icases H with ⟨Ha, Htab, Hrest⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO0 hO1 0 c).Φ 0 = iprop(Pipeline.ΦA spec0 c ∗ (Pipeline.prefHeld pre0 c (fun _ => fullShare) (tbl0 (En0 m)) : sProp 𝕄)) from rfl]; unfold Pipeline.ΦA
    iintro ⟨Hp, Htab, Hr⟩
    isplitl [Hr Hp]
    · isplitl [Hr]; · iexact Hr
      iexact Hp
    iexact Htab
  hout c := by
    rw [Pipeline.ownSems0_none, show (pdats m hO0 hO1 0 c).Φ (Fin.last _) = iprop(Pipeline.ΦA spec0 c ∗ (Pipeline.prefHeld pre0 c (fun _ => fullShare) (tbl0 (En0 m)) : sProp 𝕄)) from rfl]; unfold Pipeline.ΦA
    iintro ⟨⟨Hr, Hp⟩, Htab⟩
    isplitl [Hp Htab]
    · isplitl [Hp]; · iexact Hp
      iexact Htab
    isplitr; · iempintro
    iexact Hr
  hexit c := by
    have htab : (fun k => En0 m c ((pcfgs (F := F) 0).pre.ref k)) = tbl0 (En0 m) := funext fun k => V_pre0 (En0 m) c k
    have hjoin := Pipeline.unscopedBufs_of_arrays (p := 0) (pcfgs (F := F)) (adm m hO0 hO1) (Ix := Unit) (Name := ℕ) (U := UR sig nD τ) (Lvl := ℕ)
      (launch0 (F := F)).win (launch0 (F := F)).arr_whole c (pdats m hO0 hO1) ((pdats m hO0 hO1 0 c).share_full fun _ => rfl)
      (En0 m c) (Ex0 m hO0 c) ((pdats m hO0 hO1 0 c).arrAt · (cfgM0 (En0 m) hO0).N) (hF0 m hO0 c) (hrest0 m hO0 c)
    rw [Pipeline.unscopedBufs_held, Pipeline.unscopedRest_split (launch0 (F := F)).pre c (En0 m c), htab] at hjoin
    iintro ⟨Ha, HO, ⟨HY, Htab⟩, Hrest⟩
    imodintro
    isplitl [Ha Hrest Htab]
    · iapply hjoin; isplitl [Ha]; · iexact Ha
      isplitl [Htab]; · iexact Htab
      iexact Hrest
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 1 over the thread state: entered with every unscoped buffer at the entry contents, left with them at the exit
    contents. Out of the unscoped buffers come the windows' arrays and the scalar tables (held whole, at the contents the
    pipeline is pinned at); the tables and the generator register ride the invariant and come back; at the exit the arrays
    at what the write-backs leave, the tables and the rest are the unscoped buffers again. -/
def reg1 : Pipeline.RegionSeg (pcfgs (F := F)) (adm m hO0 hO1) (pdats m hO0 hO1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (En1 m hO0) hO1 c).loose
  hwaits := Pipeline.hwaits_of_owed_zero _ _ _ _ L lv 1 fun _ _ => rfl
  pre c := iprop(StableHlo.held (c : Thread nD τ) (Pipeline.ucRefs τ sig) (W5 m hO0 c) ∗ R c)
  post c := iprop(StableHlo.held (c : Thread nD τ) (Pipeline.ucRefs τ sig) (W6 m hO0 hO1 c) ∗ R c)
  X c := iprop(∃ r, prngReg c r)
  Y c := iprop((∃ r, prngReg c r) ∗ (Pipeline.prefHeld pre1 c (fun _ => fullShare) (tbl1 (En1 m hO0)) : sProp 𝕄))
  Z c := Pipeline.unscopedRestP (Ix := Unit) (Name := ℕ) (U := UR sig nD τ) (Lvl := ℕ) pre1 spec1 c (En1 m hO0 c)
  hentry c := by
    have htab : (fun k => En1 m hO0 c ((pcfgs (F := F) 1).pre.ref k)) = tbl1 (En1 m hO0) := funext fun k => V_pre1 (En1 m hO0) c k
    rw [Pipeline.ownSems0_none]
    have hsplit := Pipeline.arrays_of_unscopedBufs (p := 1) (pcfgs (F := F)) (adm m hO0 hO1) (pdats m hO0 hO1) (launch1 (F := F)).win (launch1 (F := F)).arr_whole c
      ((pdats m hO0 hO1 1 c).share_full fun _ => rfl) (En1 m hO0 c) fun _ => rfl
    rw [Pipeline.unscopedBufs_held, Pipeline.unscopedRest_split (launch1 (F := F)).pre c (En1 m hO0 c), htab] at hsplit
    iintro ⟨⟨Hub, Hp, HO⟩, -, -⟩
    ihave H := hsplit $$ Hub
    icases H with ⟨Ha, Htab, Hrest⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO0 hO1 1 c).Φ 0 = iprop(Pipeline.ΦA spec1 c ∗ (Pipeline.prefHeld pre1 c (fun _ => fullShare) (tbl1 (En1 m hO0)) : sProp 𝕄)) from rfl]; unfold Pipeline.ΦA
    iintro ⟨Hp, Htab, Hr⟩
    isplitl [Hr Hp]
    · isplitl [Hr]; · iexact Hr
      iexact Hp
    iexact Htab
  hout c := by
    rw [Pipeline.ownSems0_none, show (pdats m hO0 hO1 1 c).Φ (Fin.last _) = iprop(Pipeline.ΦA spec1 c ∗ (Pipeline.prefHeld pre1 c (fun _ => fullShare) (tbl1 (En1 m hO0)) : sProp 𝕄)) from rfl]; unfold Pipeline.ΦA
    iintro ⟨⟨Hr, Hp⟩, Htab⟩
    isplitl [Hp Htab]
    · isplitl [Hp]; · iexact Hp
      iexact Htab
    isplitr; · iempintro
    iexact Hr
  hexit c := by
    have htab : (fun k => En1 m hO0 c ((pcfgs (F := F) 1).pre.ref k)) = tbl1 (En1 m hO0) := funext fun k => V_pre1 (En1 m hO0) c k
    have hjoin := Pipeline.unscopedBufs_of_arrays (p := 1) (pcfgs (F := F)) (adm m hO0 hO1) (Ix := Unit) (Name := ℕ) (U := UR sig nD τ) (Lvl := ℕ)
      (launch1 (F := F)).win (launch1 (F := F)).arr_whole c (pdats m hO0 hO1) ((pdats m hO0 hO1 1 c).share_full fun _ => rfl)
      (En1 m hO0 c) (Ex1 m hO0 hO1 c) ((pdats m hO0 hO1 1 c).arrAt · (cfgM1 (En1 m hO0) hO1).N) (hF1 m hO0 hO1 c) (hrest1 m hO0 hO1 c)
    rw [Pipeline.unscopedBufs_held, Pipeline.unscopedRest_split (launch1 (F := F)).pre c (En1 m hO0 c), htab] at hjoin
    iintro ⟨Ha, HO, ⟨HY, Htab⟩, Hrest⟩
    imodintro
    isplitl [Ha Hrest Htab]
    · iapply hjoin; isplitl [Ha]; · iexact Ha
      isplitl [Htab]; · iexact Htab
      iexact Hrest
    isplitl [HY]; · iexact HY
    unfold Pipeline.Dat.owesAt Pipeline.owesWithin
    icases HO with ⟨%W, -, HO⟩; iexists W; iexact HO

/-! ## @main as segments, and the launch -/

/-- @main's fourteen items in order. -/
abbrev segs : List (Pipeline.Seg (pcfgs (F := F)) (adm m hO0 hO1) (pdats m hO0 hO1) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m hO0 hO1),
    .host (hseg hostOps1 hostOps1_sub hostOps1_fresh (W4 m hO0)),
    .region (reg1 m hO0 hO1),
    .host (hseg hostOps2 hostOps2_sub hostOps2_fresh (W6 m hO0 hO1)),
    .host (hseg hostOps2_1 hostOps2_1_sub hostOps2_1_fresh (W7 m hO0 hO1)),
    .host (hseg hostOps2_2 hostOps2_2_sub hostOps2_2_fresh (W8 m hO0 hO1)),
    .host (hseg hostOps2_3 hostOps2_3_sub hostOps2_3_fresh (W9 m hO0 hO1)),
    .host (hseg hostOps2_4 hostOps2_4_sub hostOps2_4_fresh (W10 m hO0 hO1)),
    .host (hseg hostOps2_5 hostOps2_5_sub hostOps2_5_fresh (W11 m hO0 hO1)),
    .host (hseg hostOps2_6 hostOps2_6_sub hostOps2_6_fresh (W12 m hO0 hO1)),
    .host (hseg hostOps2_7 hostOps2_7_sub hostOps2_7_fresh (W13 m hO0 hO1)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding plain
-- definitions in a metavariable's type
set_option backward.isDefEq.respectTransparency.types false in
/-- THE RUN: from any memory with zero counters, every weakly fair execution of @main terminates, nothing faulting, and
    every final state holds every unscoped buffer at the last boundary's contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m hO0 hO1 c b) :=
  Pipeline.θ_run_regions_kit (pcfgs (F := F)) (adm m hO0 hO1) (pdats m hO0 hO1) () (cellOf_inj (adm m hO0 hO1)) emb₁ defs₀ 𝒱₀ L lv m ρ main (segs m hO0 hO1)
    (fun c Q => by
      rewrite [main_chain c, Pipeline.Seg.run_eq_chain,
        show (segs m hO0 hO1).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO0 hO1)) (cellOf_inj (adm m hO0 hO1))) (Pipeline.launchToks (Pipeline.pin (pcfgs (F := F)) (adm m hO0 hO1)) (cellOf_inj (adm m hO0 hO1))))
    (hu₀ := by
      iintro Hu; imodintro
      isplitl [Hu]
      · iapply (show (ownU (initOf (Pipeline.cells (Pipeline.pin (pcfgs (F := F)) (adm m hO0 hO1)) (cellOf_inj (adm m hO0 hO1))) (Pipeline.launchToks (Pipeline.pin (pcfgs (F := F)) (adm m hO0 hO1)) (cellOf_inj (adm m hO0 hO1)))) : sProp 𝕄)
            ⊢ BI.own (emb₁ (initOf (Pipeline.cells (Pipeline.pin (pcfgs (F := F)) (adm m hO0 hO1)) (cellOf_inj (adm m hO0 hO1))) (Pipeline.launchToks (Pipeline.pin (pcfgs (F := F)) (adm m hO0 hO1)) (cellOf_inj (adm m hO0 hO1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W14 m hO0 hO1 c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => sep_mono .rfl (show R (F := F) c ⊢ iprop(∃ W, owes (c : Thread nD τ) (0 : CellTallies nD τ sig Unit) W) from by
        iintro ⟨-, HO⟩
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m hO0 hO1 c b)
    (hfin := fun c s' => by
      iintro ⟨Hh, HSI⟩
      unfold StableHlo.held
      imodintro
      iapply (pointsTo_read_all (Pipeline.ucRefs τ sig) (fun b => (((c : Thread nD τ)).1, b)) (W14 m hO0 hO1 c) s')
      isplitl [Hh] <;> iassumption)
    (hQ := fun s h c => h c)

end
end

end Cert.Kernel.Hand

end
-- ==== Proof.KWFrame.lean ====
/-
  The frame: no item of @main writes an argument array — no host operation names one as its result, and neither region
  has one among its windows' arrays — so at the last boundary each argument holds what the launch memory held, and
  the run ends with the arguments unchanged.
-/
import proofs.«423035_j55576876810961_2_alg».proof.Proof.Gen.Kernel.Launch
import proofs.«423035_j55576876810961_2_alg».proof.Proof.Gen.Kernel.Skeleton
import proofs.«423035_j55576876810961_2_alg».proof.Proof.KWRun
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hO0 : ok0 (F := F) (tbl0 (En0 m))) (hO1 : ok1 (F := F) (tbl1 (En1 m hO0)))

theorem W14_main_arg0 (c : Dev nD) : W14 m hO0 hO1 c main_arg0 = m ((c : Thread nD τ).loc main_arg0) :=
  (StableHlo.after_of_writes_sub hostOps2_7 _ hostOps2_7_writes (by decide)).trans <|
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W6_of_ne m hO0 hO1 c main_arg0 (by decide)).trans <|
  (StableHlo.after_of_writes_sub hostOps1 _ hostOps1_writes (by decide)).trans <|
  (W4_of_ne m hO0 c main_arg0 (by decide)).trans <|
  (V3_of m c main_arg0 (by decide)).trans <| (V2_of m c main_arg0 (by decide)).trans <| (V1_of m c main_arg0 (by decide)).trans rfl

theorem W14_main_arg1 (c : Dev nD) : W14 m hO0 hO1 c main_arg1 = m ((c : Thread nD τ).loc main_arg1) :=
  (StableHlo.after_of_writes_sub hostOps2_7 _ hostOps2_7_writes (by decide)).trans <|
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W6_of_ne m hO0 hO1 c main_arg1 (by decide)).trans <|
  (StableHlo.after_of_writes_sub hostOps1 _ hostOps1_writes (by decide)).trans <|
  (W4_of_ne m hO0 c main_arg1 (by decide)).trans <|
  (V3_of m c main_arg1 (by decide)).trans <| (V2_of m c main_arg1 (by decide)).trans <| (V1_of m c main_arg1 (by decide)).trans rfl

theorem W14_main_arg2 (c : Dev nD) : W14 m hO0 hO1 c main_arg2 = m ((c : Thread nD τ).loc main_arg2) :=
  (StableHlo.after_of_writes_sub hostOps2_7 _ hostOps2_7_writes (by decide)).trans <|
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W6_of_ne m hO0 hO1 c main_arg2 (by decide)).trans <|
  (StableHlo.after_of_writes_sub hostOps1 _ hostOps1_writes (by decide)).trans <|
  (W4_of_ne m hO0 c main_arg2 (by decide)).trans <|
  (V3_of m c main_arg2 (by decide)).trans <| (V2_of m c main_arg2 (by decide)).trans <| (V1_of m c main_arg2 (by decide)).trans rfl

theorem W14_main_arg3 (c : Dev nD) : W14 m hO0 hO1 c main_arg3 = m ((c : Thread nD τ).loc main_arg3) :=
  (StableHlo.after_of_writes_sub hostOps2_7 _ hostOps2_7_writes (by decide)).trans <|
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W6_of_ne m hO0 hO1 c main_arg3 (by decide)).trans <|
  (StableHlo.after_of_writes_sub hostOps1 _ hostOps1_writes (by decide)).trans <|
  (W4_of_ne m hO0 c main_arg3 (by decide)).trans <|
  (V3_of m c main_arg3 (by decide)).trans <| (V2_of m c main_arg3 (by decide)).trans <| (V1_of m c main_arg3 (by decide)).trans rfl

theorem W14_main_arg4 (c : Dev nD) : W14 m hO0 hO1 c main_arg4 = m ((c : Thread nD τ).loc main_arg4) :=
  (StableHlo.after_of_writes_sub hostOps2_7 _ hostOps2_7_writes (by decide)).trans <|
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W6_of_ne m hO0 hO1 c main_arg4 (by decide)).trans <|
  (StableHlo.after_of_writes_sub hostOps1 _ hostOps1_writes (by decide)).trans <|
  (W4_of_ne m hO0 c main_arg4 (by decide)).trans <|
  (V3_of m c main_arg4 (by decide)).trans <| (V2_of m c main_arg4 (by decide)).trans <| (V1_of m c main_arg4 (by decide)).trans rfl

include hO0 hO1 in
/-- Every weakly fair execution of @main terminates, nothing faulting, with the five argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W14_main_arg0 m hO0 hO1 c),
     (h c _ (mem_uc main_arg1 (by decide))).trans (W14_main_arg1 m hO0 hO1 c),
     (h c _ (mem_uc main_arg2 (by decide))).trans (W14_main_arg2 m hO0 hO1 c),
     (h c _ (mem_uc main_arg3 (by decide))).trans (W14_main_arg3 m hO0 hO1 c),
     (h c _ (mem_uc main_arg4 (by decide))).trans (W14_main_arg4 m hO0 hO1 c)⟩)
    (run_all m ρ hO0 hO1)

end Cert.Kernel.Hand

end
-- ==== Proof.KWTables.lean ====
/-
  What the host operations in front of the first kernel call leave in the buffers the two kernels read, index by index.

  Five arrays are prepared from the arguments. Three are reshapes: the token ids `[8, 2048]` laid flat as `[16384]`,
  the image features `[8, 576, 2560]` as `[4608, 1, 2560]`, the table `[32000, 2560]` as `[32000, 1, 2560]`; a
  reshape keeps the row-major position, so the flat index `b * 2048 + l` reads `(b, l)`, and so on. Two are tables of
  destination rows, computed on 32-bit words: for token `l` of sample `b`, whose image sits at `p = pos[b]`, the row
  `b * 2623 + (l if l < p else l + 576 - 1)` of the spliced sequences laid end to end; for patch `q` of sample `b` the
  row `b * 2623 + p + q`. With `0 ≤ p < 2048` every intermediate word is far below `2^31`, so no addition,
  multiplication or subtraction wraps and the signed comparison is the comparison of the numbers.

  Each array is first written as the composed term of its operations over the launch memory, then that term is read at
  an index: a reshape through the row-major position, a broadcast through the coordinates it keeps, an iota as its
  coordinate, the elementwise word operations pointwise; the word arithmetic is last.
-/
import proofs.«423035_j55576876810961_2_alg».proof.Proof.Gen.Kernel.Regions
import proofs.«423035_j55576876810961_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

namespace Cert.Kernel.Hand

open Cert.Kernel Cert.Kernel.Gen Idealize.ShloMosaic Idealize.ShloMosaic.TcCoe Idealize.ShloMosaic.ValueIdx
open Idealize.ShloMosaic.StableHlo

/-! ## Reshapes at an index -/

section Reshapes

variable {α : Type}

/-- `[8, 2048]` laid flat: position `b * 2048 + l` holds entry `(b, l)`. -/
theorem flat_8x2048 (x : S8x2048.Idx → α) (h : S8x2048.ShapeCasts S16384) (b : Fin 8) (l : Fin 2048) :
    shapeCast S16384 x h (ValueIdx.ix1 ⟨b.val * 2048 + l.val, by omega⟩) = x (ix2 b l) :=
  shapeCast_apply x h _ _ (by
    rw [Shape.rowMajor_val_two, Shape.rowMajor_val_one]
    rfl)

/-- `[8, 576]` laid flat: position `b * 576 + q` holds entry `(b, q)`. -/
theorem flat_8x576 (x : S8x576.Idx → α) (h : S8x576.ShapeCasts S4608) (b : Fin 8) (q : Fin 576) :
    shapeCast S4608 x h (ValueIdx.ix1 ⟨b.val * 576 + q.val, by omega⟩) = x (ix2 b q) :=
  shapeCast_apply x h _ _ (by
    rw [Shape.rowMajor_val_two, Shape.rowMajor_val_one]
    rfl)

/-- `[8, 576, 2560]` with its two leading axes merged and a unit axis put in: row `b * 576 + q` is patch `(b, q)`. -/
theorem rows_8x576x2560 (x : S8x576x2560.Idx → α) (h : S8x576x2560.ShapeCasts S4608x1x2560)
    (b : Fin 8) (q : Fin 576) (k : Fin 2560) :
    shapeCast S4608x1x2560 x h (ix3 ⟨b.val * 576 + q.val, by omega⟩ (0 : Fin 1) k) = x (ix3 b q k) :=
  shapeCast_apply x h _ _ (by
    rw [Shape.rowMajor_val_three, Shape.rowMajor_val_three]
    show (b.val * 576 + q.val) * 2560 + k.val = ((b.val * 576 + q.val) * 1 + 0) * 2560 + k.val
    omega)

/-- `[32000, 2560]` with a unit axis put in the middle: row `r` stays row `r`. -/
theorem rows_32000x2560 (x : S32000x2560.Idx → α) (h : S32000x2560.ShapeCasts S32000x1x2560)
    (r : Fin 32000) (k : Fin 2560) :
    shapeCast S32000x1x2560 x h (ix3 r (0 : Fin 1) k) = x (ix2 r k) :=
  shapeCast_apply x h _ _ (by
    rw [Shape.rowMajor_val_two, Shape.rowMajor_val_three]
    show r.val * 2560 + k.val = (r.val * 1 + 0) * 2560 + k.val
    omega)

end Reshapes

/-! ## Broadcasts at an index -/

section Broadcasts

variable {α : Type}

/-- A vector of 8 made a column `[8, 1]`. -/
theorem col_8 (h : S8.BroadcastsInDim S8x1 ![0]) (x : S8.Idx → α) (b : Fin 8) (u : Fin 1) :
    broadcastInDim S8x1 ![0] h x (ix2 b u) = x (ValueIdx.ix1 b) :=
  broadcastInDim_apply _ h x _ _ fun a => match a with | ⟨0, _⟩ => rfl

/-- A vector of 2048 made a row `[1, 2048]`. -/
theorem row_2048 (h : S2048.BroadcastsInDim S1x2048 ![1]) (x : S2048.Idx → α) (u : Fin 1) (l : Fin 2048) :
    broadcastInDim S1x2048 ![1] h x (ix2 u l) = x (ValueIdx.ix1 l) :=
  broadcastInDim_apply _ h x _ _ fun a => match a with | ⟨0, _⟩ => rfl

/-- A vector of 576 made a row `[1, 576]`. -/
theorem row_576 (h : S576.BroadcastsInDim S1x576 ![1]) (x : S576.Idx → α) (u : Fin 1) (q : Fin 576) :
    broadcastInDim S1x576 ![1] h x (ix2 u q) = x (ValueIdx.ix1 q) :=
  broadcastInDim_apply _ h x _ _ fun a => match a with | ⟨0, _⟩ => rfl

/-- A column `[8, 1]` repeated along 2048 columns. -/
theorem col_rep_2048 (h : S8x1.BroadcastsInDim S8x2048 ![0, 1]) (x : S8x1.Idx → α) (b : Fin 8) (l : Fin 2048) :
    broadcastInDim S8x2048 ![0, 1] h x (ix2 b l) = x (ix2 b (0 : Fin 1)) :=
  broadcastInDim_apply _ h x _ _ fun a => match a with | ⟨0, _⟩ => rfl | ⟨1, _⟩ => rfl

/-- A row `[1, 2048]` repeated along 8 rows. -/
theorem row_rep_2048 (h : S1x2048.BroadcastsInDim S8x2048 ![0, 1]) (x : S1x2048.Idx → α) (b : Fin 8) (l : Fin 2048) :
    broadcastInDim S8x2048 ![0, 1] h x (ix2 b l) = x (ix2 (0 : Fin 1) l) :=
  broadcastInDim_apply _ h x _ _ fun a => match a with | ⟨0, _⟩ => rfl | ⟨1, _⟩ => rfl

/-- A column `[8, 1]` repeated along 576 columns. -/
theorem col_rep_576 (h : S8x1.BroadcastsInDim S8x576 ![0, 1]) (x : S8x1.Idx → α) (b : Fin 8) (q : Fin 576) :
    broadcastInDim S8x576 ![0, 1] h x (ix2 b q) = x (ix2 b (0 : Fin 1)) :=
  broadcastInDim_apply _ h x _ _ fun a => match a with | ⟨0, _⟩ => rfl | ⟨1, _⟩ => rfl

/-- A row `[1, 576]` repeated along 8 rows. -/
theorem row_rep_576 (h : S1x576.BroadcastsInDim S8x576 ![0, 1]) (x : S1x576.Idx → α) (b : Fin 8) (q : Fin 576) :
    broadcastInDim S8x576 ![0, 1] h x (ix2 b q) = x (ix2 (0 : Fin 1) q) :=
  broadcastInDim_apply _ h x _ _ fun a => match a with | ⟨0, _⟩ => rfl | ⟨1, _⟩ => rfl

end Broadcasts

/-! ## The two destination tables as terms at an index -/

/-- The patch destinations before the final flattening, at `(b, q)`: `b * 2623 + (pos[b] + q)` on words. -/
theorem dest2_term_apply (pos : S8.Idx → BitVec 32) (b : Fin 8) (q : Fin 576) :
    addi
        (broadcastInDim S8x576 ![0, 1] bcast_S8x1_S8x576_0_1
          (muli (broadcastInDim S8x1 ![0] bcast_S8_S8x1_0 (iotaInDim S8 32 0))
            (broadcastInDim S8x1 ![] bcast_S_S8x1 (constantI S_ 32 2623#32))))
        (addi
          (broadcastInDim S8x576 ![0, 1] bcast_S8x1_S8x576_0_1 (broadcastInDim S8x1 ![0] bcast_S8_S8x1_0 pos))
          (broadcastInDim S8x576 ![0, 1] bcast_S1x576_S8x576_0_1
            (broadcastInDim S1x576 ![1] bcast_S576_S1x576_1 (iotaInDim S576 32 0))))
        (ix2 b q)
      = IntOp.addi (IntOp.muli (BitVec.ofNat 32 b.val) 2623#32) (IntOp.addi (pos (ValueIdx.ix1 b)) (BitVec.ofNat 32 q.val)) := by
  simp only [addi]
  rw [col_rep_576, col_rep_576, row_rep_576, row_576, col_8]
  simp only [muli]
  rw [col_8, broadcastInDim_scalar_apply]
  rfl

/-- The token destinations before the final flattening, at `(b, l)`:
    `b * 2623 + (l if l < pos[b] else (l + 576) - 1)` on words, the comparison signed. -/
theorem dest_term_apply (pos : S8.Idx → BitVec 32) (b : Fin 8) (l : Fin 2048) :
    addi
        (broadcastInDim S8x2048 ![0, 1] bcast_S8x1_S8x2048_0_1
          (muli (broadcastInDim S8x1 ![0] bcast_S8_S8x1_0 (iotaInDim S8 32 0))
            (broadcastInDim S8x1 ![] bcast_S_S8x1 (constantI S_ 32 2623#32))))
        (select
          (cmpi .slt
            (broadcastInDim S8x2048 ![0, 1] bcast_S1x2048_S8x2048_0_1
              (broadcastInDim S1x2048 ![1] bcast_S2048_S1x2048_1 (iotaInDim S2048 32 0)))
            (broadcastInDim S8x2048 ![0, 1] bcast_S8x1_S8x2048_0_1 (broadcastInDim S8x1 ![0] bcast_S8_S8x1_0 pos)))
          (broadcastInDim S8x2048 ![0, 1] bcast_S1x2048_S8x2048_0_1
            (broadcastInDim S1x2048 ![1] bcast_S2048_S1x2048_1 (iotaInDim S2048 32 0)))
          (broadcastInDim S8x2048 ![0, 1] bcast_S1x2048_S8x2048_0_1
            (subi
              (addi (broadcastInDim S1x2048 ![1] bcast_S2048_S1x2048_1 (iotaInDim S2048 32 0))
                (broadcastInDim S1x2048 ![] bcast_S_S1x2048 (constantI S_ 32 576#32)))
              (broadcastInDim S1x2048 ![] bcast_S_S1x2048 (constantI S_ 32 1#32)))))
        (ix2 b l)
      = IntOp.addi (IntOp.muli (BitVec.ofNat 32 b.val) 2623#32)
          (Scalar.select (IntOp.cmpi .slt (BitVec.ofNat 32 l.val) (pos (ValueIdx.ix1 b))) (BitVec.ofNat 32 l.val)
            (IntOp.subi (IntOp.addi (BitVec.ofNat 32 l.val) 576#32) 1#32)) := by
  simp only [addi, select, cmpi]
  rw [col_rep_2048, col_rep_2048, row_rep_2048, row_rep_2048]
  simp only [muli, subi, addi]
  rw [col_8, col_8, row_2048, broadcastInDim_scalar_apply, broadcastInDim_scalar_apply, broadcastInDim_scalar_apply]
  rfl

/-! ## The word arithmetic -/

/-- No step of a patch's destination wraps: the word is the number `b * 2623 + p + q`. -/
theorem dest2_word (p : BitVec 32) (hp : p.toNat < 2048) (b : Fin 8) (q : Fin 576) :
    (IntOp.addi (IntOp.muli (BitVec.ofNat 32 b.val) 2623#32) (IntOp.addi p (BitVec.ofNat 32 q.val))).toNat
      = b.val * 2623 + p.toNat + q.val := by
  have hb := b.isLt
  have hq := q.isLt
  simp only [IntOp.addi, IntOp.muli, BitVec.toNat_add, BitVec.toNat_mul, BitVec.toNat_ofNat]
  omega

/-- A token's number read signed is itself. -/
theorem toInt_tok (l : Fin 2048) : (BitVec.ofNat 32 l.val).toInt = (l.val : ℤ) := by
  have hl := l.isLt
  rw [BitVec.toInt_eq_toNat_of_lt (by rw [BitVec.toNat_ofNat]; omega), BitVec.toNat_ofNat]
  omega

/-- No step of a token's destination wraps, and the signed comparison with the image position is the comparison of
    the numbers: the word is `b * 2623 + (l if l < p else l + 575)`. -/
theorem dest_word (p : BitVec 32) (hp : 0 ≤ p.toInt ∧ p.toInt < 2048) (b : Fin 8) (l : Fin 2048) :
    (IntOp.addi (IntOp.muli (BitVec.ofNat 32 b.val) 2623#32)
        (Scalar.select (IntOp.cmpi .slt (BitVec.ofNat 32 l.val) p) (BitVec.ofNat 32 l.val)
          (IntOp.subi (IntOp.addi (BitVec.ofNat 32 l.val) 576#32) 1#32))).toNat
      = b.val * 2623 + (if l.val < p.toNat then l.val else l.val + 575) := by
  have hb := b.isLt
  have hl := l.isLt
  obtain ⟨hpe, hpl⟩ := Cert.Splice.toNat_of_range (n := 2048) (by omega) hp
  by_cases h : l.val < p.toNat
  · have hs : (BitVec.ofNat 32 l.val).slt p = true := by
      rw [BitVec.slt_eq_decide, toInt_tok, decide_eq_true_eq]
      omega
    rw [if_pos h]
    simp only [IntOp.cmpi, hs]
    rw [show BitVec.ofBool true = 1#1 from rfl, select_one]
    simp only [IntOp.addi, IntOp.muli, BitVec.toNat_add, BitVec.toNat_mul, BitVec.toNat_ofNat]
    omega
  · have hs : (BitVec.ofNat 32 l.val).slt p = false := by
      rw [BitVec.slt_eq_decide, toInt_tok, decide_eq_false_iff_not]
      omega
    rw [if_neg h]
    simp only [IntOp.cmpi, hs]
    rw [show BitVec.ofBool false = 0#1 from rfl, select_zero]
    simp only [IntOp.addi, IntOp.muli, IntOp.subi, BitVec.toNat_add, BitVec.toNat_mul, BitVec.toNat_sub, BitVec.toNat_ofNat]
    omega

/-! ## The buffers after the host operations -/

variable {F : FTy → Type} [FloatOps F] (m : (ℓ : Loc nD τ sig) → Buf (Elt F) ℓ)

/-- The flat token ids are the reshape of the id argument. -/
theorem V3_v18_eq (c : Dev nD) :
    (V3 m c main_v18 : S16384.Idx → BitVec 32)
      = shapeCast S16384 (m ((c : Thread nD τ).loc main_arg2) : S8x2048.Idx → BitVec 32) shapeCasts_S8x2048_S16384 := by
  dsimp only [V3, V2, V1, V0]
  after_results
  rfl

/-- The patch rows are the reshape of the image-feature argument. -/
theorem V3_v29_eq (c : Dev nD) :
    (V3 m c main_v29 : S4608x1x2560.Idx → F .f32)
      = shapeCast S4608x1x2560 (m ((c : Thread nD τ).loc main_arg1) : S8x576x2560.Idx → F .f32)
          shapeCasts_S8x576x2560_S4608x1x2560 := by
  dsimp only [V3, V2, V1, V0]
  after_results
  rfl

/-- The table rows are the reshape of the table argument. -/
theorem V3_v30_eq (c : Dev nD) :
    (V3 m c main_v30 : S32000x1x2560.Idx → F .f32)
      = shapeCast S32000x1x2560 (m ((c : Thread nD τ).loc main_arg0) : S32000x2560.Idx → F .f32)
          shapeCasts_S32000x2560_S32000x1x2560 := by
  dsimp only [V3, V2, V1, V0]
  after_results
  rfl

/-- The token destinations are the flattening of `b * 2623 + (l if l < pos[b] else l + 576 - 1)`, computed on words
    from the position argument. -/
theorem V3_v17_eq (c : Dev nD) :
    (V3 m c main_v17 : S16384.Idx → BitVec 32)
      = shapeCast S16384
          (addi
            (broadcastInDim S8x2048 ![0, 1] bcast_S8x1_S8x2048_0_1
              (muli (broadcastInDim S8x1 ![0] bcast_S8_S8x1_0 (iotaInDim S8 32 0))
                (broadcastInDim S8x1 ![] bcast_S_S8x1 (constantI S_ 32 2623#32))))
            (select
              (cmpi .slt
                (broadcastInDim S8x2048 ![0, 1] bcast_S1x2048_S8x2048_0_1
                  (broadcastInDim S1x2048 ![1] bcast_S2048_S1x2048_1 (iotaInDim S2048 32 0)))
                (broadcastInDim S8x2048 ![0, 1] bcast_S8x1_S8x2048_0_1
                  (broadcastInDim S8x1 ![0] bcast_S8_S8x1_0 (m ((c : Thread nD τ).loc main_arg4) : S8.Idx → BitVec 32))))
              (broadcastInDim S8x2048 ![0, 1] bcast_S1x2048_S8x2048_0_1
                (broadcastInDim S1x2048 ![1] bcast_S2048_S1x2048_1 (iotaInDim S2048 32 0)))
              (broadcastInDim S8x2048 ![0, 1] bcast_S1x2048_S8x2048_0_1
                (subi
                  (addi (broadcastInDim S1x2048 ![1] bcast_S2048_S1x2048_1 (iotaInDim S2048 32 0))
                    (broadcastInDim S1x2048 ![] bcast_S_S1x2048 (constantI S_ 32 576#32)))
                  (broadcastInDim S1x2048 ![] bcast_S_S1x2048 (constantI S_ 32 1#32))))))
          shapeCasts_S8x2048_S16384 := by
  dsimp only [V3, V2, V1, V0]
  after_results_simp
  rfl

/-- The patch destinations are the flattening of `b * 2623 + (pos[b] + q)`, computed on words from the position
    argument. -/
theorem V3_v28_eq (c : Dev nD) :
    (V3 m c main_v28 : S4608.Idx → BitVec 32)
      = shapeCast S4608
          (addi
            (broadcastInDim S8x576 ![0, 1] bcast_S8x1_S8x576_0_1
              (muli (broadcastInDim S8x1 ![0] bcast_S8_S8x1_0 (iotaInDim S8 32 0))
                (broadcastInDim S8x1 ![] bcast_S_S8x1 (constantI S_ 32 2623#32))))
            (addi
              (broadcastInDim S8x576 ![0, 1] bcast_S8x1_S8x576_0_1
                (broadcastInDim S8x1 ![0] bcast_S8_S8x1_0 (m ((c : Thread nD τ).loc main_arg4) : S8.Idx → BitVec 32)))
              (broadcastInDim S8x576 ![0, 1] bcast_S1x576_S8x576_0_1
                (broadcastInDim S1x576 ![1] bcast_S576_S1x576_1 (iotaInDim S576 32 0)))))
          shapeCasts_S8x576_S4608 := by
  dsimp only [V3, V2, V1, V0]
  after_results_simp
  rfl

/-! ## The five tables at an index -/

/-- The flat token ids: position `b * 2048 + l` holds token `l` of sample `b`. -/
theorem V3_ids (c : Dev nD) (b : Fin 8) (l : Fin 2048) :
    V3 m c main_v18 (ValueIdx.ix1 ⟨b.val * 2048 + l.val, by omega⟩) = m ((c : Thread nD τ).loc main_arg2) (ValueIdx.ix2 b l) :=
  (congrFun (V3_v18_eq m c) _).trans (flat_8x2048 _ _ b l)

/-- The token destinations: token `l` of sample `b` goes to row `b * 2623 + l` before the image and to row
    `b * 2623 + l + 575` from the image on. -/
theorem V3_dest (c : Dev nD) (hpos : Cert.Splice.PosInRange (m ((c : Thread nD τ).loc main_arg4))) (b : Fin 8) (l : Fin 2048) :
    (V3 m c main_v17 (ValueIdx.ix1 ⟨b.val * 2048 + l.val, by omega⟩)).toNat
      = b.val * 2623 + (if l.val < (m ((c : Thread nD τ).loc main_arg4) (ValueIdx.ix1 b)).toNat then l.val else l.val + 575) := by
  have e := (congrFun (V3_v17_eq m c) (ValueIdx.ix1 ⟨b.val * 2048 + l.val, by omega⟩)).trans
    ((flat_8x2048 _ _ b l).trans (dest_term_apply _ b l))
  exact (congrArg BitVec.toNat e).trans (dest_word _ (hpos (ValueIdx.ix1 b)) b l)

/-- The patch destinations: patch `q` of sample `b` goes to row `b * 2623 + pos[b] + q`. -/
theorem V3_dest2 (c : Dev nD) (hpos : Cert.Splice.PosInRange (m ((c : Thread nD τ).loc main_arg4))) (b : Fin 8) (q : Fin 576) :
    (V3 m c main_v28 (ValueIdx.ix1 ⟨b.val * 576 + q.val, by omega⟩)).toNat
      = b.val * 2623 + (m ((c : Thread nD τ).loc main_arg4) (ValueIdx.ix1 b)).toNat + q.val := by
  have e := (congrFun (V3_v28_eq m c) (ValueIdx.ix1 ⟨b.val * 576 + q.val, by omega⟩)).trans
    ((flat_8x576 _ _ b q).trans (dest2_term_apply _ b q))
  exact (congrArg BitVec.toNat e).trans
    (dest2_word _ (Cert.Splice.toNat_of_range (n := 2048) (by omega) (hpos (ValueIdx.ix1 b))).2 b q)

/-- The patch rows: row `b * 576 + q` is patch `q` of sample `b`. -/
theorem V3_img (c : Dev nD) (b : Fin 8) (q : Fin 576) (k : Fin 2560) :
    V3 m c main_v29 (ValueIdx.ix3 ⟨b.val * 576 + q.val, by omega⟩ (0 : Fin 1) k) = m ((c : Thread nD τ).loc main_arg1) (ValueIdx.ix3 b q k) :=
  (congrFun (V3_v29_eq m c) _).trans (rows_8x576x2560 _ _ b q k)

/-- The table rows: row `r` is row `r` of the table. -/
theorem V3_emb (c : Dev nD) (r : Fin 32000) (k : Fin 2560) :
    V3 m c main_v30 (ValueIdx.ix3 r (0 : Fin 1) k) = m ((c : Thread nD τ).loc main_arg0) (ValueIdx.ix2 r k) :=
  (congrFun (V3_v30_eq m c) _).trans (rows_32000x2560 _ _ r k)

end Cert.Kernel.Hand
-- ==== Proof.KWOk.lean ====
/-
  The two pipelines' side conditions: every row the scalar tables name lies inside its array.

  Each index map of the two kernel calls reads ONE word of a scalar table and asks for the block of one row, the row
  that word names: the first call a row of the [32000, 1, 2560] embedding table (the word a token id) and a row of the
  [20984, 1, 2560] spliced rows laid end to end (the word a token's destination), the second call a row of the same
  [20984, 1, 2560] array (the word a patch's destination). A block of one row is inside its array exactly when the word,
  read unsigned, is below the number of rows. So it is enough to bound EVERY word of each table:

  * a token id is in [0, 32000) by hypothesis;
  * token l of sample b, whose image sits at p = pos[b] < 2048, goes to row b * 2623 + l or b * 2623 + l + 575, at most
    7 * 2623 + 2047 + 575 = 20983;
  * patch q < 576 of sample b goes to row b * 2623 + p + q, at most 7 * 2623 + 2047 + 575 = 20983.

  The second call's table is read after the first call and one host operation; neither writes it, so it still holds
  what the host operations in front of the first call left there.
-/
import proofs.«423035_j55576876810961_2_alg».proof.Proof.KWRun
import proofs.«423035_j55576876810961_2_alg».proof.Proof.KWTables
import proofs.«423035_j55576876810961_2_alg».proof.Proof.Spec
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Every index of a flat table by its sample and its place in the sample -/

/-- An index of the flat [16384] tables is b * 2048 + l with b < 8 and l < 2048. -/
theorem split_16384 (x : S16384.Idx) :
    ∃ (b : Fin 8) (l : Fin 2048) (h : b.val * 2048 + l.val < 16384), x = ValueIdx.ix1 ⟨b.val * 2048 + l.val, h⟩ := by
  have hx : (x 0).val < 16384 := (x 0).isLt
  refine ⟨⟨(x 0).val / 2048, by omega⟩, ⟨(x 0).val % 2048, by omega⟩, by show (x 0).val / 2048 * 2048 + (x 0).val % 2048 < 16384; omega, ?_⟩
  refine (ValueIdx.eq_ix1 x).trans (congrArg ValueIdx.ix1 (Fin.ext ?_))
  show (x 0).val = (x 0).val / 2048 * 2048 + (x 0).val % 2048
  omega

/-- An index of the flat [4608] table is b * 576 + q with b < 8 and q < 576. -/
theorem split_4608 (x : S4608.Idx) :
    ∃ (b : Fin 8) (q : Fin 576) (h : b.val * 576 + q.val < 4608), x = ValueIdx.ix1 ⟨b.val * 576 + q.val, h⟩ := by
  have hx : (x 0).val < 4608 := (x 0).isLt
  refine ⟨⟨(x 0).val / 576, by omega⟩, ⟨(x 0).val % 576, by omega⟩, by show (x 0).val / 576 * 576 + (x 0).val % 576 < 4608; omega, ?_⟩
  refine (ValueIdx.eq_ix1 x).trans (congrArg ValueIdx.ix1 (Fin.ext ?_))
  show (x 0).val = (x 0).val / 576 * 576 + (x 0).val % 576
  omega

/-! ## The tables the regions are entered with -/

/-- The first call's table 0 is the flat token ids. -/
theorem tbl0_0 : (tbl0 (En0 m) 0 : S16384.Idx → BitVec 32) = V3 m 0 main_v18 := rfl

/-- The first call's table 1 is the flat token destinations. -/
theorem tbl0_1 : (tbl0 (En0 m) 1 : S16384.Idx → BitVec 32) = V3 m 0 main_v17 := rfl

/-- The second call's table is the flat patch destinations: neither the first call, whose arrays are the embedding
    table and the spliced rows, nor the host operation after it, which writes a copy of the spliced rows, touches it. -/
theorem tbl1_0 (hO0 : ok0 (F := F) (tbl0 (En0 m))) :
    (tbl1 (En1 m hO0) 0 : S4608.Idx → BitVec 32) = V3 m 0 main_v28 := by
  show (StableHlo.after hostOps1 (W4 m hO0 0) main_v28 : S4608.Idx → BitVec 32) = V3 m 0 main_v28
  rw [StableHlo.after_of_writes_sub hostOps1 _ hostOps1_writes (by decide : main_v28 ∉ hostOps1_W)]
  exact W4_of_ne m hO0 0 main_v28 (by decide)

/-! ## Every word of each table is a row of the array it indexes -/

/-- Every token id is below 32000. -/
theorem tbl0_0_lt (hids : Cert.Splice.IdsInRange (m (((0 : Dev nD) : Thread nD τ).loc main_arg2))) (x : S16384.Idx) :
    (tbl0 (En0 m) 0 x : BitVec 32).toNat < 32000 := by
  obtain ⟨b, l, h, rfl⟩ := split_16384 x
  rw [tbl0_0 m, V3_ids m 0 b l]
  exact (Cert.Splice.toNat_of_range (n := 32000) (by omega) (hids _)).2

/-- Every token destination is below 8 * 2623 = 20984. -/
theorem tbl0_1_lt (hpos : Cert.Splice.PosInRange (m (((0 : Dev nD) : Thread nD τ).loc main_arg4))) (x : S16384.Idx) :
    (tbl0 (En0 m) 1 x : BitVec 32).toNat < 20984 := by
  obtain ⟨b, l, h, rfl⟩ := split_16384 x
  rw [tbl0_1 m, V3_dest m 0 hpos b l]
  have hb := b.isLt
  have hl := l.isLt
  split <;> omega

/-- Every patch destination is below 8 * 2623 = 20984. -/
theorem tbl1_0_lt (hpos : Cert.Splice.PosInRange (m (((0 : Dev nD) : Thread nD τ).loc main_arg4)))
    (hO0 : ok0 (F := F) (tbl0 (En0 m))) (x : S4608.Idx) :
    (tbl1 (En1 m hO0) 0 x : BitVec 32).toNat < 20984 := by
  obtain ⟨b, q, h, rfl⟩ := split_4608 x
  rw [tbl1_0 m hO0, V3_dest2 m 0 hpos b q]
  have hp := (Cert.Splice.toNat_of_range (n := 2048) (by omega) (hpos (ValueIdx.ix1 b))).2
  have hb := b.isLt
  have hq := q.isLt
  omega

/-! ## The side conditions -/

/-- The first call's side condition: at every grid point the block of one row at the row the token-id word names is
    inside the [32000, 1, 2560] table, and the block at the row the destination word names is inside the
    [20984, 1, 2560] rows. A block of one row at row w is inside an array of N rows when w < N; the elements are 32 bits
    wide, so every transfer ends on a word. The word is named through the bound on every index of the table, so that
    the table's contents are never computed. -/
theorem ok0_of (hids : Cert.Splice.IdsInRange (m (((0 : Dev nD) : Thread nD τ).loc main_arg2)))
    (hpos : Cert.Splice.PosInRange (m (((0 : Dev nD) : Thread nD τ).loc main_arg4))) :
    ok0 (F := F) (tbl0 (En0 m)) := by
  refine ⟨fun i => ?_, fun i => ?_⟩
  · obtain ⟨w, hw, e⟩ : ∃ w : BitVec 32, w.toNat < 32000 ∧
        cc0_transform_0 k0_off1_inb numel1_S1 (tbl0 (En0 m)) i = ![w.toNat, 0, 0] :=
      ⟨_, tbl0_0_lt m hids _, rfl⟩
    refine ⟨fun a => ?_, Or.inl rfl⟩
    rw [e]
    fin_cases a <;> simp [S1x1x2560, S32000x1x2560] <;> omega
  · obtain ⟨w, hw, e⟩ : ∃ w : BitVec 32, w.toNat < 20984 ∧
        cc0_transform_1 k0_off1_inb numel1_S1 (tbl0 (En0 m)) i = ![w.toNat, 0, 0] :=
      ⟨_, tbl0_1_lt m hpos _, rfl⟩
    refine ⟨fun a => ?_, Or.inl rfl⟩
    rw [e]
    fin_cases a <;> simp [S1x1x2560, S20984x1x2560] <;> omega

/-- The second call's side condition: at every grid point the block of one row at the row the patch-destination word
    names is inside the [20984, 1, 2560] rows. -/
theorem ok1_of (hpos : Cert.Splice.PosInRange (m (((0 : Dev nD) : Thread nD τ).loc main_arg4)))
    (hO0 : ok0 (F := F) (tbl0 (En0 m))) :
    ok1 (F := F) (tbl1 (En1 m hO0)) := by
  intro i
  obtain ⟨w, hw, e⟩ : ∃ w : BitVec 32, w.toNat < 20984 ∧
      cc1_transform_2 k1_off1_inb numel1_S1 (tbl1 (En1 m hO0)) i = ![w.toNat, 0, 0] :=
    ⟨_, tbl1_0_lt m hpos hO0 _, rfl⟩
  refine ⟨fun a => ?_, Or.inl rfl⟩
  rw [e]
  fin_cases a <;> simp [S1x1x2560, S20984x1x2560] <;> omega

end Cert.Kernel.Hand

end
-- ==== Proof.KIBody.lean ====
/-
  The two kernel bodies. Each copies ONE row of 2560 floats: it loads the whole [1, 1, 2560] block of its input
  window, and stores it, unchanged, over the whole block of its output window (the load of the output block that
  the body also makes is discarded). So, on whole staging memrefs, the input's at contents `x` and the output's at
  anything, either body ends with the input's as it was and the output's holding `x` again, read back through the
  one store that covers the block. The scalar tables (the row numbers) and, in the second kernel, the array left in
  HBM are arguments the bodies never touch.
-/
import proofs.«423035_j55576876810961_2_alg».proof.Proof.Gen.KernelIdeal.Launch
import proofs.«423035_j55576876810961_2_alg».proof.Proof.Gen.KernelIdeal.Skeleton
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block [1, 1, 2560], as the rectangle both bodies load and store through. -/
abbrev rRow : Rect S1x1x2560 := Rect.unit (s := S1x1x2560) ![0, 0, 0] S1x1x2560.size inb_S1x1x2560_S1x1x2560_0_0_0

/-- The row's one store covers the block. -/
theorem coverRow (p0 : Vec F S1x1x2560 .f32) (y : S1x1x2560.Idx) :
    ∃ pc ∈ ([⟨rRow, p0⟩] : List (View.Piece (Elt F) S1x1x2560 .f32)), y ∈ pc.1.set :=
  View.cover_of_tiled [⟨rRow, p0⟩] S1x1x2560.size (by rfl) y

/-! ## The gathering kernel's body -/

/-- What the first body leaves in its output block: the one store, of the input block re-shaped to itself. -/
def out0 (x0 : Vec F S1x1x2560 .f32) : Vec F S1x1x2560 .f32 :=
  View.canon [⟨rRow, k0_pay1 (View.ld x0 rRow)⟩]

set_option maxHeartbeats 1000000 in
/-- The first body on whole memrefs: input block at `x0`, output block at anything; it ends with the input as it was
    and the output at `out0 x0`. -/
theorem sound_kernel0 (c : Dev nD) (E : Set ℕ) (i : grid0.Coords)
    (arg1 : Memref sig .tc .smem S16384 .i32) (harg1 : arg1.IsWhole) (arg2 : Memref sig .tc .smem S16384 .i32) (harg2 : arg2.IsWhole)
    (arg3 : Memref sig .tc .vmem S1x1x2560 .f32) (harg3 : arg3.IsWhole) (arg4 : Memref sig .tc .vmem S1x1x2560 .f32) (harg4 : arg4.IsWhole)
    (x0 : Vec F S1x1x2560 .f32) (K : PUnit → sProp 𝕄) :
    iprop(owns (c : Thread nD τ) arg3 fullShare x0 ∗ (∃ d, owns (c : Thread nD τ) arg4 fullShare d)
        ∗ (iprop(owns (c : Thread nD τ) arg3 fullShare x0 ∗ owns (c : Thread nD τ) arg4 fullShare (out0 x0)) -∗ K ⟨⟩))
      ⊢ wp frame (wpE (defs₀ (F := F)) Variants.none c none) E (cc0__gather_place_body i arg1 harg1 arg2 harg2 arg3 harg3 arg4 harg4) K := by
  simp only [cc0__gather_place_body_eq_skeleton]; unfold cc0__gather_place_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverRow _)

/-! ## The overwriting kernel's body -/

/-- What the second body leaves in its output block. -/
def out1 (x0 : Vec F S1x1x2560 .f32) : Vec F S1x1x2560 .f32 :=
  View.canon [⟨rRow, k1_pay1 (View.ld x0 rRow)⟩]

set_option maxHeartbeats 1000000 in
/-- The second body on whole memrefs, likewise. -/
theorem sound_kernel1 (c : Dev nD) (E : Set ℕ) (i : grid1.Coords)
    (arg1 : Memref sig .tc .smem S4608 .i32) (harg1 : arg1.IsWhole)
    (arg2 : Memref sig .tc .vmem S1x1x2560 .f32) (harg2 : arg2.IsWhole) (arg3 : Memref sig .tc .hbm S20984x1x2560 .f32) (harg3 : arg3.IsWhole)
    (arg4 : Memref sig .tc .vmem S1x1x2560 .f32) (harg4 : arg4.IsWhole)
    (x0 : Vec F S1x1x2560 .f32) (K : PUnit → sProp 𝕄) :
    iprop(owns (c : Thread nD τ) arg2 fullShare x0 ∗ (∃ d, owns (c : Thread nD τ) arg4 fullShare d)
        ∗ (iprop(owns (c : Thread nD τ) arg2 fullShare x0 ∗ owns (c : Thread nD τ) arg4 fullShare (out1 x0)) -∗ K ⟨⟩))
      ⊢ wp frame (wpE (defs₀ (F := F)) Variants.none c none) E (cc1__image_overwrite_body i arg1 harg1 arg2 harg2 arg3 harg3 arg4 harg4) K := by
  simp only [cc1__image_overwrite_body_eq_skeleton]; unfold cc1__image_overwrite_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverRow _)

/-! ## What the bodies leave is the input block itself -/

/-- The row rectangle starts at the origin. -/
theorem rRow_off : (![0, 0, 0] : Fin S1x1x2560.rank → Nat) = fun _ => 0 := by
  funext a; match a with | ⟨0, _⟩ => rfl | ⟨1, _⟩ => rfl | ⟨2, _⟩ => rfl

/-- The first body's output block is its input block. -/
theorem out0_eq (x0 : Vec F S1x1x2560 .f32) : out0 x0 = x0 := by
  unfold out0 k0_pay1
  rw [View.canon_unit_zero (S := S1x1x2560) rRow_off]
  exact (shapeCast_self (View.ld x0 rRow) shapeCasts_S1x1x2560_S1x1x2560).trans (View.ld_unit_zero (S := S1x1x2560) rRow_off _ x0)

/-- The second body's output block is its input block. -/
theorem out1_eq (x0 : Vec F S1x1x2560 .f32) : out1 x0 = x0 := by
  unfold out1 k1_pay1
  rw [View.canon_unit_zero (S := S1x1x2560) rRow_off]
  exact (shapeCast_self (View.ld x0 rRow) shapeCasts_S1x1x2560_S1x1x2560).trans (View.ld_unit_zero (S := S1x1x2560) rRow_off _ x0)

end Cert.KernelIdeal.Hand

end
-- ==== Proof.KIData.lean ====
/-
  The proof data of the two pipelines, each at a PARAMETER `V`: the TensorCore's buffer contents when the region is
  entered. A region's scalar tables are read off `V`; under the hypothesis that they are admissible (every block the
  index maps name lies inside its array) the pipeline is pinned at them, each window's block at a grid point is the
  array's row the tables name there, and the body leaves in the output's staging buffer the input's block.
-/
import proofs.«423035_j55576876810961_2_alg».proof.Proof.Gen.KernelIdeal.Launch
import proofs.«423035_j55576876810961_2_alg».proof.Proof.Gen.KernelIdeal.Skeleton
import proofs.«423035_j55576876810961_2_alg».proof.Proof.KIBody
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 -/

/-- The scalar tables' contents when region 0 is entered (there is one device). -/
def tbl0 : pre0.Contents (Elt F) := fun j => V (0 : Dev nD) (pre0.ref j)
theorem V_pre0 (c : Dev nD) (j : Fin 2) : V c (pre0.ref j) = tbl0 V j := by
  obtain rfl : c = 0 := Subsingleton.elim _ _; rfl

section
variable (hO : ok0 (F := F) (tbl0 V))

/-- The tables as admissible contents, and the pipeline at them. -/
abbrev adm0 : (pcfg0 (F := F)).Adm := ⟨tbl0 V, hO⟩
abbrev cfgM0 : Pipeline.Cfg sig Λ₀ := cfg0 (adm0 V hO)

/-- Window `w`'s block at point `t`, read off its array as the region finds it. -/
def iblk0 (c : Dev nD) (w : Fin (cfgM0 V hO).W) (t : Fin (cfgM0 V hO).N) :
    (((cfgM0 V hO).win w).xblock ((cfgM0 V hO).grid.coords t)).Idx → Elt F ((cfgM0 V hO).win w).elt :=
  (((cfgM0 V hO).win w).blk t).view.read (Elt F) (V c (Pipeline.arrRef spec0 w))

/-- The input window's current staging buffer holds its block at every point, fetched there or not. -/
theorem before0_0_of {c : Dev nD} (dat : Dat τ (Elt F) Unit ℕ (UR sig nD τ) ℕ (cfgM0 V hO) c) (hA : dat.A 0 = V c (Pipeline.arrRef spec0 0))
    (hafter : ∀ t, dat.after 0 t = iblk0 V hO c 0 t) (t : Fin (cfgM0 V hO).N) (d) : dat.before 0 t d = iblk0 V hO c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, and its wholeness. -/
abbrev ms0_0 (t : Fin (cfgM0 V hO).N) : Memref sig .tc .vmem S1x1x2560 .f32 := spec0_0.stage ((cfgM0 V hO).slots t 0)
abbrev hs0_0 (t : Fin (cfgM0 V hO).N) : (ms0_0 V hO t).IsWhole := hstage0_0 (((cfgM0 V hO).slots t 0).cast nbuf0_0)
abbrev ms0_1 (t : Fin (cfgM0 V hO).N) : Memref sig .tc .vmem S1x1x2560 .f32 := spec0_1.stage ((cfgM0 V hO).slots t 1)
abbrev hs0_1 (t : Fin (cfgM0 V hO).N) : (ms0_1 V hO t).IsWhole := hstage0_1 (((cfgM0 V hO).slots t 1).cast nbuf0_1)

/-- The kernel body at point `t`, on what the pipeline calls it with. -/
abbrev bodyAt0 (t : Fin (cfgM0 V hO).N) : Prog (TpuEff nD τ sig (Elt F) Λ₀ .tc) PUnit :=
  cc0__gather_place_body (grid0.coords t) (Memref.whole main_v18) (Memref.isWhole_whole _) (Memref.whole main_v17) (Memref.isWhole_whole _) (ms0_0 V hO t) (hs0_0 V hO t) (ms0_1 V hO t) (hs0_1 V hO t)

/-- The proof data of pipeline 0: the arrays as the region finds them; after the body at point `t` the input's buffer
    at its block and the output's at the body's result of that block; the invariant is the scoped rest and the
    generator register, beside the scalar tables held whole at their contents (no body reads them); nothing owed. -/
def dat0 (c : Dev nD) : Dat τ (Elt F) Unit ℕ (UR sig nD τ) ℕ (cfgM0 V hO) c where
  A w := V c (Pipeline.arrRef spec0 w)
  after w t := match w with
    | ⟨0, _⟩ => iblk0 V hO c 0 t
    | ⟨1, _⟩ => out0 (iblk0 V hO c 0 t)
  Φ _ := iprop(Pipeline.ΦA spec0 c ∗ (Pipeline.prefHeld pre0 c (fun _ => fullShare) (tbl0 V) : sProp 𝕄))
  q _ := fullShare
  owed _ := 0

theorem A_eq0 (c : Dev nD) (w : Fin (cfgM0 V hO).W) : (dat0 V hO c).A w = V c (Pipeline.arrRef spec0 w) := by
  dsimp only [dat0]
theorem after0_0 (c : Dev nD) (t : Fin (cfgM0 V hO).N) : (dat0 V hO c).after 0 t = iblk0 V hO c 0 t := by dsimp only [dat0]; rfl
theorem after0_1 (c : Dev nD) (t : Fin (cfgM0 V hO).N) : (dat0 V hO c).after 1 t = out0 (iblk0 V hO c 0 t) := by dsimp only [dat0]; rfl
theorem before0_0 (c : Dev nD) (t : Fin (cfgM0 V hO).N) (d) : (dat0 V hO c).before 0 t d = iblk0 V hO c 0 t :=
  before0_0_of V hO (dat0 V hO c) (A_eq0 V hO c 0) (after0_0 V hO c) t d

/-- What the body is called with at point `t`, the windows one by one, -/
def bodyPre0 (c : Dev nD) (t : Fin (cfgM0 V hO).N) : sProp 𝕄 :=
  iprop((dat0 V hO c).Φ t.castSucc ∗ (dat0 V hO c).owesAt () t.castSucc
    ∗ (∃ d, owns (c : Thread nD τ) (ms0_0 V hO t) fullShare ((dat0 V hO c).before 0 t d))
    ∗ (∃ d, owns (c : Thread nD τ) (ms0_1 V hO t) fullShare ((dat0 V hO c).before 1 t d)))

/-- and what it returns. -/
def bodyPost0 (c : Dev nD) (t : Fin (cfgM0 V hO).N) : sProp 𝕄 :=
  iprop((dat0 V hO c).Φ t.succ ∗ (dat0 V hO c).owesAt () t.succ
    ∗ owns (c : Thread nD τ) (ms0_0 V hO t) fullShare ((dat0 V hO c).after 0 t)
    ∗ owns (c : Thread nD τ) (ms0_1 V hO t) fullShare ((dat0 V hO c).after 1 t))

/-- The body at any point: the input's memref holds its block, so the body's triple applies; the invariant and the
    core's debts pass through unread. -/
theorem sound_body0 (c : Dev nD) (t : Fin (cfgM0 V hO).N) :
    bodyPre0 V hO c t ⊢ wp frame (wpE (defs₀ (F := F)) Variants.none c none) Set.univ (bodyAt0 V hO t) (fun _ => bodyPost0 V hO c t) := by
  unfold bodyPre0 bodyPost0 bodyAt0
  simp only [before0_0]
  rw [show (dat0 V hO c).Φ t.succ = (dat0 V hO c).Φ t.castSucc from rfl,
    show (dat0 V hO c).owesAt () t.succ = (dat0 V hO c).owesAt () t.castSucc from rfl,
    after0_0, after0_1]
  iintro ⟨HΦ, Ho, ⟨%d0, H0⟩, ⟨%d1, H1⟩⟩
  iapply (sound_kernel0 c Set.univ _ _ _ _ _ _ _ _ _ (iblk0 V hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V hO c) (defs₀ (F := F)) Variants.none () Set.univ := fun t => by
  rw [bigSep_W0, bigSep_W0]
  exact sound_body0 V hO c t

end

/-! # Region 1 -/

/-- The scalar tables' contents when region 1 is entered (there is one device). -/
def tbl1 : pre1.Contents (Elt F) := fun j => V (0 : Dev nD) (pre1.ref j)
theorem V_pre1 (c : Dev nD) (j : Fin 1) : V c (pre1.ref j) = tbl1 V j := by
  obtain rfl : c = 0 := Subsingleton.elim _ _; rfl

section
variable (hO : ok1 (F := F) (tbl1 V))

/-- The tables as admissible contents, and the pipeline at them. -/
abbrev adm1 : (pcfg1 (F := F)).Adm := ⟨tbl1 V, hO⟩
abbrev cfgM1 : Pipeline.Cfg sig Λ₀ := cfg1 (adm1 V hO)

/-- Window `w`'s block at point `t`, read off its array as the region finds it. -/
def iblk1 (c : Dev nD) (w : Fin (cfgM1 V hO).W) (t : Fin (cfgM1 V hO).N) :
    (((cfgM1 V hO).win w).xblock ((cfgM1 V hO).grid.coords t)).Idx → Elt F ((cfgM1 V hO).win w).elt :=
  (((cfgM1 V hO).win w).blk t).view.read (Elt F) (V c (Pipeline.arrRef spec1 w))

/-- The input window's current staging buffer holds its block at every point, fetched there or not. -/
theorem before1_0_of {c : Dev nD} (dat : Dat τ (Elt F) Unit ℕ (UR sig nD τ) ℕ (cfgM1 V hO) c) (hA : dat.A 0 = V c (Pipeline.arrRef spec1 0))
    (hafter : ∀ t, dat.after 0 t = iblk1 V hO c 0 t) (t : Fin (cfgM1 V hO).N) (d) : dat.before 0 t d = iblk1 V hO c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, and its wholeness. -/
abbrev ms1_0 (t : Fin (cfgM1 V hO).N) : Memref sig .tc .vmem S1x1x2560 .f32 := spec1_0.stage ((cfgM1 V hO).slots t 0)
abbrev hs1_0 (t : Fin (cfgM1 V hO).N) : (ms1_0 V hO t).IsWhole := hstage1_0 (((cfgM1 V hO).slots t 0).cast nbuf1_0)
abbrev ms1_1 (t : Fin (cfgM1 V hO).N) : Memref sig .tc .vmem S1x1x2560 .f32 := spec1_1.stage ((cfgM1 V hO).slots t 1)
abbrev hs1_1 (t : Fin (cfgM1 V hO).N) : (ms1_1 V hO t).IsWhole := hstage1_1 (((cfgM1 V hO).slots t 1).cast nbuf1_1)

/-- The kernel body at point `t`, on what the pipeline calls it with. -/
abbrev bodyAt1 (t : Fin (cfgM1 V hO).N) : Prog (TpuEff nD τ sig (Elt F) Λ₀ .tc) PUnit :=
  cc1__image_overwrite_body (grid1.coords t) (Memref.whole main_v28) (Memref.isWhole_whole _) (ms1_0 V hO t) (hs1_0 V hO t) (Memref.whole main_v31) (Memref.isWhole_whole _) (ms1_1 V hO t) (hs1_1 V hO t)

/-- The proof data of pipeline 1: the arrays as the region finds them; after the body at point `t` the input's buffer
    at its block and the output's at the body's result of that block; the invariant is the scoped rest and the
    generator register, beside the scalar tables held whole at their contents (no body reads them); nothing owed. -/
def dat1 (c : Dev nD) : Dat τ (Elt F) Unit ℕ (UR sig nD τ) ℕ (cfgM1 V hO) c where
  A w := V c (Pipeline.arrRef spec1 w)
  after w t := match w with
    | ⟨0, _⟩ => iblk1 V hO c 0 t
    | ⟨1, _⟩ => out1 (iblk1 V hO c 0 t)
  Φ _ := iprop(Pipeline.ΦA spec1 c ∗ (Pipeline.prefHeld pre1 c (fun _ => fullShare) (tbl1 V) : sProp 𝕄))
  q _ := fullShare
  owed _ := 0

theorem A_eq1 (c : Dev nD) (w : Fin (cfgM1 V hO).W) : (dat1 V hO c).A w = V c (Pipeline.arrRef spec1 w) := by
  dsimp only [dat1]
theorem after1_0 (c : Dev nD) (t : Fin (cfgM1 V hO).N) : (dat1 V hO c).after 0 t = iblk1 V hO c 0 t := by dsimp only [dat1]; rfl
theorem after1_1 (c : Dev nD) (t : Fin (cfgM1 V hO).N) : (dat1 V hO c).after 1 t = out1 (iblk1 V hO c 0 t) := by dsimp only [dat1]; rfl
theorem before1_0 (c : Dev nD) (t : Fin (cfgM1 V hO).N) (d) : (dat1 V hO c).before 0 t d = iblk1 V hO c 0 t :=
  before1_0_of V hO (dat1 V hO c) (A_eq1 V hO c 0) (after1_0 V hO c) t d

/-- What the body is called with at point `t`, the windows one by one, -/
def bodyPre1 (c : Dev nD) (t : Fin (cfgM1 V hO).N) : sProp 𝕄 :=
  iprop((dat1 V hO c).Φ t.castSucc ∗ (dat1 V hO c).owesAt () t.castSucc
    ∗ (∃ d, owns (c : Thread nD τ) (ms1_0 V hO t) fullShare ((dat1 V hO c).before 0 t d))
    ∗ (∃ d, owns (c : Thread nD τ) (ms1_1 V hO t) fullShare ((dat1 V hO c).before 1 t d)))

/-- and what it returns. -/
def bodyPost1 (c : Dev nD) (t : Fin (cfgM1 V hO).N) : sProp 𝕄 :=
  iprop((dat1 V hO c).Φ t.succ ∗ (dat1 V hO c).owesAt () t.succ
    ∗ owns (c : Thread nD τ) (ms1_0 V hO t) fullShare ((dat1 V hO c).after 0 t)
    ∗ owns (c : Thread nD τ) (ms1_1 V hO t) fullShare ((dat1 V hO c).after 1 t))

/-- The body at any point: the input's memref holds its block, so the body's triple applies; the invariant and the
    core's debts pass through unread. -/
theorem sound_body1 (c : Dev nD) (t : Fin (cfgM1 V hO).N) :
    bodyPre1 V hO c t ⊢ wp frame (wpE (defs₀ (F := F)) Variants.none c none) Set.univ (bodyAt1 V hO t) (fun _ => bodyPost1 V hO c t) := by
  unfold bodyPre1 bodyPost1 bodyAt1
  simp only [before1_0]
  rw [show (dat1 V hO c).Φ t.succ = (dat1 V hO c).Φ t.castSucc from rfl,
    show (dat1 V hO c).owesAt () t.succ = (dat1 V hO c).owesAt () t.castSucc from rfl,
    after1_0, after1_1]
  iintro ⟨HΦ, Ho, ⟨%d0, H0⟩, ⟨%d1, H1⟩⟩
  iapply (sound_kernel1 c Set.univ _ _ _ _ _ _ _ _ _ (iblk1 V hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V hO c) (defs₀ (F := F)) Variants.none () Set.univ := fun t => by
  rw [bigSep_W1, bigSep_W1]
  exact sound_body1 V hO c t

end

end Regions

end Cert.KernelIdeal.Hand

end
-- ==== Proof.KIRun.lean ====
/-
  @main's run: the TensorCore's buffer contents at every boundary between two items of @main, folded from the launch
  memory (a host stretch applies its operations; a region leaves in its windows' arrays what its write-backs leave and
  every other buffer as it found it), the two pipelines' proof data at their regions' entry contents, each region as a
  segment between two such thread states, and the launch: every weakly fair execution of @main terminates, nothing
  faulting, with every unscoped buffer at the last boundary's contents. The hypotheses `hO0`, `hO1` say that the scalar
  tables each region is entered with are admissible: every row they name lies inside its array.
-/
import proofs.«423035_j55576876810961_2_alg».proof.Proof.Gen.KernelIdeal.Launch
import proofs.«423035_j55576876810961_2_alg».proof.Proof.Gen.KernelIdeal.Skeleton
import proofs.«423035_j55576876810961_2_alg».proof.Proof.KIData
import proofs.«423035_j55576876810961_2_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- What region 0 is entered with, read at the TensorCore's references: the launch memory after the three host stretches
    before it. -/
abbrev En0 : (c : Dev nD) → (b : Ref sig .tc) → Buf (Elt F) ((c : Thread nD τ).loc b) := fun c b => V3 m c b

section
variable (hO0 : ok0 (F := F) (tbl0 (En0 m)))

/-- At region 0's exit: its arrays at what the pipeline leaves, every other buffer as entered. -/
def W4 (c : Dev nD) : Valuation τ sig (Elt F) :=
  Pipeline.withArrays spec0 c (V3 m c) fun w => (dat0 (En0 m) hO0 c).arrAt w (cfgM0 (En0 m) hO0).N
theorem W4_arr (c : Dev nD) (w : Fin (cfgM0 (En0 m) hO0).W) :
    W4 m hO0 c (Proc.devRef .tc (Pipeline.arrRef spec0 w)) = (dat0 (En0 m) hO0 c).arrAt w (cfgM0 (En0 m) hO0).N := by
  unfold W4; exact Pipeline.withArrays_arr spec0 (launch0 (F := F)).win.arr_inj c _ _ w
theorem W4_of_ne (c : Dev nD) (b : Ref sig .tc) (hb : ∀ w, Pipeline.arrRef spec0 w ≠ b) :
    W4 m hO0 c (Proc.devRef .tc b) = V3 m c (Proc.devRef .tc b) := by
  unfold W4; exact Pipeline.withArrays_of_ne spec0 c _ _ b hb
abbrev Ex0 : (c : Dev nD) → (b : Ref sig .tc) → Buf (Elt F) ((c : Thread nD τ).loc b) := fun c b => W4 m hO0 c b
theorem hF0 (c : Dev nD) (w : Fin (cfgM0 (En0 m) hO0).W) : (dat0 (En0 m) hO0 c).arrAt w (cfgM0 (En0 m) hO0).N = Ex0 m hO0 c (Pipeline.arrRef spec0 w) :=
  (W4_arr m hO0 c w).symm
theorem hrest0 (c : Dev nD) : ∀ b, b ∉ Finset.univ.image (Pipeline.arrRef spec0) → Ex0 m hO0 c b = En0 m c b :=
  fun b hb => W4_of_ne m hO0 c b fun w e => hb (Finset.mem_image.mpr ⟨w, Finset.mem_univ _, e⟩)

/-- After the one host operation between the regions (region 1's entry). -/
abbrev W5 : Dev nD → Valuation τ sig (Elt F) := fun c => StableHlo.after hostOps1 (W4 m hO0 c)
abbrev En1 : (c : Dev nD) → (b : Ref sig .tc) → Buf (Elt F) ((c : Thread nD τ).loc b) := fun c b => W5 m hO0 c b

section
variable (hO1 : ok1 (F := F) (tbl1 (En1 m hO0)))

/-- At region 1's exit. -/
def W6 (c : Dev nD) : Valuation τ sig (Elt F) :=
  Pipeline.withArrays spec1 c (W5 m hO0 c) fun w => (dat1 (En1 m hO0) hO1 c).arrAt w (cfgM1 (En1 m hO0) hO1).N
theorem W6_arr (c : Dev nD) (w : Fin (cfgM1 (En1 m hO0) hO1).W) :
    W6 m hO0 hO1 c (Proc.devRef .tc (Pipeline.arrRef spec1 w)) = (dat1 (En1 m hO0) hO1 c).arrAt w (cfgM1 (En1 m hO0) hO1).N := by
  unfold W6; exact Pipeline.withArrays_arr spec1 (launch1 (F := F)).win.arr_inj c _ _ w
theorem W6_of_ne (c : Dev nD) (b : Ref sig .tc) (hb : ∀ w, Pipeline.arrRef spec1 w ≠ b) :
    W6 m hO0 hO1 c (Proc.devRef .tc b) = W5 m hO0 c (Proc.devRef .tc b) := by
  unfold W6; exact Pipeline.withArrays_of_ne spec1 c _ _ b hb
abbrev Ex1 : (c : Dev nD) → (b : Ref sig .tc) → Buf (Elt F) ((c : Thread nD τ).loc b) := fun c b => W6 m hO0 hO1 c b
theorem hF1 (c : Dev nD) (w : Fin (cfgM1 (En1 m hO0) hO1).W) : (dat1 (En1 m hO0) hO1 c).arrAt w (cfgM1 (En1 m hO0) hO1).N = Ex1 m hO0 hO1 c (Pipeline.arrRef spec1 w) :=
  (W6_arr m hO0 hO1 c w).symm
theorem hrest1 (c : Dev nD) : ∀ b, b ∉ Finset.univ.image (Pipeline.arrRef spec1) → Ex1 m hO0 hO1 c b = En1 m hO0 c b :=
  fun b hb => W6_of_ne m hO0 hO1 c b fun w e => hb (Finset.mem_image.mpr ⟨w, Finset.mem_univ _, e⟩)

/-- After each of the eight host stretches that follow region 1. -/
abbrev W7 : Dev nD → Valuation τ sig (Elt F) := fun c => StableHlo.after hostOps2 (W6 m hO0 hO1 c)
abbrev W8 : Dev nD → Valuation τ sig (Elt F) := fun c => StableHlo.after hostOps2_1 (W7 m hO0 hO1 c)
abbrev W9 : Dev nD → Valuation τ sig (Elt F) := fun c => StableHlo.after hostOps2_2 (W8 m hO0 hO1 c)
abbrev W10 : Dev nD → Valuation τ sig (Elt F) := fun c => StableHlo.after hostOps2_3 (W9 m hO0 hO1 c)
abbrev W11 : Dev nD → Valuation τ sig (Elt F) := fun c => StableHlo.after hostOps2_4 (W10 m hO0 hO1 c)
abbrev W12 : Dev nD → Valuation τ sig (Elt F) := fun c => StableHlo.after hostOps2_5 (W11 m hO0 hO1 c)
abbrev W13 : Dev nD → Valuation τ sig (Elt F) := fun c => StableHlo.after hostOps2_6 (W12 m hO0 hO1 c)
abbrev W14 : Dev nD → Valuation τ sig (Elt F) := fun c => StableHlo.after hostOps2_7 (W13 m hO0 hO1 c)

/-! ## The proof data family and the thread state -/

/-- The tables' admissible contents, pipeline by pipeline. -/
abbrev adm : (p : Fin 2) → (pcfgs (F := F) p).Adm
  | ⟨0, _⟩ => adm0 (En0 m) hO0
  | ⟨1, _⟩ => adm1 (En1 m hO0) hO1
/-- Every pipeline's proof data, each at its region's entry contents. -/
def pdats : (p : Fin 2) → (c : Dev nD) → Dat τ (Elt F) Unit ℕ (UR sig nD τ) ℕ (Pipeline.pin (pcfgs (F := F)) (adm m hO0 hO1) p) c
  | ⟨0, _⟩ => fun c => dat0 (En0 m) hO0 c
  | ⟨1, _⟩ => fun c => dat1 (En1 m hO0) hO1 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

-- a library lemma stated over `pin pcs a p` unifies with the pinned configuration only when unification may unfold plain
-- definitions in a metavariable's type
set_option backward.isDefEq.respectTransparency.types false in
/-- Region 0 over the thread state: entered with every unscoped buffer at the entry contents, left with them at the exit
    contents. Out of the unscoped buffers come the windows' arrays and the scalar tables (held whole, at the contents the
    pipeline is pinned at); the tables and the generator register ride the invariant and come back; at the exit the arrays
    at what the write-backs leave, the tables and the rest are the unscoped buffers again. -/
def reg0 : Pipeline.RegionSeg (pcfgs (F := F)) (adm m hO0 hO1) (pdats m hO0 hO1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (En0 m) hO0 c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (W4 m hO0 c) ∗ R c)
  X c := iprop(∃ r, prngReg c r)
  Y c := iprop((∃ r, prngReg c r) ∗ (Pipeline.prefHeld pre0 c (fun _ => fullShare) (tbl0 (En0 m)) : sProp 𝕄))
  Z c := Pipeline.unscopedRestP (Ix := Unit) (Name := ℕ) (U := UR sig nD τ) (Lvl := ℕ) pre0 spec0 c (En0 m c)
  hentry c := by
    have htab : (fun k => En0 m c ((pcfgs (F := F) 0).pre.ref k)) = tbl0 (En0 m) := funext fun k => V_pre0 (En0 m) c k
    rw [Pipeline.ownSems0_none]
    have hsplit := Pipeline.arrays_of_unscopedBufs (p := 0) (pcfgs (F := F)) (adm m hO0 hO1) (pdats m hO0 hO1) (launch0 (F := F)).win (launch0 (F := F)).arr_whole c
      ((pdats m hO0 hO1 0 c).share_full fun _ => rfl) (En0 m c) fun _ => rfl
    rw [Pipeline.unscopedBufs_held, Pipeline.unscopedRest_split (launch0 (F := F)).pre c (En0 m c), htab] at hsplit
    iintro ⟨⟨Hub, Hp, HO⟩, -, -⟩
    ihave H := hsplit $$ Hub
    icases H with ⟨Ha, Htab, Hrest⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO0 hO1 0 c).Φ 0 = iprop(Pipeline.ΦA spec0 c ∗ (Pipeline.prefHeld pre0 c (fun _ => fullShare) (tbl0 (En0 m)) : sProp 𝕄)) from rfl]; unfold Pipeline.ΦA
    iintro ⟨Hp, Htab, Hr⟩
    isplitl [Hr Hp]
    · isplitl [Hr]; · iexact Hr
      iexact Hp
    iexact Htab
  hout c := by
    rw [Pipeline.ownSems0_none, show (pdats m hO0 hO1 0 c).Φ (Fin.last _) = iprop(Pipeline.ΦA spec0 c ∗ (Pipeline.prefHeld pre0 c (fun _ => fullShare) (tbl0 (En0 m)) : sProp 𝕄)) from rfl]; unfold Pipeline.ΦA
    iintro ⟨⟨Hr, Hp⟩, Htab⟩
    isplitl [Hp Htab]
    · isplitl [Hp]; · iexact Hp
      iexact Htab
    isplitr; · iempintro
    iexact Hr
  hexit c := by
    have htab : (fun k => En0 m c ((pcfgs (F := F) 0).pre.ref k)) = tbl0 (En0 m) := funext fun k => V_pre0 (En0 m) c k
    have hjoin := Pipeline.unscopedBufs_of_arrays (p := 0) (pcfgs (F := F)) (adm m hO0 hO1) (Ix := Unit) (Name := ℕ) (U := UR sig nD τ) (Lvl := ℕ)
      (launch0 (F := F)).win (launch0 (F := F)).arr_whole c (pdats m hO0 hO1) ((pdats m hO0 hO1 0 c).share_full fun _ => rfl)
      (En0 m c) (Ex0 m hO0 c) ((pdats m hO0 hO1 0 c).arrAt · (cfgM0 (En0 m) hO0).N) (hF0 m hO0 c) (hrest0 m hO0 c)
    rw [Pipeline.unscopedBufs_held, Pipeline.unscopedRest_split (launch0 (F := F)).pre c (En0 m c), htab] at hjoin
    iintro ⟨Ha, HO, ⟨HY, Htab⟩, Hrest⟩
    imodintro
    isplitl [Ha Hrest Htab]
    · iapply hjoin; isplitl [Ha]; · iexact Ha
      isplitl [Htab]; · iexact Htab
      iexact Hrest
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 1 over the thread state: entered with every unscoped buffer at the entry contents, left with them at the exit
    contents. Out of the unscoped buffers come the windows' arrays and the scalar tables (held whole, at the contents the
    pipeline is pinned at); the tables and the generator register ride the invariant and come back; at the exit the arrays
    at what the write-backs leave, the tables and the rest are the unscoped buffers again. -/
def reg1 : Pipeline.RegionSeg (pcfgs (F := F)) (adm m hO0 hO1) (pdats m hO0 hO1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (En1 m hO0) hO1 c).loose
  hwaits := Pipeline.hwaits_of_owed_zero _ _ _ _ L lv 1 fun _ _ => rfl
  pre c := iprop(StableHlo.held (c : Thread nD τ) (Pipeline.ucRefs τ sig) (W5 m hO0 c) ∗ R c)
  post c := iprop(StableHlo.held (c : Thread nD τ) (Pipeline.ucRefs τ sig) (W6 m hO0 hO1 c) ∗ R c)
  X c := iprop(∃ r, prngReg c r)
  Y c := iprop((∃ r, prngReg c r) ∗ (Pipeline.prefHeld pre1 c (fun _ => fullShare) (tbl1 (En1 m hO0)) : sProp 𝕄))
  Z c := Pipeline.unscopedRestP (Ix := Unit) (Name := ℕ) (U := UR sig nD τ) (Lvl := ℕ) pre1 spec1 c (En1 m hO0 c)
  hentry c := by
    have htab : (fun k => En1 m hO0 c ((pcfgs (F := F) 1).pre.ref k)) = tbl1 (En1 m hO0) := funext fun k => V_pre1 (En1 m hO0) c k
    rw [Pipeline.ownSems0_none]
    have hsplit := Pipeline.arrays_of_unscopedBufs (p := 1) (pcfgs (F := F)) (adm m hO0 hO1) (pdats m hO0 hO1) (launch1 (F := F)).win (launch1 (F := F)).arr_whole c
      ((pdats m hO0 hO1 1 c).share_full fun _ => rfl) (En1 m hO0 c) fun _ => rfl
    rw [Pipeline.unscopedBufs_held, Pipeline.unscopedRest_split (launch1 (F := F)).pre c (En1 m hO0 c), htab] at hsplit
    iintro ⟨⟨Hub, Hp, HO⟩, -, -⟩
    ihave H := hsplit $$ Hub
    icases H with ⟨Ha, Htab, Hrest⟩
    imodintro
    isplitl [Ha]; · iexact Ha
    isplitl [Htab]; · iexact Htab
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO0 hO1 1 c).Φ 0 = iprop(Pipeline.ΦA spec1 c ∗ (Pipeline.prefHeld pre1 c (fun _ => fullShare) (tbl1 (En1 m hO0)) : sProp 𝕄)) from rfl]; unfold Pipeline.ΦA
    iintro ⟨Hp, Htab, Hr⟩
    isplitl [Hr Hp]
    · isplitl [Hr]; · iexact Hr
      iexact Hp
    iexact Htab
  hout c := by
    rw [Pipeline.ownSems0_none, show (pdats m hO0 hO1 1 c).Φ (Fin.last _) = iprop(Pipeline.ΦA spec1 c ∗ (Pipeline.prefHeld pre1 c (fun _ => fullShare) (tbl1 (En1 m hO0)) : sProp 𝕄)) from rfl]; unfold Pipeline.ΦA
    iintro ⟨⟨Hr, Hp⟩, Htab⟩
    isplitl [Hp Htab]
    · isplitl [Hp]; · iexact Hp
      iexact Htab
    isplitr; · iempintro
    iexact Hr
  hexit c := by
    have htab : (fun k => En1 m hO0 c ((pcfgs (F := F) 1).pre.ref k)) = tbl1 (En1 m hO0) := funext fun k => V_pre1 (En1 m hO0) c k
    have hjoin := Pipeline.unscopedBufs_of_arrays (p := 1) (pcfgs (F := F)) (adm m hO0 hO1) (Ix := Unit) (Name := ℕ) (U := UR sig nD τ) (Lvl := ℕ)
      (launch1 (F := F)).win (launch1 (F := F)).arr_whole c (pdats m hO0 hO1) ((pdats m hO0 hO1 1 c).share_full fun _ => rfl)
      (En1 m hO0 c) (Ex1 m hO0 hO1 c) ((pdats m hO0 hO1 1 c).arrAt · (cfgM1 (En1 m hO0) hO1).N) (hF1 m hO0 hO1 c) (hrest1 m hO0 hO1 c)
    rw [Pipeline.unscopedBufs_held, Pipeline.unscopedRest_split (launch1 (F := F)).pre c (En1 m hO0 c), htab] at hjoin
    iintro ⟨Ha, HO, ⟨HY, Htab⟩, Hrest⟩
    imodintro
    isplitl [Ha Hrest Htab]
    · iapply hjoin; isplitl [Ha]; · iexact Ha
      isplitl [Htab]; · iexact Htab
      iexact Hrest
    isplitl [HY]; · iexact HY
    unfold Pipeline.Dat.owesAt Pipeline.owesWithin
    icases HO with ⟨%W, -, HO⟩; iexists W; iexact HO

/-! ## @main as segments, and the launch -/

/-- @main's fourteen items in order. -/
abbrev segs : List (Pipeline.Seg (pcfgs (F := F)) (adm m hO0 hO1) (pdats m hO0 hO1) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m hO0 hO1),
    .host (hseg hostOps1 hostOps1_sub hostOps1_fresh (W4 m hO0)),
    .region (reg1 m hO0 hO1),
    .host (hseg hostOps2 hostOps2_sub hostOps2_fresh (W6 m hO0 hO1)),
    .host (hseg hostOps2_1 hostOps2_1_sub hostOps2_1_fresh (W7 m hO0 hO1)),
    .host (hseg hostOps2_2 hostOps2_2_sub hostOps2_2_fresh (W8 m hO0 hO1)),
    .host (hseg hostOps2_3 hostOps2_3_sub hostOps2_3_fresh (W9 m hO0 hO1)),
    .host (hseg hostOps2_4 hostOps2_4_sub hostOps2_4_fresh (W10 m hO0 hO1)),
    .host (hseg hostOps2_5 hostOps2_5_sub hostOps2_5_fresh (W11 m hO0 hO1)),
    .host (hseg hostOps2_6 hostOps2_6_sub hostOps2_6_fresh (W12 m hO0 hO1)),
    .host (hseg hostOps2_7 hostOps2_7_sub hostOps2_7_fresh (W13 m hO0 hO1)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding plain
-- definitions in a metavariable's type
set_option backward.isDefEq.respectTransparency.types false in
/-- THE RUN: from any memory with zero counters, every weakly fair execution of @main terminates, nothing faulting, and
    every final state holds every unscoped buffer at the last boundary's contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m hO0 hO1 c b) :=
  Pipeline.θ_run_regions_kit (pcfgs (F := F)) (adm m hO0 hO1) (pdats m hO0 hO1) () (cellOf_inj (adm m hO0 hO1)) emb₁ defs₀ 𝒱₀ L lv m ρ main (segs m hO0 hO1)
    (fun c Q => by
      rewrite [main_chain c, Pipeline.Seg.run_eq_chain,
        show (segs m hO0 hO1).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO0 hO1)) (cellOf_inj (adm m hO0 hO1))) (Pipeline.launchToks (Pipeline.pin (pcfgs (F := F)) (adm m hO0 hO1)) (cellOf_inj (adm m hO0 hO1))))
    (hu₀ := by
      iintro Hu; imodintro
      isplitl [Hu]
      · iapply (show (ownU (initOf (Pipeline.cells (Pipeline.pin (pcfgs (F := F)) (adm m hO0 hO1)) (cellOf_inj (adm m hO0 hO1))) (Pipeline.launchToks (Pipeline.pin (pcfgs (F := F)) (adm m hO0 hO1)) (cellOf_inj (adm m hO0 hO1)))) : sProp 𝕄)
            ⊢ BI.own (emb₁ (initOf (Pipeline.cells (Pipeline.pin (pcfgs (F := F)) (adm m hO0 hO1)) (cellOf_inj (adm m hO0 hO1))) (Pipeline.launchToks (Pipeline.pin (pcfgs (F := F)) (adm m hO0 hO1)) (cellOf_inj (adm m hO0 hO1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (W14 m hO0 hO1 c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => sep_mono .rfl (show R (F := F) c ⊢ iprop(∃ W, owes (c : Thread nD τ) (0 : CellTallies nD τ sig Unit) W) from by
        iintro ⟨-, HO⟩
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m hO0 hO1 c b)
    (hfin := fun c s' => by
      iintro ⟨Hh, HSI⟩
      unfold StableHlo.held
      imodintro
      iapply (pointsTo_read_all (Pipeline.ucRefs τ sig) (fun b => (((c : Thread nD τ)).1, b)) (W14 m hO0 hO1 c) s')
      isplitl [Hh] <;> iassumption)
    (hQ := fun s h c => h c)

end
end

end Cert.KernelIdeal.Hand

end
-- ==== Proof.KIFrame.lean ====
/-
  The frame: no item of @main writes an argument array — no host operation names one as its result, and neither region
  has one among its windows' arrays — so at the last boundary each argument holds what the launch memory held, and
  the run ends with the arguments unchanged.
-/
import proofs.«423035_j55576876810961_2_alg».proof.Proof.Gen.KernelIdeal.Launch
import proofs.«423035_j55576876810961_2_alg».proof.Proof.Gen.KernelIdeal.Skeleton
import proofs.«423035_j55576876810961_2_alg».proof.Proof.KIRun
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (hO0 : ok0 (F := F) (tbl0 (En0 m))) (hO1 : ok1 (F := F) (tbl1 (En1 m hO0)))

theorem W14_main_arg0 (c : Dev nD) : W14 m hO0 hO1 c main_arg0 = m ((c : Thread nD τ).loc main_arg0) :=
  (StableHlo.after_of_writes_sub hostOps2_7 _ hostOps2_7_writes (by decide)).trans <|
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W6_of_ne m hO0 hO1 c main_arg0 (by decide)).trans <|
  (StableHlo.after_of_writes_sub hostOps1 _ hostOps1_writes (by decide)).trans <|
  (W4_of_ne m hO0 c main_arg0 (by decide)).trans <|
  (V3_of m c main_arg0 (by decide)).trans <| (V2_of m c main_arg0 (by decide)).trans <| (V1_of m c main_arg0 (by decide)).trans rfl

theorem W14_main_arg1 (c : Dev nD) : W14 m hO0 hO1 c main_arg1 = m ((c : Thread nD τ).loc main_arg1) :=
  (StableHlo.after_of_writes_sub hostOps2_7 _ hostOps2_7_writes (by decide)).trans <|
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W6_of_ne m hO0 hO1 c main_arg1 (by decide)).trans <|
  (StableHlo.after_of_writes_sub hostOps1 _ hostOps1_writes (by decide)).trans <|
  (W4_of_ne m hO0 c main_arg1 (by decide)).trans <|
  (V3_of m c main_arg1 (by decide)).trans <| (V2_of m c main_arg1 (by decide)).trans <| (V1_of m c main_arg1 (by decide)).trans rfl

theorem W14_main_arg2 (c : Dev nD) : W14 m hO0 hO1 c main_arg2 = m ((c : Thread nD τ).loc main_arg2) :=
  (StableHlo.after_of_writes_sub hostOps2_7 _ hostOps2_7_writes (by decide)).trans <|
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W6_of_ne m hO0 hO1 c main_arg2 (by decide)).trans <|
  (StableHlo.after_of_writes_sub hostOps1 _ hostOps1_writes (by decide)).trans <|
  (W4_of_ne m hO0 c main_arg2 (by decide)).trans <|
  (V3_of m c main_arg2 (by decide)).trans <| (V2_of m c main_arg2 (by decide)).trans <| (V1_of m c main_arg2 (by decide)).trans rfl

theorem W14_main_arg3 (c : Dev nD) : W14 m hO0 hO1 c main_arg3 = m ((c : Thread nD τ).loc main_arg3) :=
  (StableHlo.after_of_writes_sub hostOps2_7 _ hostOps2_7_writes (by decide)).trans <|
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W6_of_ne m hO0 hO1 c main_arg3 (by decide)).trans <|
  (StableHlo.after_of_writes_sub hostOps1 _ hostOps1_writes (by decide)).trans <|
  (W4_of_ne m hO0 c main_arg3 (by decide)).trans <|
  (V3_of m c main_arg3 (by decide)).trans <| (V2_of m c main_arg3 (by decide)).trans <| (V1_of m c main_arg3 (by decide)).trans rfl

theorem W14_main_arg4 (c : Dev nD) : W14 m hO0 hO1 c main_arg4 = m ((c : Thread nD τ).loc main_arg4) :=
  (StableHlo.after_of_writes_sub hostOps2_7 _ hostOps2_7_writes (by decide)).trans <|
  (StableHlo.after_of_writes_sub hostOps2_6 _ hostOps2_6_writes (by decide)).trans <|
  (StableHlo.after_of_writes_sub hostOps2_5 _ hostOps2_5_writes (by decide)).trans <|
  (StableHlo.after_of_writes_sub hostOps2_4 _ hostOps2_4_writes (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W6_of_ne m hO0 hO1 c main_arg4 (by decide)).trans <|
  (StableHlo.after_of_writes_sub hostOps1 _ hostOps1_writes (by decide)).trans <|
  (W4_of_ne m hO0 c main_arg4 (by decide)).trans <|
  (V3_of m c main_arg4 (by decide)).trans <| (V2_of m c main_arg4 (by decide)).trans <| (V1_of m c main_arg4 (by decide)).trans rfl

include hO0 hO1 in
/-- Every weakly fair execution of @main terminates, nothing faulting, with the five argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W14_main_arg0 m hO0 hO1 c),
     (h c _ (mem_uc main_arg1 (by decide))).trans (W14_main_arg1 m hO0 hO1 c),
     (h c _ (mem_uc main_arg2 (by decide))).trans (W14_main_arg2 m hO0 hO1 c),
     (h c _ (mem_uc main_arg3 (by decide))).trans (W14_main_arg3 m hO0 hO1 c),
     (h c _ (mem_uc main_arg4 (by decide))).trans (W14_main_arg4 m hO0 hO1 c)⟩)
    (run_all m ρ hO0 hO1)

end Cert.KernelIdeal.Hand

end
-- ==== Proof.KITables.lean ====
/-
  What the host operations in front of the first kernel call leave in the buffers the two kernels read, index by index.

  Five arrays are prepared from the arguments. Three are reshapes: the token ids `[8, 2048]` laid flat as `[16384]`,
  the image features `[8, 576, 2560]` as `[4608, 1, 2560]`, the table `[32000, 2560]` as `[32000, 1, 2560]`; a
  reshape keeps the row-major position, so the flat index `b * 2048 + l` reads `(b, l)`, and so on. Two are tables of
  destination rows, computed on 32-bit words: for token `l` of sample `b`, whose image sits at `p = pos[b]`, the row
  `b * 2623 + (l if l < p else l + 576 - 1)` of the spliced sequences laid end to end; for patch `q` of sample `b` the
  row `b * 2623 + p + q`. With `0 ≤ p < 2048` every intermediate word is far below `2^31`, so no addition,
  multiplication or subtraction wraps and the signed comparison is the comparison of the numbers.

  Each array is first written as the composed term of its operations over the launch memory, then that term is read at
  an index: a reshape through the row-major position, a broadcast through the coordinates it keeps, an iota as its
  coordinate, the elementwise word operations pointwise; the word arithmetic is last.
-/
import proofs.«423035_j55576876810961_2_alg».proof.Proof.Gen.KernelIdeal.Regions
import proofs.«423035_j55576876810961_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Hand

open Cert.KernelIdeal Cert.KernelIdeal.Gen Idealize.ShloMosaic Idealize.ShloMosaic.TcCoe Idealize.ShloMosaic.ValueIdx
open Idealize.ShloMosaic.StableHlo

/-! ## Reshapes at an index -/

section Reshapes

variable {α : Type}

/-- `[8, 2048]` laid flat: position `b * 2048 + l` holds entry `(b, l)`. -/
theorem flat_8x2048 (x : S8x2048.Idx → α) (h : S8x2048.ShapeCasts S16384) (b : Fin 8) (l : Fin 2048) :
    shapeCast S16384 x h (ValueIdx.ix1 ⟨b.val * 2048 + l.val, by omega⟩) = x (ix2 b l) :=
  shapeCast_apply x h _ _ (by
    rw [Shape.rowMajor_val_two, Shape.rowMajor_val_one]
    rfl)

/-- `[8, 576]` laid flat: position `b * 576 + q` holds entry `(b, q)`. -/
theorem flat_8x576 (x : S8x576.Idx → α) (h : S8x576.ShapeCasts S4608) (b : Fin 8) (q : Fin 576) :
    shapeCast S4608 x h (ValueIdx.ix1 ⟨b.val * 576 + q.val, by omega⟩) = x (ix2 b q) :=
  shapeCast_apply x h _ _ (by
    rw [Shape.rowMajor_val_two, Shape.rowMajor_val_one]
    rfl)

/-- `[8, 576, 2560]` with its two leading axes merged and a unit axis put in: row `b * 576 + q` is patch `(b, q)`. -/
theorem rows_8x576x2560 (x : S8x576x2560.Idx → α) (h : S8x576x2560.ShapeCasts S4608x1x2560)
    (b : Fin 8) (q : Fin 576) (k : Fin 2560) :
    shapeCast S4608x1x2560 x h (ix3 ⟨b.val * 576 + q.val, by omega⟩ (0 : Fin 1) k) = x (ix3 b q k) :=
  shapeCast_apply x h _ _ (by
    rw [Shape.rowMajor_val_three, Shape.rowMajor_val_three]
    show (b.val * 576 + q.val) * 2560 + k.val = ((b.val * 576 + q.val) * 1 + 0) * 2560 + k.val
    omega)

/-- `[32000, 2560]` with a unit axis put in the middle: row `r` stays row `r`. -/
theorem rows_32000x2560 (x : S32000x2560.Idx → α) (h : S32000x2560.ShapeCasts S32000x1x2560)
    (r : Fin 32000) (k : Fin 2560) :
    shapeCast S32000x1x2560 x h (ix3 r (0 : Fin 1) k) = x (ix2 r k) :=
  shapeCast_apply x h _ _ (by
    rw [Shape.rowMajor_val_two, Shape.rowMajor_val_three]
    show r.val * 2560 + k.val = (r.val * 1 + 0) * 2560 + k.val
    omega)

end Reshapes

/-! ## Broadcasts at an index -/

section Broadcasts

variable {α : Type}

/-- A vector of 8 made a column `[8, 1]`. -/
theorem col_8 (h : S8.BroadcastsInDim S8x1 ![0]) (x : S8.Idx → α) (b : Fin 8) (u : Fin 1) :
    broadcastInDim S8x1 ![0] h x (ix2 b u) = x (ValueIdx.ix1 b) :=
  broadcastInDim_apply _ h x _ _ fun a => match a with | ⟨0, _⟩ => rfl

/-- A vector of 2048 made a row `[1, 2048]`. -/
theorem row_2048 (h : S2048.BroadcastsInDim S1x2048 ![1]) (x : S2048.Idx → α) (u : Fin 1) (l : Fin 2048) :
    broadcastInDim S1x2048 ![1] h x (ix2 u l) = x (ValueIdx.ix1 l) :=
  broadcastInDim_apply _ h x _ _ fun a => match a with | ⟨0, _⟩ => rfl

/-- A vector of 576 made a row `[1, 576]`. -/
theorem row_576 (h : S576.BroadcastsInDim S1x576 ![1]) (x : S576.Idx → α) (u : Fin 1) (q : Fin 576) :
    broadcastInDim S1x576 ![1] h x (ix2 u q) = x (ValueIdx.ix1 q) :=
  broadcastInDim_apply _ h x _ _ fun a => match a with | ⟨0, _⟩ => rfl

/-- A column `[8, 1]` repeated along 2048 columns. -/
theorem col_rep_2048 (h : S8x1.BroadcastsInDim S8x2048 ![0, 1]) (x : S8x1.Idx → α) (b : Fin 8) (l : Fin 2048) :
    broadcastInDim S8x2048 ![0, 1] h x (ix2 b l) = x (ix2 b (0 : Fin 1)) :=
  broadcastInDim_apply _ h x _ _ fun a => match a with | ⟨0, _⟩ => rfl | ⟨1, _⟩ => rfl

/-- A row `[1, 2048]` repeated along 8 rows. -/
theorem row_rep_2048 (h : S1x2048.BroadcastsInDim S8x2048 ![0, 1]) (x : S1x2048.Idx → α) (b : Fin 8) (l : Fin 2048) :
    broadcastInDim S8x2048 ![0, 1] h x (ix2 b l) = x (ix2 (0 : Fin 1) l) :=
  broadcastInDim_apply _ h x _ _ fun a => match a with | ⟨0, _⟩ => rfl | ⟨1, _⟩ => rfl

/-- A column `[8, 1]` repeated along 576 columns. -/
theorem col_rep_576 (h : S8x1.BroadcastsInDim S8x576 ![0, 1]) (x : S8x1.Idx → α) (b : Fin 8) (q : Fin 576) :
    broadcastInDim S8x576 ![0, 1] h x (ix2 b q) = x (ix2 b (0 : Fin 1)) :=
  broadcastInDim_apply _ h x _ _ fun a => match a with | ⟨0, _⟩ => rfl | ⟨1, _⟩ => rfl

/-- A row `[1, 576]` repeated along 8 rows. -/
theorem row_rep_576 (h : S1x576.BroadcastsInDim S8x576 ![0, 1]) (x : S1x576.Idx → α) (b : Fin 8) (q : Fin 576) :
    broadcastInDim S8x576 ![0, 1] h x (ix2 b q) = x (ix2 (0 : Fin 1) q) :=
  broadcastInDim_apply _ h x _ _ fun a => match a with | ⟨0, _⟩ => rfl | ⟨1, _⟩ => rfl

end Broadcasts

/-! ## The two destination tables as terms at an index -/

/-- The patch destinations before the final flattening, at `(b, q)`: `b * 2623 + (pos[b] + q)` on words. -/
theorem dest2_term_apply (pos : S8.Idx → BitVec 32) (b : Fin 8) (q : Fin 576) :
    addi
        (broadcastInDim S8x576 ![0, 1] bcast_S8x1_S8x576_0_1
          (muli (broadcastInDim S8x1 ![0] bcast_S8_S8x1_0 (iotaInDim S8 32 0))
            (broadcastInDim S8x1 ![] bcast_S_S8x1 (constantI S_ 32 2623#32))))
        (addi
          (broadcastInDim S8x576 ![0, 1] bcast_S8x1_S8x576_0_1 (broadcastInDim S8x1 ![0] bcast_S8_S8x1_0 pos))
          (broadcastInDim S8x576 ![0, 1] bcast_S1x576_S8x576_0_1
            (broadcastInDim S1x576 ![1] bcast_S576_S1x576_1 (iotaInDim S576 32 0))))
        (ix2 b q)
      = IntOp.addi (IntOp.muli (BitVec.ofNat 32 b.val) 2623#32) (IntOp.addi (pos (ValueIdx.ix1 b)) (BitVec.ofNat 32 q.val)) := by
  simp only [addi]
  rw [col_rep_576, col_rep_576, row_rep_576, row_576, col_8]
  simp only [muli]
  rw [col_8, broadcastInDim_scalar_apply]
  rfl

/-- The token destinations before the final flattening, at `(b, l)`:
    `b * 2623 + (l if l < pos[b] else (l + 576) - 1)` on words, the comparison signed. -/
theorem dest_term_apply (pos : S8.Idx → BitVec 32) (b : Fin 8) (l : Fin 2048) :
    addi
        (broadcastInDim S8x2048 ![0, 1] bcast_S8x1_S8x2048_0_1
          (muli (broadcastInDim S8x1 ![0] bcast_S8_S8x1_0 (iotaInDim S8 32 0))
            (broadcastInDim S8x1 ![] bcast_S_S8x1 (constantI S_ 32 2623#32))))
        (select
          (cmpi .slt
            (broadcastInDim S8x2048 ![0, 1] bcast_S1x2048_S8x2048_0_1
              (broadcastInDim S1x2048 ![1] bcast_S2048_S1x2048_1 (iotaInDim S2048 32 0)))
            (broadcastInDim S8x2048 ![0, 1] bcast_S8x1_S8x2048_0_1 (broadcastInDim S8x1 ![0] bcast_S8_S8x1_0 pos)))
          (broadcastInDim S8x2048 ![0, 1] bcast_S1x2048_S8x2048_0_1
            (broadcastInDim S1x2048 ![1] bcast_S2048_S1x2048_1 (iotaInDim S2048 32 0)))
          (broadcastInDim S8x2048 ![0, 1] bcast_S1x2048_S8x2048_0_1
            (subi
              (addi (broadcastInDim S1x2048 ![1] bcast_S2048_S1x2048_1 (iotaInDim S2048 32 0))
                (broadcastInDim S1x2048 ![] bcast_S_S1x2048 (constantI S_ 32 576#32)))
              (broadcastInDim S1x2048 ![] bcast_S_S1x2048 (constantI S_ 32 1#32)))))
        (ix2 b l)
      = IntOp.addi (IntOp.muli (BitVec.ofNat 32 b.val) 2623#32)
          (Scalar.select (IntOp.cmpi .slt (BitVec.ofNat 32 l.val) (pos (ValueIdx.ix1 b))) (BitVec.ofNat 32 l.val)
            (IntOp.subi (IntOp.addi (BitVec.ofNat 32 l.val) 576#32) 1#32)) := by
  simp only [addi, select, cmpi]
  rw [col_rep_2048, col_rep_2048, row_rep_2048, row_rep_2048]
  simp only [muli, subi, addi]
  rw [col_8, col_8, row_2048, broadcastInDim_scalar_apply, broadcastInDim_scalar_apply, broadcastInDim_scalar_apply]
  rfl

/-! ## The word arithmetic -/

/-- No step of a patch's destination wraps: the word is the number `b * 2623 + p + q`. -/
theorem dest2_word (p : BitVec 32) (hp : p.toNat < 2048) (b : Fin 8) (q : Fin 576) :
    (IntOp.addi (IntOp.muli (BitVec.ofNat 32 b.val) 2623#32) (IntOp.addi p (BitVec.ofNat 32 q.val))).toNat
      = b.val * 2623 + p.toNat + q.val := by
  have hb := b.isLt
  have hq := q.isLt
  simp only [IntOp.addi, IntOp.muli, BitVec.toNat_add, BitVec.toNat_mul, BitVec.toNat_ofNat]
  omega

/-- A token's number read signed is itself. -/
theorem toInt_tok (l : Fin 2048) : (BitVec.ofNat 32 l.val).toInt = (l.val : ℤ) := by
  have hl := l.isLt
  rw [BitVec.toInt_eq_toNat_of_lt (by rw [BitVec.toNat_ofNat]; omega), BitVec.toNat_ofNat]
  omega

/-- No step of a token's destination wraps, and the signed comparison with the image position is the comparison of
    the numbers: the word is `b * 2623 + (l if l < p else l + 575)`. -/
theorem dest_word (p : BitVec 32) (hp : 0 ≤ p.toInt ∧ p.toInt < 2048) (b : Fin 8) (l : Fin 2048) :
    (IntOp.addi (IntOp.muli (BitVec.ofNat 32 b.val) 2623#32)
        (Scalar.select (IntOp.cmpi .slt (BitVec.ofNat 32 l.val) p) (BitVec.ofNat 32 l.val)
          (IntOp.subi (IntOp.addi (BitVec.ofNat 32 l.val) 576#32) 1#32))).toNat
      = b.val * 2623 + (if l.val < p.toNat then l.val else l.val + 575) := by
  have hb := b.isLt
  have hl := l.isLt
  obtain ⟨hpe, hpl⟩ := Cert.Splice.toNat_of_range (n := 2048) (by omega) hp
  by_cases h : l.val < p.toNat
  · have hs : (BitVec.ofNat 32 l.val).slt p = true := by
      rw [BitVec.slt_eq_decide, toInt_tok, decide_eq_true_eq]
      omega
    rw [if_pos h]
    simp only [IntOp.cmpi, hs]
    rw [show BitVec.ofBool true = 1#1 from rfl, select_one]
    simp only [IntOp.addi, IntOp.muli, BitVec.toNat_add, BitVec.toNat_mul, BitVec.toNat_ofNat]
    omega
  · have hs : (BitVec.ofNat 32 l.val).slt p = false := by
      rw [BitVec.slt_eq_decide, toInt_tok, decide_eq_false_iff_not]
      omega
    rw [if_neg h]
    simp only [IntOp.cmpi, hs]
    rw [show BitVec.ofBool false = 0#1 from rfl, select_zero]
    simp only [IntOp.addi, IntOp.muli, IntOp.subi, BitVec.toNat_add, BitVec.toNat_mul, BitVec.toNat_sub, BitVec.toNat_ofNat]
    omega

/-! ## The buffers after the host operations -/

variable {F : FTy → Type} [FloatOps F] (m : (ℓ : Loc nD τ sig) → Buf (Elt F) ℓ)

/-- The flat token ids are the reshape of the id argument. -/
theorem V3_v18_eq (c : Dev nD) :
    (V3 m c main_v18 : S16384.Idx → BitVec 32)
      = shapeCast S16384 (m ((c : Thread nD τ).loc main_arg2) : S8x2048.Idx → BitVec 32) shapeCasts_S8x2048_S16384 := by
  dsimp only [V3, V2, V1, V0]
  after_results
  rfl

/-- The patch rows are the reshape of the image-feature argument. -/
theorem V3_v29_eq (c : Dev nD) :
    (V3 m c main_v29 : S4608x1x2560.Idx → F .f32)
      = shapeCast S4608x1x2560 (m ((c : Thread nD τ).loc main_arg1) : S8x576x2560.Idx → F .f32)
          shapeCasts_S8x576x2560_S4608x1x2560 := by
  dsimp only [V3, V2, V1, V0]
  after_results
  rfl

/-- The table rows are the reshape of the table argument. -/
theorem V3_v30_eq (c : Dev nD) :
    (V3 m c main_v30 : S32000x1x2560.Idx → F .f32)
      = shapeCast S32000x1x2560 (m ((c : Thread nD τ).loc main_arg0) : S32000x2560.Idx → F .f32)
          shapeCasts_S32000x2560_S32000x1x2560 := by
  dsimp only [V3, V2, V1, V0]
  after_results
  rfl

/-- The token destinations are the flattening of `b * 2623 + (l if l < pos[b] else l + 576 - 1)`, computed on words
    from the position argument. -/
theorem V3_v17_eq (c : Dev nD) :
    (V3 m c main_v17 : S16384.Idx → BitVec 32)
      = shapeCast S16384
          (addi
            (broadcastInDim S8x2048 ![0, 1] bcast_S8x1_S8x2048_0_1
              (muli (broadcastInDim S8x1 ![0] bcast_S8_S8x1_0 (iotaInDim S8 32 0))
                (broadcastInDim S8x1 ![] bcast_S_S8x1 (constantI S_ 32 2623#32))))
            (select
              (cmpi .slt
                (broadcastInDim S8x2048 ![0, 1] bcast_S1x2048_S8x2048_0_1
                  (broadcastInDim S1x2048 ![1] bcast_S2048_S1x2048_1 (iotaInDim S2048 32 0)))
                (broadcastInDim S8x2048 ![0, 1] bcast_S8x1_S8x2048_0_1
                  (broadcastInDim S8x1 ![0] bcast_S8_S8x1_0 (m ((c : Thread nD τ).loc main_arg4) : S8.Idx → BitVec 32))))
              (broadcastInDim S8x2048 ![0, 1] bcast_S1x2048_S8x2048_0_1
                (broadcastInDim S1x2048 ![1] bcast_S2048_S1x2048_1 (iotaInDim S2048 32 0)))
              (broadcastInDim S8x2048 ![0, 1] bcast_S1x2048_S8x2048_0_1
                (subi
                  (addi (broadcastInDim S1x2048 ![1] bcast_S2048_S1x2048_1 (iotaInDim S2048 32 0))
                    (broadcastInDim S1x2048 ![] bcast_S_S1x2048 (constantI S_ 32 576#32)))
                  (broadcastInDim S1x2048 ![] bcast_S_S1x2048 (constantI S_ 32 1#32))))))
          shapeCasts_S8x2048_S16384 := by
  dsimp only [V3, V2, V1, V0]
  after_results_simp
  rfl

/-- The patch destinations are the flattening of `b * 2623 + (pos[b] + q)`, computed on words from the position
    argument. -/
theorem V3_v28_eq (c : Dev nD) :
    (V3 m c main_v28 : S4608.Idx → BitVec 32)
      = shapeCast S4608
          (addi
            (broadcastInDim S8x576 ![0, 1] bcast_S8x1_S8x576_0_1
              (muli (broadcastInDim S8x1 ![0] bcast_S8_S8x1_0 (iotaInDim S8 32 0))
                (broadcastInDim S8x1 ![] bcast_S_S8x1 (constantI S_ 32 2623#32))))
            (addi
              (broadcastInDim S8x576 ![0, 1] bcast_S8x1_S8x576_0_1
                (broadcastInDim S8x1 ![0] bcast_S8_S8x1_0 (m ((c : Thread nD τ).loc main_arg4) : S8.Idx → BitVec 32)))
              (broadcastInDim S8x576 ![0, 1] bcast_S1x576_S8x576_0_1
                (broadcastInDim S1x576 ![1] bcast_S576_S1x576_1 (iotaInDim S576 32 0)))))
          shapeCasts_S8x576_S4608 := by
  dsimp only [V3, V2, V1, V0]
  after_results_simp
  rfl

/-! ## The five tables at an index -/

/-- The flat token ids: position `b * 2048 + l` holds token `l` of sample `b`. -/
theorem V3_ids (c : Dev nD) (b : Fin 8) (l : Fin 2048) :
    V3 m c main_v18 (ValueIdx.ix1 ⟨b.val * 2048 + l.val, by omega⟩) = m ((c : Thread nD τ).loc main_arg2) (ValueIdx.ix2 b l) :=
  (congrFun (V3_v18_eq m c) _).trans (flat_8x2048 _ _ b l)

/-- The token destinations: token `l` of sample `b` goes to row `b * 2623 + l` before the image and to row
    `b * 2623 + l + 575` from the image on. -/
theorem V3_dest (c : Dev nD) (hpos : Cert.Splice.PosInRange (m ((c : Thread nD τ).loc main_arg4))) (b : Fin 8) (l : Fin 2048) :
    (V3 m c main_v17 (ValueIdx.ix1 ⟨b.val * 2048 + l.val, by omega⟩)).toNat
      = b.val * 2623 + (if l.val < (m ((c : Thread nD τ).loc main_arg4) (ValueIdx.ix1 b)).toNat then l.val else l.val + 575) := by
  have e := (congrFun (V3_v17_eq m c) (ValueIdx.ix1 ⟨b.val * 2048 + l.val, by omega⟩)).trans
    ((flat_8x2048 _ _ b l).trans (dest_term_apply _ b l))
  exact (congrArg BitVec.toNat e).trans (dest_word _ (hpos (ValueIdx.ix1 b)) b l)

/-- The patch destinations: patch `q` of sample `b` goes to row `b * 2623 + pos[b] + q`. -/
theorem V3_dest2 (c : Dev nD) (hpos : Cert.Splice.PosInRange (m ((c : Thread nD τ).loc main_arg4))) (b : Fin 8) (q : Fin 576) :
    (V3 m c main_v28 (ValueIdx.ix1 ⟨b.val * 576 + q.val, by omega⟩)).toNat
      = b.val * 2623 + (m ((c : Thread nD τ).loc main_arg4) (ValueIdx.ix1 b)).toNat + q.val := by
  have e := (congrFun (V3_v28_eq m c) (ValueIdx.ix1 ⟨b.val * 576 + q.val, by omega⟩)).trans
    ((flat_8x576 _ _ b q).trans (dest2_term_apply _ b q))
  exact (congrArg BitVec.toNat e).trans
    (dest2_word _ (Cert.Splice.toNat_of_range (n := 2048) (by omega) (hpos (ValueIdx.ix1 b))).2 b q)

/-- The patch rows: row `b * 576 + q` is patch `q` of sample `b`. -/
theorem V3_img (c : Dev nD) (b : Fin 8) (q : Fin 576) (k : Fin 2560) :
    V3 m c main_v29 (ValueIdx.ix3 ⟨b.val * 576 + q.val, by omega⟩ (0 : Fin 1) k) = m ((c : Thread nD τ).loc main_arg1) (ValueIdx.ix3 b q k) :=
  (congrFun (V3_v29_eq m c) _).trans (rows_8x576x2560 _ _ b q k)

/-- The table rows: row `r` is row `r` of the table. -/
theorem V3_emb (c : Dev nD) (r : Fin 32000) (k : Fin 2560) :
    V3 m c main_v30 (ValueIdx.ix3 r (0 : Fin 1) k) = m ((c : Thread nD τ).loc main_arg0) (ValueIdx.ix2 r k) :=
  (congrFun (V3_v30_eq m c) _).trans (rows_32000x2560 _ _ r k)

end Cert.KernelIdeal.Hand
-- ==== Proof.KIOk.lean ====
/-
  The two pipelines' side conditions: every row the scalar tables name lies inside its array.

  Each index map of the two kernel calls reads ONE word of a scalar table and asks for the block of one row, the row
  that word names: the first call a row of the [32000, 1, 2560] embedding table (the word a token id) and a row of the
  [20984, 1, 2560] spliced rows laid end to end (the word a token's destination), the second call a row of the same
  [20984, 1, 2560] array (the word a patch's destination). A block of one row is inside its array exactly when the word,
  read unsigned, is below the number of rows. So it is enough to bound EVERY word of each table:

  * a token id is in [0, 32000) by hypothesis;
  * token l of sample b, whose image sits at p = pos[b] < 2048, goes to row b * 2623 + l or b * 2623 + l + 575, at most
    7 * 2623 + 2047 + 575 = 20983;
  * patch q < 576 of sample b goes to row b * 2623 + p + q, at most 7 * 2623 + 2047 + 575 = 20983.

  The second call's table is read after the first call and one host operation; neither writes it, so it still holds
  what the host operations in front of the first call left there.
-/
import proofs.«423035_j55576876810961_2_alg».proof.Proof.KIRun
import proofs.«423035_j55576876810961_2_alg».proof.Proof.KITables
import proofs.«423035_j55576876810961_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Every index of a flat table by its sample and its place in the sample -/

/-- An index of the flat [16384] tables is b * 2048 + l with b < 8 and l < 2048. -/
theorem split_16384 (x : S16384.Idx) :
    ∃ (b : Fin 8) (l : Fin 2048) (h : b.val * 2048 + l.val < 16384), x = ValueIdx.ix1 ⟨b.val * 2048 + l.val, h⟩ := by
  have hx : (x 0).val < 16384 := (x 0).isLt
  refine ⟨⟨(x 0).val / 2048, by omega⟩, ⟨(x 0).val % 2048, by omega⟩, by show (x 0).val / 2048 * 2048 + (x 0).val % 2048 < 16384; omega, ?_⟩
  refine (ValueIdx.eq_ix1 x).trans (congrArg ValueIdx.ix1 (Fin.ext ?_))
  show (x 0).val = (x 0).val / 2048 * 2048 + (x 0).val % 2048
  omega

/-- An index of the flat [4608] table is b * 576 + q with b < 8 and q < 576. -/
theorem split_4608 (x : S4608.Idx) :
    ∃ (b : Fin 8) (q : Fin 576) (h : b.val * 576 + q.val < 4608), x = ValueIdx.ix1 ⟨b.val * 576 + q.val, h⟩ := by
  have hx : (x 0).val < 4608 := (x 0).isLt
  refine ⟨⟨(x 0).val / 576, by omega⟩, ⟨(x 0).val % 576, by omega⟩, by show (x 0).val / 576 * 576 + (x 0).val % 576 < 4608; omega, ?_⟩
  refine (ValueIdx.eq_ix1 x).trans (congrArg ValueIdx.ix1 (Fin.ext ?_))
  show (x 0).val = (x 0).val / 576 * 576 + (x 0).val % 576
  omega

/-! ## The tables the regions are entered with -/

/-- The first call's table 0 is the flat token ids. -/
theorem tbl0_0 : (tbl0 (En0 m) 0 : S16384.Idx → BitVec 32) = V3 m 0 main_v18 := rfl

/-- The first call's table 1 is the flat token destinations. -/
theorem tbl0_1 : (tbl0 (En0 m) 1 : S16384.Idx → BitVec 32) = V3 m 0 main_v17 := rfl

/-- The second call's table is the flat patch destinations: neither the first call, whose arrays are the embedding
    table and the spliced rows, nor the host operation after it, which writes a copy of the spliced rows, touches it. -/
theorem tbl1_0 (hO0 : ok0 (F := F) (tbl0 (En0 m))) :
    (tbl1 (En1 m hO0) 0 : S4608.Idx → BitVec 32) = V3 m 0 main_v28 := by
  show (StableHlo.after hostOps1 (W4 m hO0 0) main_v28 : S4608.Idx → BitVec 32) = V3 m 0 main_v28
  rw [StableHlo.after_of_writes_sub hostOps1 _ hostOps1_writes (by decide : main_v28 ∉ hostOps1_W)]
  exact W4_of_ne m hO0 0 main_v28 (by decide)

/-! ## Every word of each table is a row of the array it indexes -/

/-- Every token id is below 32000. -/
theorem tbl0_0_lt (hids : Cert.Splice.IdsInRange (m (((0 : Dev nD) : Thread nD τ).loc main_arg2))) (x : S16384.Idx) :
    (tbl0 (En0 m) 0 x : BitVec 32).toNat < 32000 := by
  obtain ⟨b, l, h, rfl⟩ := split_16384 x
  rw [tbl0_0 m, V3_ids m 0 b l]
  exact (Cert.Splice.toNat_of_range (n := 32000) (by omega) (hids _)).2

/-- Every token destination is below 8 * 2623 = 20984. -/
theorem tbl0_1_lt (hpos : Cert.Splice.PosInRange (m (((0 : Dev nD) : Thread nD τ).loc main_arg4))) (x : S16384.Idx) :
    (tbl0 (En0 m) 1 x : BitVec 32).toNat < 20984 := by
  obtain ⟨b, l, h, rfl⟩ := split_16384 x
  rw [tbl0_1 m, V3_dest m 0 hpos b l]
  have hb := b.isLt
  have hl := l.isLt
  split <;> omega

/-- Every patch destination is below 8 * 2623 = 20984. -/
theorem tbl1_0_lt (hpos : Cert.Splice.PosInRange (m (((0 : Dev nD) : Thread nD τ).loc main_arg4)))
    (hO0 : ok0 (F := F) (tbl0 (En0 m))) (x : S4608.Idx) :
    (tbl1 (En1 m hO0) 0 x : BitVec 32).toNat < 20984 := by
  obtain ⟨b, q, h, rfl⟩ := split_4608 x
  rw [tbl1_0 m hO0, V3_dest2 m 0 hpos b q]
  have hp := (Cert.Splice.toNat_of_range (n := 2048) (by omega) (hpos (ValueIdx.ix1 b))).2
  have hb := b.isLt
  have hq := q.isLt
  omega

/-! ## The side conditions -/

/-- The first call's side condition: at every grid point the block of one row at the row the token-id word names is
    inside the [32000, 1, 2560] table, and the block at the row the destination word names is inside the
    [20984, 1, 2560] rows. A block of one row at row w is inside an array of N rows when w < N; the elements are 32 bits
    wide, so every transfer ends on a word. The word is named through the bound on every index of the table, so that
    the table's contents are never computed. -/
theorem ok0_of (hids : Cert.Splice.IdsInRange (m (((0 : Dev nD) : Thread nD τ).loc main_arg2)))
    (hpos : Cert.Splice.PosInRange (m (((0 : Dev nD) : Thread nD τ).loc main_arg4))) :
    ok0 (F := F) (tbl0 (En0 m)) := by
  refine ⟨fun i => ?_, fun i => ?_⟩
  · obtain ⟨w, hw, e⟩ : ∃ w : BitVec 32, w.toNat < 32000 ∧
        cc0_transform_0 k0_off1_inb numel1_S1 (tbl0 (En0 m)) i = ![w.toNat, 0, 0] :=
      ⟨_, tbl0_0_lt m hids _, rfl⟩
    refine ⟨fun a => ?_, Or.inl rfl⟩
    rw [e]
    fin_cases a <;> simp [S1x1x2560, S32000x1x2560] <;> omega
  · obtain ⟨w, hw, e⟩ : ∃ w : BitVec 32, w.toNat < 20984 ∧
        cc0_transform_1 k0_off1_inb numel1_S1 (tbl0 (En0 m)) i = ![w.toNat, 0, 0] :=
      ⟨_, tbl0_1_lt m hpos _, rfl⟩
    refine ⟨fun a => ?_, Or.inl rfl⟩
    rw [e]
    fin_cases a <;> simp [S1x1x2560, S20984x1x2560] <;> omega

/-- The second call's side condition: at every grid point the block of one row at the row the patch-destination word
    names is inside the [20984, 1, 2560] rows. -/
theorem ok1_of (hpos : Cert.Splice.PosInRange (m (((0 : Dev nD) : Thread nD τ).loc main_arg4)))
    (hO0 : ok0 (F := F) (tbl0 (En0 m))) :
    ok1 (F := F) (tbl1 (En1 m hO0)) := by
  intro i
  obtain ⟨w, hw, e⟩ : ∃ w : BitVec 32, w.toNat < 20984 ∧
      cc1_transform_2 k1_off1_inb numel1_S1 (tbl1 (En1 m hO0)) i = ![w.toNat, 0, 0] :=
    ⟨_, tbl1_0_lt m hpos hO0 _, rfl⟩
  refine ⟨fun a => ?_, Or.inl rfl⟩
  rw [e]
  fin_cases a <;> simp [S1x1x2560, S20984x1x2560] <;> omega

end Cert.KernelIdeal.Hand

end
-- ==== Proof.KIIndex.lean ====
/-
  The windows of the two pipelines, at ANY admissible contents `a` of their scalar tables. Every window moves one row
  [1, 1, 2560] of an array [N, 1, 2560]; the row a point `t` moves is the table's word at `t` (for the second kernel's
  input: `t` itself). So an element (r, 0, k) of the array lies in point `t`'s block exactly when `r` is that word, the
  block's element `y` sits at (word, 0, y₂), and an output whose word changes from each point to the next is
  written back at every point.
-/
import proofs.«423035_j55576876810961_2_alg».proof.Proof.Gen.KernelIdeal.Launch
import proofs.«423035_j55576876810961_2_alg».proof.Proof.Gen.KernelIdeal.Skeleton
import proofs.«423035_j55576876810961_2_alg».proof.Proof.KIData
import Idealize.ShloMosaic.Lib.ValueIdx
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- On a grid of one axis the coordinate is the point's number. -/
theorem coords0 (t : Fin grid0.N) : (grid0.coords t 0).val = t.val := by
  have ht := t.isLt
  have hN := N_0
  show t.val / grid0.stride 0 % 16384 = t.val
  have h : grid0.stride 0 = 1 := by decide
  rw [h]; omega

theorem coords1 (t : Fin grid1.N) : (grid1.coords t 0).val = t.val := by
  have ht := t.isLt
  have hN := N_1
  show t.val / grid1.stride 0 % 4608 = t.val
  have h : grid1.stride 0 = 1 := by decide
  rw [h]; omega

theorem first_S1 (h : 0 < S1.numel) : (Shape.Idx.first (s := S1) h (0 : Fin 1)).val = 0 := by
  have := (Shape.Idx.first (s := S1) h (0 : Fin 1)).isLt
  have e : S1.size (0 : Fin 1) = 1 := by decide
  omega

/-- The cell of a table of 16384 words that the first kernel's index maps read at coordinates `i` is cell `i₀`. -/
theorem emb0 (i : grid0.Coords) :
    (Rect.unit (s := S16384) (k0_off1 i) S1.size (k0_off1_inb i)).emb (Shape.Idx.first (numel1_S1.symm ▸ Nat.one_pos)) = ValueIdx.ix1 ⟨(i 0).val, (i 0).isLt⟩ := by
  funext a
  apply Fin.ext
  match a with
  | ⟨0, _⟩ =>
    show (k0_off1 i) 0 + 1 * (Shape.Idx.first (s := S1) (numel1_S1.symm ▸ Nat.one_pos) (0 : Fin 1)).val = (i 0).val
    rw [k0_off1_eq, first_S1]; show (i 0).val + 1 * 0 = (i 0).val; omega

/-- Likewise for the second kernel's table of 4608 words. -/
theorem emb1 (i : grid1.Coords) :
    (Rect.unit (s := S4608) (k1_off1 i) S1.size (k1_off1_inb i)).emb (Shape.Idx.first (numel1_S1.symm ▸ Nat.one_pos)) = ValueIdx.ix1 ⟨(i 0).val, (i 0).isLt⟩ := by
  funext a
  apply Fin.ext
  match a with
  | ⟨0, _⟩ =>
    show (k1_off1 i) 0 + 1 * (Shape.Idx.first (s := S1) (numel1_S1.symm ▸ Nat.one_pos) (0 : Fin 1)).val = (i 0).val
    rw [k1_off1_eq, first_S1]; show (i 0).val + 1 * 0 = (i 0).val; omega

/-! ## The block indices -/

/-- The first kernel's input row at point `t`: the word of table 0 (the token ids) there. -/
theorem idx0_0 (a : (pcfg0 (F := F)).Adm) (t : Fin (cfg0 a).N) :
    ((cfg0 a).win 0).index t = ![(a.1 0 (ValueIdx.ix1 ⟨(grid0.coords t 0).val, (grid0.coords t 0).isLt⟩)).toNat, 0, 0] := by
  show cc0_transform_0 k0_off1_inb numel1_S1 a.1 (grid0.coords t) = _
  unfold cc0_transform_0
  show ![(a.1 0 ((Rect.unit (s := S16384) (k0_off1 (grid0.coords t)) S1.size (k0_off1_inb (grid0.coords t))).emb (Shape.Idx.first (numel1_S1.symm ▸ Nat.one_pos)))).toNat, (0#32 : BitVec 32).toNat, (0#32 : BitVec 32).toNat] = _
  rw [emb0]
  rfl

/-- The first kernel's output row at point `t`: the word of table 1 (the destinations) there. -/
theorem idx0_1 (a : (pcfg0 (F := F)).Adm) (t : Fin (cfg0 a).N) :
    ((cfg0 a).win 1).index t = ![(a.1 1 (ValueIdx.ix1 ⟨(grid0.coords t 0).val, (grid0.coords t 0).isLt⟩)).toNat, 0, 0] := by
  show cc0_transform_1 k0_off1_inb numel1_S1 a.1 (grid0.coords t) = _
  unfold cc0_transform_1
  show ![(a.1 1 ((Rect.unit (s := S16384) (k0_off1 (grid0.coords t)) S1.size (k0_off1_inb (grid0.coords t))).emb (Shape.Idx.first (numel1_S1.symm ▸ Nat.one_pos)))).toNat, (0#32 : BitVec 32).toNat, (0#32 : BitVec 32).toNat] = _
  rw [emb0]
  rfl

/-- The second kernel's input row at point `t` is row `t`. -/
theorem idx1_0 (a : (pcfg1 (F := F)).Adm) (t : Fin (cfg1 a).N) :
    ((cfg1 a).win 0).index t = ![(grid1.coords t 0).val, 0, 0] := by
  show cc1_transform_0 (grid1.coords t) = _
  unfold cc1_transform_0
  show ![(BitVec.ofNat 32 (grid1.coords t 0).val).toNat, (0#32 : BitVec 32).toNat, (0#32 : BitVec 32).toNat] = _
  have h := (grid1.coords t 0).isLt
  have e : (BitVec.ofNat 32 (grid1.coords t 0).val).toNat = (grid1.coords t 0).val := by
    rw [BitVec.toNat_ofNat]; exact Nat.mod_eq_of_lt (by have : grid1.bound 0 = 4608 := rfl; omega)
  rw [e]; rfl

/-- The second kernel's output row at point `t`: the word of its table there. -/
theorem idx1_1 (a : (pcfg1 (F := F)).Adm) (t : Fin (cfg1 a).N) :
    ((cfg1 a).win 1).index t = ![(a.1 0 (ValueIdx.ix1 ⟨(grid1.coords t 0).val, (grid1.coords t 0).isLt⟩)).toNat, 0, 0] := by
  show cc1_transform_2 k1_off1_inb numel1_S1 a.1 (grid1.coords t) = _
  unfold cc1_transform_2
  show ![(a.1 0 ((Rect.unit (s := S4608) (k1_off1 (grid1.coords t)) S1.size (k1_off1_inb (grid1.coords t))).emb (Shape.Idx.first (numel1_S1.symm ▸ Nat.one_pos)))).toNat, (0#32 : BitVec 32).toNat, (0#32 : BitVec 32).toNat] = _
  rw [emb1]
  rfl

/-! ## A row block inside its array -/

/-- In an array [N, 1, 2560], the unit-stride rectangle of sizes [1, 1, 2560] at offsets (d·1, 0·1, 0·2560) holds exactly
    the elements of row `d`. -/
theorem mem_row {N : Nat} (ix : Fin 3 → Nat) (h0 : ix 1 = 0) (h1 : ix 2 = 0)
    (inb : ∀ x, ix x * S1x1x2560.size x + S1x1x2560.size x ≤ (⟨3, ![N, 1, 2560]⟩ : Shape).size x) (i : (⟨3, ![N, 1, 2560]⟩ : Shape).Idx) :
    i ∈ (Rect.unit (s := (⟨3, ![N, 1, 2560]⟩ : Shape)) (fun x => ix x * S1x1x2560.size x) S1x1x2560.size inb).set ↔ (i 0).val = ix 0 := by
  rw [Rect.mem_set_unit]
  constructor
  · intro h
    have := h 0
    have e : S1x1x2560.size (0 : Fin 3) = 1 := rfl
    rw [e] at this; omega
  · intro h x
    match x with
    | ⟨0, _⟩ => show ix 0 * 1 ≤ (i 0).val ∧ (i 0).val < ix 0 * 1 + 1; omega
    | ⟨1, _⟩ => show ix 1 * 1 ≤ (i 1).val ∧ (i 1).val < ix 1 * 1 + 1; have : (i 1).val < 1 := (i 1).isLt; omega
    | ⟨2, _⟩ => show ix 2 * 2560 ≤ (i 2).val ∧ (i 2).val < ix 2 * 2560 + 2560; have : (i 2).val < 2560 := (i 2).isLt; omega

/-! ## An output that moves at every point is written back at every point -/

theorem flush_of_moves {G : Pipeline.Grid} (w : Pipeline.Window sig G) (hout : w.isOut = true) (t : Fin G.N)
    (h : ∀ h' : t.val + 1 < G.N, w.index ⟨t.val + 1, h'⟩ ≠ w.index t) : w.flush t = true := by
  unfold Pipeline.Window.flush
  rw [hout, Bool.true_and]
  by_cases e : t.val + 1 = G.N
  · simp [e]
  · have h' : t.val + 1 < G.N := by have := t.isLt; omega
    simp only [Bool.or_eq_true, decide_eq_true_eq]
    exact Or.inr ⟨h', h h'⟩

end Cert.KernelIdeal.Hand

end
-- ==== Proof.KIValue.lean ====
/-
  The kernel's float result is the specification's spliced sequence.

  Region 1 (image rows): point (b, q) of its grid writes row b·2623 + p_b + q of the [20984, 1, 2560] buffer with
  row b·576 + q of the re-laid image features; these rows increase strictly along the grid, so every point is written
  back, and what a point writes is its block of ONE function `G1` of the row. Hence after the region a row b·2623 + j
  holds `G1` where p_b ≤ j < p_b + 576 and what the region found there elsewhere — which is what region 0 left.
  Region 0 (token rows): point (b, l) writes row b·2623 + (l if l < p_b else l + 575) with the table's row of token
  (b, l)'s id; again strictly increasing, again one function `G0` of the row; and every row with j < p_b or
  j ≥ p_b + 575 is one it writes. The result is the reshape of the buffer to [8, 2623, 2560]; entry (b, j, k) is row
  b·2623 + j, and the two cases are the specification's.
-/
import proofs.«423035_j55576876810961_2_alg».proof.Proof.Gen.KernelIdeal.Launch
import proofs.«423035_j55576876810961_2_alg».proof.Proof.Gen.KernelIdeal.Skeleton
import proofs.«423035_j55576876810961_2_alg».proof.Proof.KIRun
import proofs.«423035_j55576876810961_2_alg».proof.Proof.KIIndex
import proofs.«423035_j55576876810961_2_alg».proof.Proof.KITables
import proofs.«423035_j55576876810961_2_alg».proof.Proof.Spec
import Idealize.ShloMosaic.Lib.ValueIdx
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
abbrev c0 : Dev nD := 0

/-- the image position of sample b, as a natural number -/
abbrev pOf (b : Fin 8) : ℕ := (m ((c0 : Thread nD τ).loc main_arg4) (ValueIdx.ix1 b)).toNat

section
variable (hO0 : ok0 (F := F) (tbl0 (En0 m))) (hO1 : ok1 (F := F) (tbl1 (En1 m hO0)))

theorem tbl1_dest2 : tbl1 (En1 m hO0) 0 = V3 m c0 main_v28 := by
  show W5 m hO0 c0 (Proc.devRef .tc main_v28) = _
  exact (StableHlo.after_of_writes_sub hostOps1 _ hostOps1_writes (by decide)).trans (W4_of_ne m hO0 c0 main_v28 (by decide))

/-- point t of the second grid as (sample, patch) -/
theorem t1_split (t : Fin (cfgM1 (En1 m hO0) hO1).N) : ∃ (b : Fin 8) (q : Fin 576), t.val = b.val * 576 + q.val := by
  have ht : t.val < 4608 := by have h := t.isLt; have hN : (cfgM1 (En1 m hO0) hO1).N = 4608 := N_1; omega
  exact ⟨⟨t.val / 576, by omega⟩, ⟨t.val % 576, Nat.mod_lt _ (by decide)⟩, by show t.val = t.val / 576 * 576 + t.val % 576; omega⟩

/-- the row region 1 writes at point (b, q) -/
theorem dest2_at (hpos : Cert.Splice.PosInRange (m ((c0 : Thread nD τ).loc main_arg4))) (t : Fin (cfgM1 (En1 m hO0) hO1).N) (b : Fin 8) (q : Fin 576) (e : t.val = b.val * 576 + q.val) :
    ((cfgM1 (En1 m hO0) hO1).win 1).index t = ![b.val * 2623 + pOf m b + q.val, 0, 0] := by
  rw [idx1_1 (adm1 (En1 m hO0) hO1) t]
  show ![(tbl1 (En1 m hO0) 0 (ValueIdx.ix1 ⟨(grid1.coords t 0).val, (grid1.coords t 0).isLt⟩)).toNat, 0, 0] = _
  rw [tbl1_dest2]
  have hc : (grid1.coords t 0).val = b.val * 576 + q.val := (coords1 t).trans e
  have hidx : (ValueIdx.ix1 ⟨(grid1.coords t 0).val, (grid1.coords t 0).isLt⟩ : S4608.Idx) = ValueIdx.ix1 ⟨b.val * 576 + q.val, by have := b.isLt; have := q.isLt; omega⟩ := by
    funext x; match x with | ⟨0, _⟩ => exact Fin.ext hc
  rw [hidx, V3_dest2 m c0 hpos b q]

theorem En1_img : En1 m hO0 c0 main_v29 = V3 m c0 main_v29 := by
  show W5 m hO0 c0 (Proc.devRef .tc main_v29) = _
  exact (StableHlo.after_of_writes_sub hostOps1 _ hostOps1_writes (by decide)).trans (W4_of_ne m hO0 c0 main_v29 (by decide))

theorem N1_eq : (cfgM1 (En1 m hO0) hO1).N = 4608 := N_1

/-- the input block of region 1 at point (b, q) is row b*576+q of the re-laid image features -/
theorem iblk1_0_apply (t : Fin (cfgM1 (En1 m hO0) hO1).N) (b : Fin 8) (q : Fin 576) (e : t.val = b.val * 576 + q.val) (y : (((cfgM1 (En1 m hO0) hO1).win 0).xblock ((cfgM1 (En1 m hO0) hO1).grid.coords t)).Idx) :
    iblk1 (En1 m hO0) hO1 c0 0 t y = V3 m c0 main_v29 (ValueIdx.ix3 ⟨b.val * 576 + q.val, by have := b.isLt; have := q.isLt; omega⟩ (0 : Fin 1) (⟨(y (2 : Fin 3)).val, (y (2 : Fin 3)).isLt⟩ : Fin 2560)) := by
  unfold iblk1
  show En1 m hO0 c0 main_v29 ((((cfgM1 (En1 m hO0) hO1).win 0).blk t).view.emb y) = _
  rw [En1_img]
  refine congrArg (V3 m c0 main_v29) ?_
  funext x
  apply Fin.ext
  have hidx := idx1_0 (adm1 (En1 m hO0) hO1) t
  have hc := coords1 t
  match x with
  | ⟨0, _⟩ =>
    show ((cfgM1 (En1 m hO0) hO1).win 0).index t (0 : Fin 3) * 1 + 1 * (y (0 : Fin 3)).val = b.val * 576 + q.val
    have h0 : ((cfgM1 (En1 m hO0) hO1).win 0).index t (0 : Fin 3) = (grid1.coords t 0).val := congrFun hidx (0 : Fin 3)
    have hy : (y (0 : Fin 3)).val < 1 := (y (0 : Fin 3)).isLt
    omega
  | ⟨1, _⟩ =>
    show ((cfgM1 (En1 m hO0) hO1).win 0).index t (1 : Fin 3) * 1 + 1 * (y (1 : Fin 3)).val = 0
    have h1 : ((cfgM1 (En1 m hO0) hO1).win 0).index t (1 : Fin 3) = 0 := congrFun hidx (1 : Fin 3)
    have hy : (y (1 : Fin 3)).val < 1 := (y (1 : Fin 3)).isLt
    omega
  | ⟨2, _⟩ =>
    show ((cfgM1 (En1 m hO0) hO1).win 0).index t (2 : Fin 3) * 2560 + 1 * (y (2 : Fin 3)).val = (y (2 : Fin 3)).val
    have h2 : ((cfgM1 (En1 m hO0) hO1).win 0).index t (2 : Fin 3) = 0 := congrFun hidx (2 : Fin 3)
    omega

/-- the sample a row of the [20984, 1, 2560] buffer belongs to -/
def rowB (i : S20984x1x2560.Idx) : Fin 8 := ⟨(i 0).val / 2623, by have : (i 0).val < 20984 := (i 0).isLt; omega⟩

/-- What region 1 writes, as ONE function of the row: row b*2623 + j takes image row b*576 + (j - p b). -/
def G1 : S20984x1x2560.Idx → Elt F .f32 := fun i =>
  V3 m c0 main_v29 (ValueIdx.ix3 ⟨min ((rowB i).val * 576 + ((i 0).val % 2623 - pOf m (rowB i))) 4607, by omega⟩ (0 : Fin 1) (i 2))

theorem pOf_lt (hpos : Cert.Splice.PosInRange (m ((c0 : Thread nD τ).loc main_arg4))) (b : Fin 8) : pOf m b < 2048 :=
  (Cert.Splice.toNat_of_range (by decide) (hpos (ValueIdx.ix1 b))).2

/-- `G1` at a row known by its coordinates: row b*2623 + p b + q holds image row b*576 + q. -/
theorem G1_at (i : S20984x1x2560.Idx) (b : Fin 8) (q : Fin 576) (k : Fin 2560) (hp : pOf m b < 2048)
    (h0 : (i 0).val = b.val * 2623 + pOf m b + q.val) (h2 : (i 2).val = k.val) :
    G1 m i = V3 m c0 main_v29 (ValueIdx.ix3 ⟨b.val * 576 + q.val, by have := b.isLt; have := q.isLt; omega⟩ (0 : Fin 1) k) := by
  have hb := b.isLt
  have hq := q.isLt
  have hB : rowB i = b := by
    apply Fin.ext; show (i 0).val / 2623 = b.val
    rw [h0]; omega
  unfold G1
  refine congrArg (V3 m c0 main_v29) ?_
  funext x
  apply Fin.ext
  match x with
  | ⟨0, _⟩ =>
    show min ((rowB i).val * 576 + ((i 0).val % 2623 - pOf m (rowB i))) 4607 = b.val * 576 + q.val
    rw [hB, h0]
    have : (b.val * 2623 + pOf m b + q.val) % 2623 = pOf m b + q.val := by omega
    rw [this]; omega
  | ⟨1, _⟩ => rfl
  | ⟨2, _⟩ => exact h2

theorem flushed1_eq (hpos : Cert.Splice.PosInRange (m ((c0 : Thread nD τ).loc main_arg4))) (t : Fin (cfgM1 (En1 m hO0) hO1).N) :
    (dat1 (En1 m hO0) hO1 c0).flushed 1 t = (((cfgM1 (En1 m hO0) hO1).win 1).blk t).view.read (Elt F) (G1 m) := by
  have ha : (dat1 (En1 m hO0) hO1 c0).after 1 t = iblk1 (En1 m hO0) hO1 c0 0 t := (after1_1 (En1 m hO0) hO1 c0 t).trans (out1_eq _)
  obtain ⟨b, q, e⟩ := t1_split m hO0 hO1 t
  funext y
  refine Eq.trans (show (dat1 (En1 m hO0) hO1 c0).flushed 1 t y = iblk1 (En1 m hO0) hO1 c0 0 t y from congrFun ha y) ?_
  refine (iblk1_0_apply m hO0 hO1 t b q e y).trans ?_
  show _ = G1 m ((((cfgM1 (En1 m hO0) hO1).win 1).blk t).view.emb y)
  have hd := dest2_at m hO0 hO1 hpos t b q e
  have hp := pOf_lt m hpos b
  have h0 : ((cfgM1 (En1 m hO0) hO1).win 1).index t (0 : Fin 3) = b.val * 2623 + pOf m b + q.val := congrFun hd (0 : Fin 3)
  have h2 : ((cfgM1 (En1 m hO0) hO1).win 1).index t (2 : Fin 3) = 0 := congrFun hd (2 : Fin 3)
  refine (G1_at m _ b q ⟨(y (2 : Fin 3)).val, (y (2 : Fin 3)).isLt⟩ hp ?_ ?_).symm
  · show ((cfgM1 (En1 m hO0) hO1).win 1).index t (0 : Fin 3) * 1 + 1 * (y (0 : Fin 3)).val = _
    have hy : (y (0 : Fin 3)).val < 1 := (y (0 : Fin 3)).isLt
    omega
  · show ((cfgM1 (En1 m hO0) hO1).win 1).index t (2 : Fin 3) * 2560 + 1 * (y (2 : Fin 3)).val = (y (2 : Fin 3)).val
    omega

/-! ## Region 1: which rows it writes, that it writes at every point, and the array it leaves -/

/-- An element of the [20984, 1, 2560] buffer lies in point `t`'s block exactly when its row is the row `t` writes. -/
theorem mem_blk1_1 (t : Fin (cfgM1 (En1 m hO0) hO1).N) (i : S20984x1x2560.Idx) :
    i ∈ (((cfgM1 (En1 m hO0) hO1).win 1).blk t).view.set ↔ (i 0).val = ((cfgM1 (En1 m hO0) hO1).win 1).index t (0 : Fin 3) := by
  have hs : (((cfgM1 (En1 m hO0) hO1).win 1).blk t).view.set = (((cfgM1 (En1 m hO0) hO1).win 1).rect t).set := View.set_slice_whole main_v32 _
  rw [hs]
  have hi := idx1_1 (adm1 (En1 m hO0) hO1) t
  exact mem_row (N := 20984) (((cfgM1 (En1 m hO0) hO1).win 1).index t) (by rw [hi]; rfl) (by rw [hi]; rfl) _ i

/-- The rows region 1 writes increase strictly along the grid, so every point writes back. -/
theorem flush1_all (hpos : Cert.Splice.PosInRange (m ((c0 : Thread nD τ).loc main_arg4))) (t : Fin (cfgM1 (En1 m hO0) hO1).N) :
    ((cfgM1 (En1 m hO0) hO1).win 1).flush t = true := by
  refine flush_of_moves _ rfl t fun h' => ?_
  obtain ⟨b, q, e⟩ := t1_split m hO0 hO1 t
  obtain ⟨b', q', e'⟩ := t1_split m hO0 hO1 ⟨t.val + 1, h'⟩
  rw [dest2_at m hO0 hO1 hpos t b q e, dest2_at m hO0 hO1 hpos ⟨t.val + 1, h'⟩ b' q' e']
  intro hne
  have h0 : b'.val * 2623 + pOf m b' + q'.val = b.val * 2623 + pOf m b + q.val := congrFun hne (0 : Fin 3)
  have e'' : t.val + 1 = b'.val * 576 + q'.val := e'
  have hp := pOf_lt m hpos b
  have hq := q.isLt; have hq' := q'.isLt
  by_cases hb : b' = b
  · subst hb; omega
  · have : b'.val ≠ b.val := fun h => hb (Fin.ext h)
    omega

/-- THE ARRAY REGION 1 LEAVES, at row b*2623 + j: the image's row where j is in the image's range, what region 1 found
    elsewhere. -/
theorem final1 (hpos : Cert.Splice.PosInRange (m ((c0 : Thread nD τ).loc main_arg4))) (i : S20984x1x2560.Idx) (b : Fin 8) (j : Fin 2623)
    (h0 : (i 0).val = b.val * 2623 + j.val) :
    (dat1 (En1 m hO0) hO1 c0).arrAt 1 (cfgM1 (En1 m hO0) hO1).N i
      = if pOf m b ≤ j.val ∧ j.val < pOf m b + 576 then G1 m i else En1 m hO0 c0 main_v32 i := by
  have hb := b.isLt; have hj := j.isLt
  have hp := pOf_lt m hpos b
  by_cases h : pOf m b ≤ j.val ∧ j.val < pOf m b + 576
  · rw [if_pos h]
    have hN : (cfgM1 (En1 m hO0) hO1).N = 4608 := N_1
    refine (dat1 (En1 m hO0) hO1 c0).arrAt_apply_of_mem 1 (G1 m) (fun t _ => flushed1_eq m hO0 hO1 hpos t) _ ⟨b.val * 576 + (j.val - pOf m b), by omega⟩ i (Fin.isLt _) (flush1_all m hO0 hO1 hpos _) ?_
    refine (mem_blk1_1 m hO0 hO1 _ i).mpr ?_
    rw [dest2_at m hO0 hO1 hpos _ b ⟨j.val - pOf m b, by omega⟩ rfl]
    show (i 0).val = b.val * 2623 + pOf m b + (j.val - pOf m b)
    omega
  · rw [if_neg h]
    refine ((dat1 (En1 m hO0) hO1 c0).arrAt_apply_of_forall_not_mem 1 _ i fun t _ _ hi => ?_).trans (congrFun (A_eq1 (En1 m hO0) hO1 c0 1) i)
    have hi' := (mem_blk1_1 m hO0 hO1 t i).mp hi
    obtain ⟨b', q', e'⟩ := t1_split m hO0 hO1 t
    have hd : ((cfgM1 (En1 m hO0) hO1).win 1).index t (0 : Fin 3) = b'.val * 2623 + pOf m b' + q'.val := congrFun (dest2_at m hO0 hO1 hpos t b' q' e') (0 : Fin 3)
    have hp' := pOf_lt m hpos b'
    have hq' := q'.isLt
    have hbb : b' = b := Fin.ext (by omega)
    subst hbb
    exact h (by omega)

/-! ## Region 0 -/

theorem N0_eq : (cfgM0 (En0 m) hO0).N = 16384 := N_0

/-- the id of token (b, l), as a natural number -/
abbrev idn (b : Fin 8) (l : Fin 2048) : ℕ := (m ((c0 : Thread nD τ).loc main_arg2) (ValueIdx.ix2 b l)).toNat

theorem idn_lt (hids : Cert.Splice.IdsInRange (m ((c0 : Thread nD τ).loc main_arg2))) (b : Fin 8) (l : Fin 2048) : idn m b l < 32000 :=
  (Cert.Splice.toNat_of_range (by decide) (hids (ValueIdx.ix2 b l))).2

/-- the row offset token l of a sample takes when the image sits at p -/
def dOf (p l : ℕ) : ℕ := if l < p then l else l + 575

theorem dOf_lt (p l : ℕ) (h : l < p) : dOf p l = l := if_pos h
theorem dOf_ge (p l : ℕ) (h : ¬ l < p) : dOf p l = l + 575 := if_neg h

/-- point t of the first grid as (sample, token) -/
theorem t0_split (t : Fin (cfgM0 (En0 m) hO0).N) : ∃ (b : Fin 8) (l : Fin 2048), t.val = b.val * 2048 + l.val := by
  have ht : t.val < 16384 := by have h := t.isLt; have hN : (cfgM0 (En0 m) hO0).N = 16384 := N_0; omega
  exact ⟨⟨t.val / 2048, by omega⟩, ⟨t.val % 2048, Nat.mod_lt _ (by decide)⟩, by show t.val = t.val / 2048 * 2048 + t.val % 2048; omega⟩

theorem t0_idx (t : Fin (cfgM0 (En0 m) hO0).N) (b : Fin 8) (l : Fin 2048) (e : t.val = b.val * 2048 + l.val) :
    (ValueIdx.ix1 ⟨(grid0.coords t 0).val, (grid0.coords t 0).isLt⟩ : S16384.Idx) = ValueIdx.ix1 ⟨b.val * 2048 + l.val, by have := b.isLt; have := l.isLt; omega⟩ := by
  have hc : (grid0.coords t 0).val = b.val * 2048 + l.val := (coords0 t).trans e
  funext x; match x with | ⟨0, _⟩ => exact Fin.ext hc

/-- the row region 0 writes at point (b, l) -/
theorem dest_at (hpos : Cert.Splice.PosInRange (m ((c0 : Thread nD τ).loc main_arg4))) (t : Fin (cfgM0 (En0 m) hO0).N) (b : Fin 8) (l : Fin 2048) (e : t.val = b.val * 2048 + l.val) :
    ((cfgM0 (En0 m) hO0).win 1).index t = ![b.val * 2623 + dOf (pOf m b) l.val, 0, 0] := by
  rw [idx0_1 (adm0 (En0 m) hO0) t]
  show ![(V3 m c0 main_v17 (ValueIdx.ix1 ⟨(grid0.coords t 0).val, (grid0.coords t 0).isLt⟩)).toNat, 0, 0] = _
  rw [t0_idx m hO0 t b l e, V3_dest m c0 hpos b l]
  rfl

/-- the row region 0 reads at point (b, l): the token's id -/
theorem ids_at (t : Fin (cfgM0 (En0 m) hO0).N) (b : Fin 8) (l : Fin 2048) (e : t.val = b.val * 2048 + l.val) :
    ((cfgM0 (En0 m) hO0).win 0).index t = ![idn m b l, 0, 0] := by
  rw [idx0_0 (adm0 (En0 m) hO0) t]
  show ![(V3 m c0 main_v18 (ValueIdx.ix1 ⟨(grid0.coords t 0).val, (grid0.coords t 0).isLt⟩)).toNat, 0, 0] = _
  rw [t0_idx m hO0 t b l e, V3_ids m c0 b l]

/-- the input block of region 0 at point (b, l) is the table's row the token's id names -/
theorem iblk0_0_apply (hids : Cert.Splice.IdsInRange (m ((c0 : Thread nD τ).loc main_arg2))) (t : Fin (cfgM0 (En0 m) hO0).N) (b : Fin 8) (l : Fin 2048) (e : t.val = b.val * 2048 + l.val)
    (y : (((cfgM0 (En0 m) hO0).win 0).xblock ((cfgM0 (En0 m) hO0).grid.coords t)).Idx) :
    iblk0 (En0 m) hO0 c0 0 t y = V3 m c0 main_v30 (ValueIdx.ix3 ⟨idn m b l, idn_lt m hids b l⟩ (0 : Fin 1) (⟨(y (2 : Fin 3)).val, (y (2 : Fin 3)).isLt⟩ : Fin 2560)) := by
  unfold iblk0
  show V3 m c0 main_v30 ((((cfgM0 (En0 m) hO0).win 0).blk t).view.emb y) = _
  refine congrArg (V3 m c0 main_v30) ?_
  funext x
  apply Fin.ext
  have hidx := ids_at m hO0 t b l e
  match x with
  | ⟨0, _⟩ =>
    show ((cfgM0 (En0 m) hO0).win 0).index t (0 : Fin 3) * 1 + 1 * (y (0 : Fin 3)).val = idn m b l
    have h0 : ((cfgM0 (En0 m) hO0).win 0).index t (0 : Fin 3) = idn m b l := congrFun hidx (0 : Fin 3)
    have hy : (y (0 : Fin 3)).val < 1 := (y (0 : Fin 3)).isLt
    omega
  | ⟨1, _⟩ =>
    show ((cfgM0 (En0 m) hO0).win 0).index t (1 : Fin 3) * 1 + 1 * (y (1 : Fin 3)).val = 0
    have h1 : ((cfgM0 (En0 m) hO0).win 0).index t (1 : Fin 3) = 0 := congrFun hidx (1 : Fin 3)
    have hy : (y (1 : Fin 3)).val < 1 := (y (1 : Fin 3)).isLt
    omega
  | ⟨2, _⟩ =>
    show ((cfgM0 (En0 m) hO0).win 0).index t (2 : Fin 3) * 2560 + 1 * (y (2 : Fin 3)).val = (y (2 : Fin 3)).val
    have h2 : ((cfgM0 (En0 m) hO0).win 0).index t (2 : Fin 3) = 0 := congrFun hidx (2 : Fin 3)
    omega

/-- What region 0 writes, as ONE function of the row: row b*2623 + j takes the table's row of token `tokOf (p b) j`. -/
def G0 : S20984x1x2560.Idx → Elt F .f32 := fun i =>
  V3 m c0 main_v30 (ValueIdx.ix3 ⟨min (idn m (rowB i) ⟨min (Cert.Splice.tokOf (pOf m (rowB i)) ((i 0).val % 2623)) 2047, by omega⟩) 31999, by omega⟩ (0 : Fin 1) (i 2))

theorem idn_congr (b : Fin 8) (l l' : Fin 2048) (h : l'.val = l.val) : idn m b l' = idn m b l := by
  have : l' = l := Fin.ext h
  rw [this]

theorem idn_congr2 (b b' : Fin 8) (l l' : Fin 2048) (hb : b' = b) (hl : l'.val = l.val) : idn m b' l' = idn m b l := by
  subst hb; exact idn_congr m b' l l' hl

/-- `G0` at a row known by its coordinates. -/
theorem G0_at (i : S20984x1x2560.Idx) (b : Fin 8) (l : Fin 2048) (k : Fin 2560) (hp : pOf m b < 2048) (hid : idn m b l < 32000)
    (h0 : (i 0).val = b.val * 2623 + dOf (pOf m b) l.val) (h2 : (i 2).val = k.val) :
    G0 m i = V3 m c0 main_v30 (ValueIdx.ix3 ⟨idn m b l, hid⟩ (0 : Fin 1) k) := by
  have hb := b.isLt
  have hl := l.isLt
  have hd : dOf (pOf m b) l.val < 2623 ∧ Cert.Splice.tokOf (pOf m b) (dOf (pOf m b) l.val) = l.val := by
    unfold dOf Cert.Splice.tokOf
    by_cases h : l.val < pOf m b
    · rw [if_pos h, if_pos h]; omega
    · rw [if_neg h, if_neg (by omega)]; omega
  have hB : rowB i = b := by
    apply Fin.ext; show (i 0).val / 2623 = b.val
    rw [h0]; omega
  have hm : (i 0).val % 2623 = dOf (pOf m b) l.val := by rw [h0]; omega
  unfold G0
  refine congrArg (V3 m c0 main_v30) ?_
  funext x
  apply Fin.ext
  match x with
  | ⟨0, _⟩ =>
    show min (idn m (rowB i) ⟨min (Cert.Splice.tokOf (pOf m (rowB i)) ((i 0).val % 2623)) 2047, _⟩) 31999 = idn m b l
    have e1 : idn m (rowB i) ⟨min (Cert.Splice.tokOf (pOf m (rowB i)) ((i 0).val % 2623)) 2047, by omega⟩ = idn m b l :=
      idn_congr2 m b (rowB i) l _ hB (by show min (Cert.Splice.tokOf (pOf m (rowB i)) ((i 0).val % 2623)) 2047 = l.val; rw [hB, hm, hd.2]; omega)
    rw [e1]; omega
  | ⟨1, _⟩ => rfl
  | ⟨2, _⟩ => exact h2

theorem flushed0_eq (hids : Cert.Splice.IdsInRange (m ((c0 : Thread nD τ).loc main_arg2))) (hpos : Cert.Splice.PosInRange (m ((c0 : Thread nD τ).loc main_arg4))) (t : Fin (cfgM0 (En0 m) hO0).N) :
    (dat0 (En0 m) hO0 c0).flushed 1 t = (((cfgM0 (En0 m) hO0).win 1).blk t).view.read (Elt F) (G0 m) := by
  have ha : (dat0 (En0 m) hO0 c0).after 1 t = iblk0 (En0 m) hO0 c0 0 t := (after0_1 (En0 m) hO0 c0 t).trans (out0_eq _)
  obtain ⟨b, l, e⟩ := t0_split m hO0 t
  funext y
  refine Eq.trans (show (dat0 (En0 m) hO0 c0).flushed 1 t y = iblk0 (En0 m) hO0 c0 0 t y from congrFun ha y) ?_
  refine (iblk0_0_apply m hO0 hids t b l e y).trans ?_
  show _ = G0 m ((((cfgM0 (En0 m) hO0).win 1).blk t).view.emb y)
  have hd := dest_at m hO0 hpos t b l e
  have hp := pOf_lt m hpos b
  have h0 : ((cfgM0 (En0 m) hO0).win 1).index t (0 : Fin 3) = b.val * 2623 + dOf (pOf m b) l.val := congrFun hd (0 : Fin 3)
  have h2 : ((cfgM0 (En0 m) hO0).win 1).index t (2 : Fin 3) = 0 := congrFun hd (2 : Fin 3)
  refine (G0_at m _ b l ⟨(y (2 : Fin 3)).val, (y (2 : Fin 3)).isLt⟩ hp (idn_lt m hids b l) ?_ ?_).symm
  · show ((cfgM0 (En0 m) hO0).win 1).index t (0 : Fin 3) * 1 + 1 * (y (0 : Fin 3)).val = _
    have hy : (y (0 : Fin 3)).val < 1 := (y (0 : Fin 3)).isLt
    omega
  · show ((cfgM0 (En0 m) hO0).win 1).index t (2 : Fin 3) * 2560 + 1 * (y (2 : Fin 3)).val = (y (2 : Fin 3)).val
    omega

theorem mem_blk0_1 (t : Fin (cfgM0 (En0 m) hO0).N) (i : S20984x1x2560.Idx) :
    i ∈ (((cfgM0 (En0 m) hO0).win 1).blk t).view.set ↔ (i 0).val = ((cfgM0 (En0 m) hO0).win 1).index t (0 : Fin 3) := by
  have hs : (((cfgM0 (En0 m) hO0).win 1).blk t).view.set = (((cfgM0 (En0 m) hO0).win 1).rect t).set := View.set_slice_whole main_v31 _
  rw [hs]
  have hi := idx0_1 (adm0 (En0 m) hO0) t
  exact mem_row (N := 20984) (((cfgM0 (En0 m) hO0).win 1).index t) (by rw [hi]; rfl) (by rw [hi]; rfl) _ i

/-- The rows region 0 writes increase strictly along the grid, so every point writes back. -/
theorem flush0_all (hpos : Cert.Splice.PosInRange (m ((c0 : Thread nD τ).loc main_arg4))) (t : Fin (cfgM0 (En0 m) hO0).N) :
    ((cfgM0 (En0 m) hO0).win 1).flush t = true := by
  refine flush_of_moves _ rfl t fun h' => ?_
  obtain ⟨b, l, e⟩ := t0_split m hO0 t
  obtain ⟨b', l', e'⟩ := t0_split m hO0 ⟨t.val + 1, h'⟩
  rw [dest_at m hO0 hpos t b l e, dest_at m hO0 hpos ⟨t.val + 1, h'⟩ b' l' e']
  intro hne
  have h0 : b'.val * 2623 + dOf (pOf m b') l'.val = b.val * 2623 + dOf (pOf m b) l.val := congrFun hne (0 : Fin 3)
  have e'' : t.val + 1 = b'.val * 2048 + l'.val := e'
  have hl := l.isLt; have hl' := l'.isLt
  have hd : l.val ≤ dOf (pOf m b) l.val ∧ dOf (pOf m b) l.val ≤ l.val + 575 := by unfold dOf; split <;> omega
  have hd' : l'.val ≤ dOf (pOf m b') l'.val ∧ dOf (pOf m b') l'.val ≤ l'.val + 575 := by unfold dOf; split <;> omega
  by_cases hb : b' = b
  · subst hb
    have hll : l'.val = l.val + 1 := by omega
    unfold dOf at h0
    split at h0 <;> split at h0 <;> omega
  · have : b'.val ≠ b.val := fun h => hb (Fin.ext h)
    omega

/-- THE ARRAY REGION 0 LEAVES at a row outside the image's rows but for its last: the table's row of the token there. -/
theorem final0 (hids : Cert.Splice.IdsInRange (m ((c0 : Thread nD τ).loc main_arg2))) (hpos : Cert.Splice.PosInRange (m ((c0 : Thread nD τ).loc main_arg4)))
    (i : S20984x1x2560.Idx) (b : Fin 8) (j : Fin 2623) (h0 : (i 0).val = b.val * 2623 + j.val) (hcov : j.val < pOf m b ∨ pOf m b + 575 ≤ j.val) :
    (dat0 (En0 m) hO0 c0).arrAt 1 (cfgM0 (En0 m) hO0).N i = G0 m i := by
  have hb := b.isLt; have hj := j.isLt
  have hp := pOf_lt m hpos b
  have hN : (cfgM0 (En0 m) hO0).N = 16384 := N_0
  have htk : Cert.Splice.tokOf (pOf m b) j.val < 2048 ∧ dOf (pOf m b) (Cert.Splice.tokOf (pOf m b) j.val) = j.val := by
    unfold Cert.Splice.tokOf dOf
    rcases hcov with h | h
    · rw [if_pos h, if_pos h]; omega
    · rw [if_neg (by omega), if_neg (by omega)]; omega
  refine (dat0 (En0 m) hO0 c0).arrAt_apply_of_mem 1 (G0 m) (fun t _ => flushed0_eq m hO0 hids hpos t) _ ⟨b.val * 2048 + Cert.Splice.tokOf (pOf m b) j.val, by omega⟩ i (Fin.isLt _) (flush0_all m hO0 hpos _) ?_
  refine (mem_blk0_1 m hO0 _ i).mpr ?_
  rw [dest_at m hO0 hpos _ b ⟨Cert.Splice.tokOf (pOf m b) j.val, htk.1⟩ rfl]
  show (i 0).val = b.val * 2623 + dOf (pOf m b) (Cert.Splice.tokOf (pOf m b) j.val)
  rw [htk.2]; exact h0

/-! ## The result -/

theorem En1_buf : (En1 m hO0 c0 main_v32 : S20984x1x2560.Idx → Elt F .f32) = (dat0 (En0 m) hO0 c0).arrAt 1 (cfgM0 (En0 m) hO0).N := by
  show W5 m hO0 c0 (Proc.devRef .tc main_v32) = _
  have h : W5 m hO0 c0 (Proc.devRef .tc main_v32) = W4 m hO0 c0 (Proc.devRef .tc main_v31) := by
    show StableHlo.after hostOps1 (W4 m hO0 c0) (Proc.devRef .tc main_v32) = _
    after_results
    rfl
  rw [h]
  exact W4_arr m hO0 c0 1

/-- The reshape [20984, 1, 2560] → [8, 2623, 2560] read at an index: entry (b, j, k) is row b*2623 + j. -/
theorem rows_20984 {α : Type} (x : S20984x1x2560.Idx → α) (h : S20984x1x2560.ShapeCasts S8x2623x2560) (b : Fin 8) (j : Fin 2623) (k : Fin 2560) :
    shapeCast S8x2623x2560 x h (ValueIdx.ix3 b j k) = x (ValueIdx.ix3 ⟨b.val * 2623 + j.val, by have := b.isLt; have := j.isLt; omega⟩ (0 : Fin 1) k) :=
  shapeCast_apply x h _ _ (by
    rw [Shape.rowMajor_val_three, Shape.rowMajor_val_three]
    show ((b.val * 2623 + j.val) * 1 + 0) * 2560 + k.val = (b.val * 2623 + j.val) * 2560 + k.val
    omega)

/-- The float result is the reshape of what region 1 leaves. -/
theorem W14_v33 (c : Dev nD) : (W14 m hO0 hO1 c main_v33 : S8x2623x2560.Idx → Elt F .f32)
    = shapeCast S8x2623x2560 (W6 m hO0 hO1 c main_v32 : S20984x1x2560.Idx → Elt F .f32) shapeCasts_S20984x1x2560_S8x2623x2560 := by
  refine (StableHlo.after_of_writes_sub hostOps2_7 _ hostOps2_7_writes (by decide)).trans ?_
  refine (StableHlo.after_of_writes_sub hostOps2_6 _ hostOps2_6_writes (by decide)).trans ?_
  refine (StableHlo.after_of_writes_sub hostOps2_5 _ hostOps2_5_writes (by decide)).trans ?_
  refine (StableHlo.after_of_writes_sub hostOps2_4 _ hostOps2_4_writes (by decide)).trans ?_
  refine (StableHlo.after_of_writes_sub hostOps2_3 _ hostOps2_3_writes (by decide)).trans ?_
  refine (StableHlo.after_of_writes_sub hostOps2_2 _ hostOps2_2_writes (by decide)).trans ?_
  refine (StableHlo.after_of_writes_sub hostOps2_1 _ hostOps2_1_writes (by decide)).trans ?_
  show StableHlo.after hostOps2 (W6 m hO0 hO1 c) (Proc.devRef .tc main_v33) = _
  after_results_simp
  rfl

/-- THE KERNEL'S FLOAT RESULT is the spliced sequence of the specification. -/
theorem kernel_value (hids : Cert.Splice.IdsInRange (m ((c0 : Thread nD τ).loc main_arg2))) (hpos : Cert.Splice.PosInRange (m ((c0 : Thread nD τ).loc main_arg4))) :
    (W14 m hO0 hO1 c0 main_v33 : S8x2623x2560.Idx → Elt F .f32)
      = Cert.Splice.spliced (m ((c0 : Thread nD τ).loc main_arg0)) (m ((c0 : Thread nD τ).loc main_arg1)) (m ((c0 : Thread nD τ).loc main_arg2)) (m ((c0 : Thread nD τ).loc main_arg4)) := by
  rw [W14_v33]
  funext i
  obtain ⟨b, j, k, rfl⟩ : ∃ b j k, i = ValueIdx.ix3 b j k := ⟨i 0, i 1, i 2, ValueIdx.eq_ix3 i⟩
  rw [rows_20984]
  have hW6 : (W6 m hO0 hO1 c0 main_v32 : S20984x1x2560.Idx → Elt F .f32) = (dat1 (En1 m hO0) hO1 c0).arrAt 1 (cfgM1 (En1 m hO0) hO1).N := W6_arr m hO0 hO1 c0 1
  have hb := b.isLt; have hj := j.isLt
  have hp := pOf_lt m hpos b
  rw [hW6, final1 m hO0 hO1 hpos _ b j rfl]
  unfold Cert.Splice.spliced
  show _ = if pOf m b ≤ j.val ∧ j.val < pOf m b + 576 then _ else _
  by_cases h : pOf m b ≤ j.val ∧ j.val < pOf m b + 576
  · rw [if_pos h, if_pos h]
    rw [G1_at m _ b ⟨j.val - pOf m b, by omega⟩ k hp (by show b.val * 2623 + j.val = b.val * 2623 + pOf m b + (j.val - pOf m b); omega) rfl, V3_img m c0 b ⟨j.val - pOf m b, by omega⟩ k]
    refine congrArg (m ((c0 : Thread nD τ).loc main_arg1)) ?_
    funext x
    match x with
    | ⟨0, _⟩ => rfl
    | ⟨1, _⟩ => exact Fin.ext (by show j.val - pOf m b = min (j.val - pOf m b) 575; omega)
    | ⟨2, _⟩ => rfl
  · rw [if_neg h, if_neg h]
    have hcov : j.val < pOf m b ∨ pOf m b + 575 ≤ j.val := by omega
    have htk : Cert.Splice.tokOf (pOf m b) j.val < 2048 ∧ dOf (pOf m b) (Cert.Splice.tokOf (pOf m b) j.val) = j.val := by
      unfold Cert.Splice.tokOf dOf
      rcases hcov with h' | h'
      · rw [if_pos h', if_pos h']; omega
      · rw [if_neg (by omega), if_neg (by omega)]; omega
    rw [En1_buf, final0 m hO0 hids hpos _ b j rfl hcov,
      G0_at m _ b ⟨Cert.Splice.tokOf (pOf m b) j.val, htk.1⟩ k hp (idn_lt m hids b _) (by show b.val * 2623 + j.val = b.val * 2623 + dOf (pOf m b) (Cert.Splice.tokOf (pOf m b) j.val); rw [htk.2]) rfl,
      V3_emb m c0 ⟨idn m b ⟨Cert.Splice.tokOf (pOf m b) j.val, htk.1⟩, idn_lt m hids b _⟩ k]
    refine congrArg (m ((c0 : Thread nD τ).loc main_arg0)) ?_
    have hidl := idn_lt m hids b ⟨Cert.Splice.tokOf (pOf m b) j.val, htk.1⟩
    funext x
    match x with
    | ⟨0, _⟩ =>
      apply Fin.ext
      show idn m b ⟨Cert.Splice.tokOf (pOf m b) j.val, htk.1⟩ = min (idn m b ⟨min (Cert.Splice.tokOf (pOf m b) j.val) 2047, _⟩) 31999
      rw [idn_congr m b ⟨Cert.Splice.tokOf (pOf m b) j.val, htk.1⟩ ⟨min (Cert.Splice.tokOf (pOf m b) j.val) 2047, by omega⟩ (by show min (Cert.Splice.tokOf (pOf m b) j.val) 2047 = Cert.Splice.tokOf (pOf m b) j.val; have := htk.1; omega)]
      omega
    | ⟨1, _⟩ => rfl

end
end Cert.KernelIdeal.Hand
end
-- ==== Proof.KIInts.lean ====
/-
  The three integer results of the kernel program are the reference's, as terms of the argument arrays.

  Beside the spliced embeddings the program returns the new labels `[8, 2623]`, the attention mask `[8, 2623]` and the
  position ids `[8, 2623]`. None of them passes through a kernel region: host operations compute them, after the second
  region, from the labels `[8, 2048]` and the image positions `[8]` as launched and from constants. The mask is the
  constant `true` and the position ids are the row index `j`; both are read off the last host stretch. The new labels
  are `-100` on the rows of the image and elsewhere the label of the token the row holds, taken along the token axis;
  their term is stated once (`labelsTerm`), read off the host stretches from the last one back to the launch contents,
  and is, operation by operation, the term the reference program computes.
-/
import proofs.«423035_j55576876810961_2_alg».proof.Proof.KIRun
import proofs.«423035_j55576876810961_2_alg».proof.Proof.RefReadP
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The labels as a term of the argument arrays -/

/-- The row index `j` of the spliced sequence, laid out as a `[1, 2623]` array. -/
def rowIdx : (⟨S1x2623, .i32⟩ : BufTy).Contents (Elt F) :=
  broadcastInDim S1x2623 ![1] bcast_S2623_S1x2623_1 (iotaInDim S2623 32 0)

/-- The image position `p` of each sample, laid out as an `[8, 1]` array. -/
def posCol (x4 : (⟨S8, .i32⟩ : BufTy).Contents (Elt F)) : (⟨S8x1, .i32⟩ : BufTy).Contents (Elt F) :=
  broadcastInDim S8x1 ![0] bcast_S8_S8x1_0 x4

/-- `p ≤ j ∧ j < p + 576`: row `j` of the sample is one of the image's rows. -/
def inImage (x4 : (⟨S8, .i32⟩ : BufTy).Contents (Elt F)) : (⟨S8x2623, .i1⟩ : BufTy).Contents (Elt F) :=
  andi
    (cmpi .sge (broadcastInDim S8x2623 ![0, 1] bcast_S1x2623_S8x2623_0_1 (rowIdx (F := F)))
      (broadcastInDim S8x2623 ![0, 1] bcast_S8x1_S8x2623_0_1 (posCol x4)))
    (cmpi .slt (broadcastInDim S8x2623 ![0, 1] bcast_S1x2623_S8x2623_0_1 (rowIdx (F := F)))
      (broadcastInDim S8x2623 ![0, 1] bcast_S8x1_S8x2623_0_1
        (addi (posCol x4) (broadcastInDim S8x1 ![] bcast_S_S8x1 (constantI S_ 32 576#32)))))

/-- The token position whose label row `j` takes: `j` before the image (`j < p`), `j - 576 + 1` otherwise, clamped
    into `[0, 2047]`. -/
def srcTok (x4 : (⟨S8, .i32⟩ : BufTy).Contents (Elt F)) : (⟨S8x2623, .i32⟩ : BufTy).Contents (Elt F) :=
  minsi (broadcastInDim S8x2623 ![] bcast_S_S8x2623 (id (constantI S_ 32 2047#32)))
    (maxsi (broadcastInDim S8x2623 ![] bcast_S_S8x2623 (id (constantI S_ 32 0#32)))
      (select
        (cmpi .slt (broadcastInDim S8x2623 ![0, 1] bcast_S1x2623_S8x2623_0_1 (rowIdx (F := F)))
          (broadcastInDim S8x2623 ![0, 1] bcast_S8x1_S8x2623_0_1 (posCol x4)))
        (broadcastInDim S8x2623 ![0, 1] bcast_S1x2623_S8x2623_0_1 (rowIdx (F := F)))
        (broadcastInDim S8x2623 ![0, 1] bcast_S1x2623_S8x2623_0_1
          (addi (subi (rowIdx (F := F)) (broadcastInDim S1x2623 ![] bcast_S_S1x2623 (constantI S_ 32 576#32)))
            (broadcastInDim S1x2623 ![] bcast_S_S1x2623 (constantI S_ 32 1#32))))))

/-- An array of positions along the token axis as the `[8, 2623, 1]` start indices of a gather: a negative position
    counts from the end of the axis (2048 is added to it). -/
def startIdx (idx : (⟨S8x2623, .i32⟩ : BufTy).Contents (Elt F)) : (⟨S8x2623x1, .i32⟩ : BufTy).Contents (Elt F) :=
  shapeCast _
    (select (cmpi .slt idx (broadcastInDim S8x2623 ![] bcast_S_S8x2623 (constantI S_ 32 0#32)))
      (addi idx (broadcastInDim S8x2623 ![] bcast_S_S8x2623 (constantI S_ 32 2048#32))) idx)
    shapeCasts_S8x2623_S8x2623x1

/-- The labels taken along the token axis at the positions `idx`: entry `(b, j)` is `x3 (b, idx (b, j))` where the start
    index lies in `[0, 2047]`, and the fill value `-2^31` where it does not. -/
def takeAlong (x3 : (⟨S8x2048, .i32⟩ : BufTy).Contents (Elt F)) (idx : (⟨S8x2623, .i32⟩ : BufTy).Contents (Elt F)) :
    (⟨S8x2623, .i32⟩ : BufTy).Contents (Elt F) :=
  select
    (Host.reduce IntOp.andi
      (andi (cmpi .sge (startIdx idx) (broadcastInDim S8x2623x1 ![] bcast_S_S8x2623x1 (constantI S_ 32 0#32)))
        (cmpi .sle (startIdx idx)
          (broadcastInDim S8x2623x1 ![0, 1, 2] bcast_S1x1x1_S8x2623x1_0_1_2
            (broadcastInDim S1x1x1 ![2] bcast_S1_S1x1x1_2 (constantI S1 32 2047#32)))))
      (constantI S_ 1 1#1) reducesTo_S8x2623x1_S8x2623_d2 h_S_)
    (Host.gather gather_S8x2048_S8x2623x1_S8x2623_n_1_0_0_1_2_11 x3 (startIdx idx))
    (broadcastInDim S8x2623 ![] bcast_S_S8x2623 (constantI S_ 32 2147483648#32))

/-- The new labels: `-100` on the image's rows, elsewhere the label of the token the row holds. -/
def labelsTerm (x3 : (⟨S8x2048, .i32⟩ : BufTy).Contents (Elt F)) (x4 : (⟨S8, .i32⟩ : BufTy).Contents (Elt F)) :
    (⟨S8x2623, .i32⟩ : BufTy).Contents (Elt F) :=
  select (inImage x4) (broadcastInDim S8x2623 ![] bcast_S_S8x2623 (constantI S_ 32 4294967196#32))
    (takeAlong x3 (srcTok x4))

/-! ## The launch contents the host stretches after the regions read -/

/-- The labels reach region 1's exit as launched: no host stretch writes them and they are no array of either region. -/
theorem W6_arg3 (hO0 : ok0 (F := F) (tbl0 (En0 m))) (hO1 : ok1 (F := F) (tbl1 (En1 m hO0))) (c : Dev nD) :
    W6 m hO0 hO1 c main_arg3 = m ((c : Thread nD τ).loc main_arg3) :=
  (W6_of_ne m hO0 hO1 c main_arg3 (by decide)).trans <|
    (StableHlo.after_of_writes_sub hostOps1 _ hostOps1_writes (by decide)).trans <|
    (W4_of_ne m hO0 c main_arg3 (by decide)).trans <|
    (V3_of m c main_arg3 (by decide)).trans <| (V2_of m c main_arg3 (by decide)).trans <| V1_of m c main_arg3 (by decide)

/-- The image positions as a column, written by the first host stretch from the launch contents, reach region 1's exit
    unchanged. -/
theorem W6_v2 (hO0 : ok0 (F := F) (tbl0 (En0 m))) (hO1 : ok1 (F := F) (tbl1 (En1 m hO0))) (c : Dev nD) :
    (W6 m hO0 hO1 c main_v2 : S8x1.Idx → BitVec 32) = posCol (m ((c : Thread nD τ).loc main_arg4)) :=
  (W6_of_ne m hO0 hO1 c main_v2 (by decide)).trans <|
    (StableHlo.after_of_writes_sub hostOps1 _ hostOps1_writes (by decide)).trans <|
    (W4_of_ne m hO0 c main_v2 (by decide)).trans <|
    (V3_of m c main_v2 (by decide)).trans <| (V2_of m c main_v2 (by decide)).trans <| by
      show StableHlo.after hostOps0 _ (Proc.devRef .tc main_v2) = _
      after_results
      rfl

/-! ## The three results -/

/-- The new labels at the end of the program, read back through the host stretches after region 1: the last stretch
    does not write them; the one before selects between `-100` and the labels taken along the token axis, whose
    operands the earlier stretches computed from the row index, the column of image positions and the labels. -/
theorem W14_v55_labelsTerm (hO0 : ok0 (F := F) (tbl0 (En0 m))) (hO1 : ok1 (F := F) (tbl1 (En1 m hO0))) (c : Dev nD) :
    (W14 m hO0 hO1 c main_v55 : S8x2623.Idx → BitVec 32)
      = labelsTerm (m ((c : Thread nD τ).loc main_arg3)) (m ((c : Thread nD τ).loc main_arg4)) := by
  show StableHlo.after hostOps2_7 _ (Proc.devRef .tc main_v55) = _
  after_results_simp
  simp only [StableHlo.TRef.ofBuf, StableHlo.TRef.toBuf, cast_eq]
  rw [W6_v2 m hO0 hO1 c, W6_arg3 m hO0 hO1 c]
  rfl

/-- The kernel program's term for the new labels is the reference's: the two programs apply the same operations in the
    same order to the labels and the image positions. -/
theorem labelsTerm_eq (x3 : (⟨S8x2048, .i32⟩ : BufTy).Contents (Elt F)) (x4 : (⟨S8, .i32⟩ : BufTy).Contents (Elt F)) :
    labelsTerm x3 x4 = Cert.ReferenceIdeal.ReadP.val_main_v39 (F := F) x3 x4 := rfl

/-- The new labels the kernel program returns are the reference's, as a function of the labels and the image
    positions as launched. -/
theorem W14_v55 (hO0 : ok0 (F := F) (tbl0 (En0 m))) (hO1 : ok1 (F := F) (tbl1 (En1 m hO0))) (c : Dev nD) :
    (W14 m hO0 hO1 c main_v55 : Cert.KernelIdeal.S8x2623.Idx → BitVec 32)
      = Cert.ReferenceIdeal.ReadP.val_main_v39 (F := F) (m ((c : Thread nD τ).loc main_arg3))
          (m ((c : Thread nD τ).loc main_arg4)) :=
  (W14_v55_labelsTerm m hO0 hO1 c).trans (labelsTerm_eq _ _)

/-- The attention mask the kernel program returns is the reference's: `true` everywhere. -/
theorem W14_v56 (hO0 : ok0 (F := F) (tbl0 (En0 m))) (hO1 : ok1 (F := F) (tbl1 (En1 m hO0))) (c : Dev nD) :
    (W14 m hO0 hO1 c main_v56 : Cert.KernelIdeal.S8x2623.Idx → BitVec 1)
      = broadcastInDim Cert.ReferenceIdeal.S8x2623 ![] Cert.ReferenceIdeal.Gen.bcast_S_S8x2623
          (constantI Cert.ReferenceIdeal.S_ 1 1#1) := by
  show StableHlo.after hostOps2_7 _ (Proc.devRef .tc main_v56) = _
  after_results

/-- The position ids the kernel program returns are the reference's: the row index `j` on every sample. -/
theorem W14_v58 (hO0 : ok0 (F := F) (tbl0 (En0 m))) (hO1 : ok1 (F := F) (tbl1 (En1 m hO0))) (c : Dev nD) :
    (W14 m hO0 hO1 c main_v58 : Cert.KernelIdeal.S8x2623.Idx → BitVec 32)
      = broadcastInDim Cert.ReferenceIdeal.S8x2623 ![1] Cert.ReferenceIdeal.Gen.bcast_S2623_S8x2623_1
          (iotaInDim Cert.ReferenceIdeal.S2623 32 0) := by
  show StableHlo.after hostOps2_7 _ (Proc.devRef .tc main_v58) = _
  after_results

end Cert.KernelIdeal.Hand

end
-- ==== Proof.LibReduceAnd.lean ====
/-
  A REDUCTION BY `and` OF ONES IS ONE.

  A one-operand `stablehlo.reduce` of a one-bit array by `and`, from an initial value that is 1, is 1 at every result
  index all of whose contributing operand elements are 1 — the converse of the library's reading of `jnp.all`
  (Lib/ReduceAll.lean), which goes from the result to the elements.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all f l fun n hn => h n (List.mem_cons_of_mem _ hn)

end IntOp

namespace Host

variable {s t u : Shape} {axes : List (Fin s.rank)}

/-- A `stablehlo.reduce` by `and` from an initial 1 is 1 at `j` when every operand element that reduces into `j` is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  refine IntOp.foldl_andi_of_all x _ fun i hi => ?_
  rw [List.mem_filter] at hi
  exact hx i (by simpa using hi.2)

end Host

end Idealize.ShloMosaic
-- ==== Proof.RefValue.lean ====
/-
  THE REFERENCE'S RESULT IS THE SPECIFICATION.

  The reference splices, per sample `b`, the image's `576` patch rows into the `2048` token embeddings at the image
  position `p = pos[b]`, dropping the image token: row `j` of the `2623` result rows is patch `j - p` when
  `p ≤ j < p + 576`, and otherwise the table's row named by the id of token `j` (before the image) or `j - 575` (after
  it). It computes this as one select between two takes along the row axis,
  `where(is_img, take(image_features, clip(j - p, 0, 575)), take(embed_table[input_ids], clip(where(j < p, j, j - 575), 0, 2047)))`,
  on 32-bit words, each take guarded by an in-bounds mask that fills out-of-range rows with a NaN constant.

  This module reads that computation at one index `(b, j, k)` and shows it equal to `spliced` there, where every image
  position lies in `[0, 2048)` and every token id in `[0, 32000)`:
  * § Two gathers: a gather of table rows by ids, and a take along axis 1 with a trailing feature axis, each read at an
    index — the operand at the start index, read signed and clamped into the axis;
  * § Words: under the range hypotheses none of the word operations wraps, so the image test, the token index and the
    patch index read as `p ≤ j < p + 576`, `min (tokOf p j) 2047` and `min (j - p) 575` (natural subtraction is the
    clip at zero), the negative-index wrap is the identity and the in-bounds tests are one;
  * § The reference at an index: each stage of the program read at `(b, j)` or `(b, j, k)`; both masks are one, so the
    NaN fill is never selected;
  * `ref_value`: the two cases of the image test meet the two branches of `spliced`.
-/
import proofs.«423035_j55576876810961_2_alg».proof.Proof.Spec
import proofs.«423035_j55576876810961_2_alg».proof.Proof.RefReadP
import proofs.«423035_j55576876810961_2_alg».proof.Proof.LibReduceAnd
import Idealize.ShloMosaic.Lib.Affine
import Idealize.ShloMosaic.Lib.ValueIdx
import Idealize.ShloMosaic.PureOps.Ideal

noncomputable section

namespace Cert.Splice

open Idealize.ShloMosaic Idealize.ShloMosaic.ValueIdx

/-! ## Two gathers read at an index

`table[ids]` of a table `[V, D]` at an integer array `[B, L]` lowers to a gather whose start indices are `[B, L, 1]`:
offset_dims `[2]`, collapsed_slice_dims `[0]`, start_index_map `[0]`, index_vector_dim `2`, slice sizes `[1, D]`.
`take_along_axis(x, idx[..., None], axis=1)` of `x : [B, N, D]` at `idx : [B, T]` lowers to a gather with start indices
`[B, T, 1]`: offset_dims `[2]`, collapsed_slice_dims `[1]`, batching axes `[0]` / `[0]`, start_index_map `[1]`,
index_vector_dim `2`, slice sizes `[1, 1, D]`. Each result element is the operand's at the start index, read SIGNED and
CLAMPED into the operand's axis. -/

section Gathers

variable {α : Type}

/-- The dimension numbers of `table[ids]`: operand `[V, D]`, start indices `[B, L, 1]`, result `[B, L, D]`. -/
abbrev rowsDims (V D B L : Nat)
    (wf : GatherDims.WF ⟨2, ![V, D]⟩ ⟨3, ![B, L, 1]⟩ ⟨3, ![B, L, D]⟩ [2] [0] [] [0] [] 2 ![1, D]) :
    GatherDims ⟨2, ![V, D]⟩ ⟨3, ![B, L, 1]⟩ ⟨3, ![B, L, D]⟩ where
  offsetDims := [2]
  collapsedSliceDims := [0]
  operandBatchingDims := []
  startIndicesBatchingDims := []
  startIndexMap := [0]
  indexVectorDim := 2
  sliceSizes := ![1, D]
  wf := wf

section Rows
variable {V D B L w : Nat}
  (wf : GatherDims.WF ⟨2, ![V, D]⟩ ⟨3, ![B, L, 1]⟩ ⟨3, ![B, L, D]⟩ [2] [0] [] [0] [] 2 ![1, D])

/-- The start index of result element `(b, t, k)` is read at `(b, t, 0)`. -/
theorem rows_siIdx (b : Fin B) (t : Fin L) (k : Fin D) :
    (rowsDims V D B L wf).siIdx (ix3 b t k) ⟨List.idxOf (0 : Fin 2) (rowsDims V D B L wf).startIndexMap,
      List.idxOf_lt_length_iff.2 (List.mem_singleton.mpr rfl)⟩ = ix3 b t 0 := by
  funext a; refine Fin.ext ?_
  match a with
  | ⟨0, _⟩ => rfl
  | ⟨1, _⟩ => rfl
  | ⟨2, _⟩ => rfl

/-- On the table's row axis the slice starts at the id `idx[b, t, 0]`, read signed and clamped into `[0, V − 1]`. -/
theorem rows_start_0 (idx : IVec ⟨3, ![B, L, 1]⟩ w) (b : Fin B) (t : Fin L) (k : Fin D) :
    (rowsDims V D B L wf).start (ix3 b t k) idx 0 = min (idx (ix3 b t 0)).toInt.toNat (V - 1) := by
  have hmem : (0 : Fin 2) ∈ (rowsDims V D B L wf).startIndexMap := List.mem_singleton.mpr rfl
  unfold GatherDims.start
  rw [dif_pos hmem, rows_siIdx]
  rfl

/-- On the column axis the start index map names nothing: the slice starts at `0`. -/
theorem rows_start_1 (idx : IVec ⟨3, ![B, L, 1]⟩ w) (j : (⟨3, ![B, L, D]⟩ : Shape).Idx) :
    (rowsDims V D B L wf).start j idx 1 = 0 := by
  unfold GatherDims.start
  rw [dif_neg (by decide : (1 : Fin 2) ∉ ([0] : List (Fin 2)))]

/-- The row axis is collapsed: no offset coordinate there. -/
theorem rows_off_0 (j : (⟨3, ![B, L, D]⟩ : Shape).Idx) : (rowsDims V D B L wf).offCoord j 0 = 0 :=
  (rowsDims V D B L wf).offCoord_eq_zero j 0 fun h =>
    (((rowsDims V D B L wf).mem_sKept 0).mp h).1 (by decide : (0 : Fin 2) ∈ ([0] : List (Fin 2)))

/-- The column axis is the one offset axis: its coordinate is the result's last. -/
theorem rows_off_1 (b : Fin B) (t : Fin L) (k : Fin D) : (rowsDims V D B L wf).offCoord (ix3 b t k) 1 = k.val := by
  unfold GatherDims.offCoord
  rw [dif_pos (((rowsDims V D B L wf).mem_sKept 1).mpr
    ⟨(by decide : (1 : Fin 2) ∉ ([0] : List (Fin 2))), (by decide : (1 : Fin 2) ∉ ([] : List (Fin 2)))⟩)]
  rfl

/-- THE ROWS READ AT `(b, t, k)`: the table at `(r, k)`, `r` the id `idx[b, t, 0]` read signed and clamped into
    `[0, V − 1]`. -/
theorem rows_apply (hV : 0 < V) (x : (⟨2, ![V, D]⟩ : Shape).Idx → α) (idx : IVec ⟨3, ![B, L, 1]⟩ w)
    (b : Fin B) (t : Fin L) (k : Fin D) :
    Host.gather (rowsDims V D B L wf) x idx (ix3 b t k)
      = x (ix2 ⟨min (idx (ix3 b t 0)).toInt.toNat (V - 1), by omega⟩ k) := by
  unfold Host.gather
  congr 1
  funext a
  refine Fin.ext ?_
  show (rowsDims V D B L wf).start (ix3 b t k) idx a + (rowsDims V D B L wf).batchCoord (ix3 b t k) a
    + (rowsDims V D B L wf).offCoord (ix3 b t k) a = _
  match a with
  | ⟨0, _⟩ =>
    show (rowsDims V D B L wf).start (ix3 b t k) idx 0 + (rowsDims V D B L wf).batchCoord (ix3 b t k) 0
      + (rowsDims V D B L wf).offCoord (ix3 b t k) 0 = min (idx (ix3 b t 0)).toInt.toNat (V - 1)
    rw [rows_start_0, (rowsDims V D B L wf).batchCoord_eq_zero _ 0 List.not_mem_nil, rows_off_0]; omega
  | ⟨1, _⟩ =>
    show (rowsDims V D B L wf).start (ix3 b t k) idx 1 + (rowsDims V D B L wf).batchCoord (ix3 b t k) 1
      + (rowsDims V D B L wf).offCoord (ix3 b t k) 1 = k.val
    rw [rows_start_1, (rowsDims V D B L wf).batchCoord_eq_zero _ 1 List.not_mem_nil, rows_off_1]; omega

end Rows

/-- The dimension numbers of a take along axis 1 with a trailing feature axis: operand `[B, N, D]`, start indices
    `[B, T, 1]`, result `[B, T, D]`. -/
abbrev alongDims (B N D T : Nat)
    (wf : GatherDims.WF ⟨3, ![B, N, D]⟩ ⟨3, ![B, T, 1]⟩ ⟨3, ![B, T, D]⟩ [2] [1] [0] [1] [0] 2 ![1, 1, D]) :
    GatherDims ⟨3, ![B, N, D]⟩ ⟨3, ![B, T, 1]⟩ ⟨3, ![B, T, D]⟩ where
  offsetDims := [2]
  collapsedSliceDims := [1]
  operandBatchingDims := [0]
  startIndicesBatchingDims := [0]
  startIndexMap := [1]
  indexVectorDim := 2
  sliceSizes := ![1, 1, D]
  wf := wf

section Along
variable {B N D T w : Nat}
  (wf : GatherDims.WF ⟨3, ![B, N, D]⟩ ⟨3, ![B, T, 1]⟩ ⟨3, ![B, T, D]⟩ [2] [1] [0] [1] [0] 2 ![1, 1, D])

/-- The start index of result element `(b, j, k)` is read at `(b, j, 0)`. -/
theorem along_siIdx (b : Fin B) (j : Fin T) (k : Fin D) :
    (alongDims B N D T wf).siIdx (ix3 b j k) ⟨List.idxOf (1 : Fin 3) (alongDims B N D T wf).startIndexMap,
      List.idxOf_lt_length_iff.2 (List.mem_singleton.mpr rfl)⟩ = ix3 b j 0 := by
  funext a; refine Fin.ext ?_
  match a with
  | ⟨0, _⟩ => rfl
  | ⟨1, _⟩ => rfl
  | ⟨2, _⟩ => rfl

/-- On the taken axis the slice starts at the index `idx[b, j, 0]`, read signed and clamped into `[0, N − 1]`. -/
theorem along_start_1 (idx : IVec ⟨3, ![B, T, 1]⟩ w) (b : Fin B) (j : Fin T) (k : Fin D) :
    (alongDims B N D T wf).start (ix3 b j k) idx 1 = min (idx (ix3 b j 0)).toInt.toNat (N - 1) := by
  have hmem : (1 : Fin 3) ∈ (alongDims B N D T wf).startIndexMap := List.mem_singleton.mpr rfl
  unfold GatherDims.start
  rw [dif_pos hmem, along_siIdx]
  rfl

/-- On the other two axes the start index map names nothing: the slice starts at `0`. -/
theorem along_start_0 (idx : IVec ⟨3, ![B, T, 1]⟩ w) (i : (⟨3, ![B, T, D]⟩ : Shape).Idx) :
    (alongDims B N D T wf).start i idx 0 = 0 := by
  unfold GatherDims.start
  rw [dif_neg (by decide : (0 : Fin 3) ∉ ([1] : List (Fin 3)))]
theorem along_start_2 (idx : IVec ⟨3, ![B, T, 1]⟩ w) (i : (⟨3, ![B, T, D]⟩ : Shape).Idx) :
    (alongDims B N D T wf).start i idx 2 = 0 := by
  unfold GatherDims.start
  rw [dif_neg (by decide : (2 : Fin 3) ∉ ([1] : List (Fin 3)))]

/-- The batching coordinate: the result's batch coordinate on axis 0, nothing elsewhere. -/
theorem along_batch_0 (b : Fin B) (j : Fin T) (k : Fin D) : (alongDims B N D T wf).batchCoord (ix3 b j k) 0 = b.val := by
  unfold GatherDims.batchCoord
  rw [dif_pos (by decide : (0 : Fin 3) ∈ ([0] : List (Fin 3)))]
  rfl
theorem along_batch_1 (i : (⟨3, ![B, T, D]⟩ : Shape).Idx) : (alongDims B N D T wf).batchCoord i 1 = 0 :=
  (alongDims B N D T wf).batchCoord_eq_zero i 1 (by decide : (1 : Fin 3) ∉ ([0] : List (Fin 3)))
theorem along_batch_2 (i : (⟨3, ![B, T, D]⟩ : Shape).Idx) : (alongDims B N D T wf).batchCoord i 2 = 0 :=
  (alongDims B N D T wf).batchCoord_eq_zero i 2 (by decide : (2 : Fin 3) ∉ ([0] : List (Fin 3)))

/-- The offset coordinate: the result's feature coordinate on axis 2, nothing on the batching and the collapsed axis. -/
theorem along_off_0 (i : (⟨3, ![B, T, D]⟩ : Shape).Idx) : (alongDims B N D T wf).offCoord i 0 = 0 :=
  (alongDims B N D T wf).offCoord_eq_zero i 0 fun h =>
    (((alongDims B N D T wf).mem_sKept 0).mp h).2 (by decide : (0 : Fin 3) ∈ ([0] : List (Fin 3)))
theorem along_off_1 (i : (⟨3, ![B, T, D]⟩ : Shape).Idx) : (alongDims B N D T wf).offCoord i 1 = 0 :=
  (alongDims B N D T wf).offCoord_eq_zero i 1 fun h =>
    (((alongDims B N D T wf).mem_sKept 1).mp h).1 (by decide : (1 : Fin 3) ∈ ([1] : List (Fin 3)))
theorem along_off_2 (b : Fin B) (j : Fin T) (k : Fin D) : (alongDims B N D T wf).offCoord (ix3 b j k) 2 = k.val := by
  unfold GatherDims.offCoord
  rw [dif_pos (((alongDims B N D T wf).mem_sKept 2).mpr
    ⟨(by decide : (2 : Fin 3) ∉ ([1] : List (Fin 3))), (by decide : (2 : Fin 3) ∉ ([0] : List (Fin 3)))⟩)]
  rfl

/-- THE TAKE READ AT `(b, j, k)`: the operand at `(b, n, k)`, `n` the index `idx[b, j, 0]` read signed and clamped into
    `[0, N − 1]`. -/
theorem along_apply (hN : 0 < N) (x : (⟨3, ![B, N, D]⟩ : Shape).Idx → α) (idx : IVec ⟨3, ![B, T, 1]⟩ w)
    (b : Fin B) (j : Fin T) (k : Fin D) :
    Host.gather (alongDims B N D T wf) x idx (ix3 b j k)
      = x (ix3 b ⟨min (idx (ix3 b j 0)).toInt.toNat (N - 1), by omega⟩ k) := by
  unfold Host.gather
  congr 1
  funext a
  refine Fin.ext ?_
  show (alongDims B N D T wf).start (ix3 b j k) idx a + (alongDims B N D T wf).batchCoord (ix3 b j k) a
    + (alongDims B N D T wf).offCoord (ix3 b j k) a = _
  match a with
  | ⟨0, _⟩ =>
    show (alongDims B N D T wf).start (ix3 b j k) idx 0 + (alongDims B N D T wf).batchCoord (ix3 b j k) 0
      + (alongDims B N D T wf).offCoord (ix3 b j k) 0 = b.val
    rw [along_start_0, along_batch_0, along_off_0]; omega
  | ⟨1, _⟩ =>
    show (alongDims B N D T wf).start (ix3 b j k) idx 1 + (alongDims B N D T wf).batchCoord (ix3 b j k) 1
      + (alongDims B N D T wf).offCoord (ix3 b j k) 1 = min (idx (ix3 b j 0)).toInt.toNat (N - 1)
    rw [along_start_1, along_batch_1, along_off_1]; omega
  | ⟨2, _⟩ =>
    show (alongDims B N D T wf).start (ix3 b j k) idx 2 + (alongDims B N D T wf).batchCoord (ix3 b j k) 2
      + (alongDims B N D T wf).offCoord (ix3 b j k) 2 = k.val
    rw [along_start_2, along_batch_2, along_off_2]; omega

end Along

end Gathers

/-! ## Words

The index arithmetic of the splice on 32-bit words read signed: under the range hypotheses no operation wraps, so each
word reads as the integer expression it spells. -/

section Words

/-- A natural below `2^31` written as a word reads signed as itself. -/
theorem toInt_ofNat_small (n : ℕ) (h : n < 2147483648) : (BitVec.ofNat 32 n).toInt = (n : ℤ) := by
  rw [BitVec.toInt_ofNat']
  exact Int.bmod_eq_of_le (by omega) (by omega)

/-- A signed minimum reads as the minimum of the readings. -/
theorem toInt_minsi (x y : BitVec 32) : (IntOp.minsi x y).toInt = min x.toInt y.toInt := by
  unfold IntOp.minsi
  by_cases hs : x.slt y
  · rw [if_pos hs]; rw [BitVec.slt_iff_toInt_lt] at hs; omega
  · rw [if_neg hs]; rw [BitVec.slt_iff_toInt_lt] at hs; omega

/-- A signed maximum reads as the maximum of the readings. -/
theorem toInt_maxsi (x y : BitVec 32) : (IntOp.maxsi x y).toInt = max x.toInt y.toInt := by
  unfold IntOp.maxsi
  by_cases hs : y.slt x
  · rw [if_pos hs]; rw [BitVec.slt_iff_toInt_lt] at hs; omega
  · rw [if_neg hs]; rw [BitVec.slt_iff_toInt_lt] at hs; omega

/-- A sum that stays in the signed range reads as the sum of the readings. -/
theorem toInt_addi (x y : BitVec 32) (h : -2147483648 ≤ x.toInt + y.toInt ∧ x.toInt + y.toInt < 2147483648) :
    (IntOp.addi x y).toInt = x.toInt + y.toInt := by
  unfold IntOp.addi
  rw [BitVec.toInt_add]
  exact Int.bmod_eq_of_le (by omega) (by omega)

/-- A difference that stays in the signed range reads as the difference of the readings. -/
theorem toInt_subi (x y : BitVec 32) (h : -2147483648 ≤ x.toInt - y.toInt ∧ x.toInt - y.toInt < 2147483648) :
    (IntOp.subi x y).toInt = x.toInt - y.toInt := by
  unfold IntOp.subi
  rw [BitVec.toInt_sub]
  exact Int.bmod_eq_of_le (by omega) (by omega)

theorem toInt_0 : (0#32 : BitVec 32).toInt = 0 := by decide
theorem toInt_1 : (1#32 : BitVec 32).toInt = 1 := by decide
theorem toInt_575 : (575#32 : BitVec 32).toInt = 575 := by decide
theorem toInt_576 : (576#32 : BitVec 32).toInt = 576 := by decide
theorem toInt_2047 : (2047#32 : BitVec 32).toInt = 2047 := by decide

/-- ROW `j` IS AN IMAGE ROW, as the reference computes it: `j ≥ pos ∧ j < pos + 576` on words is `p ≤ j < p + 576`. -/
theorem isImg_word {P : BitVec 32} (hP : 0 ≤ P.toInt ∧ P.toInt < 2048) (j : ℕ) (hj : j < 2623) :
    IntOp.andi (IntOp.cmpi .sge (BitVec.ofNat 32 j) P) (IntOp.cmpi .slt (BitVec.ofNat 32 j) (IntOp.addi P 576#32)) = 1#1
      ↔ P.toNat ≤ j ∧ j < P.toNat + 576 := by
  obtain ⟨hn, _⟩ := toNat_of_range (n := 2048) (by omega) hP
  have hJ := toInt_ofNat_small j (by omega)
  have hA := toInt_addi P 576#32 (by rw [toInt_576]; omega)
  rw [IntOp.andi_eq_one, IntOp.cmpi_sge, IntOp.cmpi_slt, hA, hJ, toInt_576]
  omega

/-- THE TOKEN INDEX of row `j`, as the reference computes it: `clip(where(j < pos, j, j - 576 + 1), 0, 2047)` on words
    reads as `min (tokOf p j) 2047`. -/
theorem tok_word {P : BitVec 32} (hP : 0 ≤ P.toInt ∧ P.toInt < 2048) (j : ℕ) (hj : j < 2623) :
    (IntOp.minsi 2047#32 (IntOp.maxsi 0#32 (Scalar.select (IntOp.cmpi .slt (BitVec.ofNat 32 j) P) (BitVec.ofNat 32 j)
      (IntOp.addi (IntOp.subi (BitVec.ofNat 32 j) 576#32) 1#32)))).toInt = ((min (tokOf P.toNat j) 2047 : ℕ) : ℤ) := by
  obtain ⟨hn, _⟩ := toNat_of_range (n := 2048) (by omega) hP
  have hJ := toInt_ofNat_small j (by omega)
  rw [toInt_minsi, toInt_maxsi, toInt_2047, toInt_0]
  unfold tokOf
  by_cases hlt : j < P.toNat
  · have hb : IntOp.cmpi .slt (BitVec.ofNat 32 j) P = 1#1 := IntOp.cmpi_slt.mpr (by rw [hJ]; omega)
    rw [hb, select_one, hJ, if_pos hlt]
    omega
  · have hb : IntOp.cmpi .slt (BitVec.ofNat 32 j) P = 0#1 :=
      eq_zero_of_ne_one fun h => hlt (by have := IntOp.cmpi_slt.mp h; rw [hJ] at this; omega)
    have hS := toInt_subi (BitVec.ofNat 32 j) 576#32 (by rw [hJ, toInt_576]; omega)
    have hA := toInt_addi (IntOp.subi (BitVec.ofNat 32 j) 576#32) 1#32 (by rw [hS, hJ, toInt_576, toInt_1]; omega)
    rw [hb, select_zero, hA, hS, hJ, toInt_576, toInt_1, if_neg hlt]
    omega

/-- THE PATCH INDEX of row `j`, as the reference computes it: `clip(j - pos, 0, 575)` on words reads as
    `min (j - p) 575`, the difference truncated at zero. -/
theorem img_word {P : BitVec 32} (hP : 0 ≤ P.toInt ∧ P.toInt < 2048) (j : ℕ) (hj : j < 2623) :
    (IntOp.minsi 575#32 (IntOp.maxsi 0#32 (IntOp.subi (BitVec.ofNat 32 j) P))).toInt
      = ((min (j - P.toNat) 575 : ℕ) : ℤ) := by
  obtain ⟨hn, _⟩ := toNat_of_range (n := 2048) (by omega) hP
  have hJ := toInt_ofNat_small j (by omega)
  have hS := toInt_subi (BitVec.ofNat 32 j) P (by rw [hJ]; omega)
  rw [toInt_minsi, toInt_maxsi, toInt_575, toInt_0, hS, hJ]
  omega

/-- Python's negative-index wrap `where(i < 0, i + n, i)` does nothing to a word that reads nonnegative. -/
theorem wrap_word {T : BitVec 32} (N : BitVec 32) (h : 0 ≤ T.toInt) :
    Scalar.select (IntOp.cmpi .slt T 0#32) (IntOp.addi T N) T = T := by
  have hb : IntOp.cmpi .slt T 0#32 = 0#1 :=
    eq_zero_of_ne_one fun hc => by have := IntOp.cmpi_slt.mp hc; rw [toInt_0] at this; omega
  rw [hb, select_zero]

/-- The in-bounds test `i ≥ 0 ∧ i ≤ m` of a word that reads in `[0, m]` is the bit one. -/
theorem inb_word {T M : BitVec 32} (h0 : 0 ≤ T.toInt) (hM : T.toInt ≤ M.toInt) :
    IntOp.andi (IntOp.cmpi .sge T 0#32) (IntOp.cmpi .sle T M) = 1#1 :=
  IntOp.andi_eq_one.mpr ⟨IntOp.cmpi_sge.mpr (by rw [toInt_0]; exact h0), IntOp.cmpi_sle.mpr hM⟩

end Words

/-! ## A reduction by `and` over a last axis of extent one -/

section Mask

/-- The in-bounds mask of a take is reduced by `and` over the index vector's axis, of extent one: it is one at `(b, j)`
    when the one element `(b, j, 0)` that reduces into it is. -/
theorem reduce_last_one (x : (⟨3, ![8, 2623, 1]⟩ : Shape).Idx → BitVec 1) (init : (⟨0, ![]⟩ : Shape).Idx → BitVec 1)
    (h : (⟨3, ![8, 2623, 1]⟩ : Shape).ReducesTo [2] ⟨2, ![8, 2623]⟩) (hu : 0 < (⟨0, ![]⟩ : Shape).numel)
    (b : Fin 8) (j : Fin 2623) (hinit : init (Shape.Idx.first hu) = 1#1) (hx : x (ix3 b j 0) = 1#1) :
    Host.reduce IntOp.andi x init h hu (ix2 b j) = 1#1 := by
  refine Host.reduce_andi_of_all x init h hu (ix2 b j) hinit fun i hi => ?_
  have h0 : (i 0).val = b.val := by
    have := Shape.ReducesTo.drop_apply_val_of_eq h i 0 0
    rw [hi] at this; exact this.symm
  have h1 : (i 1).val = j.val := by
    have := Shape.ReducesTo.drop_apply_val_of_eq h i 1 1
    rw [hi] at this; exact this.symm
  have e0 : i 0 = b := Fin.ext h0
  have e1 : i 1 = j := Fin.ext h1
  have e2 : i 2 = (0 : Fin 1) := Fin.ext (Nat.lt_one_iff.mp (i 2).isLt)
  have : i = ix3 b j 0 := by
    funext a
    match a with
    | ⟨0, _⟩ => exact e0
    | ⟨1, _⟩ => exact e1
    | ⟨2, _⟩ => exact e2
  rw [this]; exact hx

end Mask

/-! ## The reference, operation by operation, at an index -/

section Reference

open Cert.ReferenceIdeal Cert.ReferenceIdeal.Gen Cert.ReferenceIdeal.ReadP

variable (x0 : (⟨S32000x2560, .f32⟩ : BufTy).Contents (Elt Ideal)) (x1 : (⟨S8x576x2560, .f32⟩ : BufTy).Contents (Elt Ideal))
  (x2 : (⟨S8x2048, .i32⟩ : BufTy).Contents (Elt Ideal)) (x4 : (⟨S8, .i32⟩ : BufTy).Contents (Elt Ideal))

/-- `is_img[b, j]`: the two comparisons of the row number with the image position and its end. -/
theorem isImg_at (b : Fin 8) (j : Fin 2623) :
    val_main_v18 (F := Ideal) x4 (ix2 b j) = IntOp.andi (IntOp.cmpi .sge (BitVec.ofNat 32 j.val) (x4 (ix1 b)))
      (IntOp.cmpi .slt (BitVec.ofNat 32 j.val) (IntOp.addi (x4 (ix1 b)) 576#32)) := by
  have e1 : idx_main_v9 (idx_main_v11 (ix2 b j)) = ix1 b := funext fun a => match a with | ⟨0, _⟩ => rfl
  have e2 : idx_main_v9 (idx_main_v16 (ix2 b j)) = ix1 b := funext fun a => match a with | ⟨0, _⟩ => rfl
  rw [val_main_v18_apply, val_main_v12_apply, val_main_v17_apply, val_main_v10_apply, val_main_v8_apply, val_main_v7_apply,
    val_main_v11_apply, val_main_v9_apply, e1, val_main_v15_apply, val_main_v8_apply, val_main_v7_apply,
    val_main_v16_apply, val_main_v14_apply, val_main_v9_apply, e2, val_main_v13_apply, val_main_c_1_apply]

/-- `tok_idx[b, j]`: the clip of the select between the row number and the row number less 575. -/
theorem tokIdx_at (b : Fin 8) (j : Fin 2623) :
    val_main_v27 (F := Ideal) x4 (ix2 b j) = IntOp.minsi 2047#32 (IntOp.maxsi 0#32 (Scalar.select
      (IntOp.cmpi .slt (BitVec.ofNat 32 j.val) (x4 (ix1 b))) (BitVec.ofNat 32 j.val)
      (IntOp.addi (IntOp.subi (BitVec.ofNat 32 j.val) 576#32) 1#32))) := by
  have e1 : idx_main_v9 (idx_main_v20 (ix2 b j)) = ix1 b := funext fun a => match a with | ⟨0, _⟩ => rfl
  rw [val_main_v27_apply, val_main_call1_v4_apply, val_main_call1_v3_apply, val_main_c_5_apply,
    val_main_call1_v2_apply, val_main_call1_v1_apply, val_main_call1_v0_apply, val_main_c_4_apply,
    val_main_v26_apply, val_main_v21_apply, val_main_v19_apply, val_main_v8_apply, val_main_v7_apply,
    val_main_v20_apply, val_main_v9_apply, e1,
    val_main_call0_v0_apply, val_main_v8_apply, val_main_v7_apply,
    val_main_call0_v1_apply, val_main_v25_apply, val_main_v23_apply, val_main_v8_apply, val_main_v7_apply,
    val_main_v22_apply, val_main_c_2_apply, val_main_v24_apply, val_main_c_3_apply]

/-- `img_idx[b, j]`: the clip of the row number less the image position. -/
theorem imgIdx_at (b : Fin 8) (j : Fin 2623) :
    val_main_v31 (F := Ideal) x4 (ix2 b j)
      = IntOp.minsi 575#32 (IntOp.maxsi 0#32 (IntOp.subi (BitVec.ofNat 32 j.val) (x4 (ix1 b)))) := by
  have e1 : idx_main_v9 (idx_main_v29 (ix2 b j)) = ix1 b := funext fun a => match a with | ⟨0, _⟩ => rfl
  rw [val_main_v31_apply, val_main_call2_v4_apply, val_main_call2_v3_apply, val_main_c_7_apply,
    val_main_call2_v2_apply, val_main_call2_v1_apply, val_main_call2_v0_apply, val_main_c_6_apply,
    val_main_v30_apply, val_main_v28_apply, val_main_v8_apply, val_main_v7_apply, val_main_v29_apply, val_main_v9_apply, e1]

end Reference

section Reference2

open Cert.ReferenceIdeal Cert.ReferenceIdeal.Gen Cert.ReferenceIdeal.ReadP

variable (x0 : (⟨S32000x2560, .f32⟩ : BufTy).Contents (Elt Ideal)) (x1 : (⟨S8x576x2560, .f32⟩ : BufTy).Contents (Elt Ideal))
  (x2 : (⟨S8x2048, .i32⟩ : BufTy).Contents (Elt Ideal)) (x4 : (⟨S8, .i32⟩ : BufTy).Contents (Elt Ideal))

/-- The token index reads as `min (tokOf p j) 2047`. -/
theorem tokIdx_toInt (hpos : PosInRange x4) (b : Fin 8) (j : Fin 2623) :
    (val_main_v27 (F := Ideal) x4 (ix2 b j)).toInt = ((min (tokOf (x4 (ix1 b)).toNat j.val) 2047 : ℕ) : ℤ) := by
  rw [tokIdx_at]
  exact tok_word (hpos (ix1 b)) j.val j.isLt

/-- The patch index reads as `min (j - p) 575`. -/
theorem imgIdx_toInt (hpos : PosInRange x4) (b : Fin 8) (j : Fin 2623) :
    (val_main_v31 (F := Ideal) x4 (ix2 b j)).toInt = ((min (j.val - (x4 (ix1 b)).toNat) 575 : ℕ) : ℤ) := by
  rw [imgIdx_at]
  exact img_word (hpos (ix1 b)) j.val j.isLt

/-- The start indices of the token take at `(b, j, 0)`: the token index, which the negative-index wrap leaves alone. -/
theorem tokStart_at (hpos : PosInRange x4) (b : Fin 8) (j : Fin 2623) :
    val_main_call3_v4 (F := Ideal) x4 (ix3 b j 0) = val_main_v27 (F := Ideal) x4 (ix2 b j) := by
  have e : idx_main_v32 (ix3 b j (0 : Fin 1)) = ix2 b j :=
    funext fun a => match a with | ⟨0, _⟩ => rfl | ⟨1, _⟩ => rfl
  have h0 : 0 ≤ (val_main_v27 (F := Ideal) x4 (ix2 b j)).toInt := by rw [tokIdx_toInt x4 hpos]; omega
  rw [val_main_call3_v4_apply, val_main_call3_v1_apply, val_main_call3_v3_apply, val_main_v32_apply, e,
    val_main_call3_v0_apply, val_main_call3_c_apply, val_main_call3_v2_apply, val_main_call3_c_0_apply]
  exact wrap_word _ h0

/-- The start indices of the patch take at `(b, j, 0)`: the patch index. -/
theorem imgStart_at (hpos : PosInRange x4) (b : Fin 8) (j : Fin 2623) :
    val_main_call4_v4 (F := Ideal) x4 (ix3 b j 0) = val_main_v31 (F := Ideal) x4 (ix2 b j) := by
  have e : idx_main_v34 (ix3 b j (0 : Fin 1)) = ix2 b j :=
    funext fun a => match a with | ⟨0, _⟩ => rfl | ⟨1, _⟩ => rfl
  have h0 : 0 ≤ (val_main_v31 (F := Ideal) x4 (ix2 b j)).toInt := by rw [imgIdx_toInt x4 hpos]; omega
  rw [val_main_call4_v4_apply, val_main_call4_v1_apply, val_main_call4_v3_apply, val_main_v34_apply, e,
    val_main_call4_v0_apply, val_main_call4_c_apply, val_main_call4_v2_apply, val_main_call4_c_0_apply]
  exact wrap_word _ h0

/-- The token take's in-bounds mask is one everywhere: the clip keeps every index in `[0, 2047]`. -/
theorem tokMask_at (hpos : PosInRange x4) (b : Fin 8) (j : Fin 2623) :
    val_main_call3_v11 (F := Ideal) x4 (ix2 b j) = 1#1 := by
  unfold val_main_call3_v11
  refine reduce_last_one _ _ _ _ b j rfl ?_
  have hT := tokIdx_toInt x4 hpos b j
  rw [val_main_call3_v10_apply, val_main_call3_v6_apply, val_main_call3_v9_apply, tokStart_at x4 hpos,
    val_main_call3_v5_apply, val_main_call3_c_2_apply, val_main_call3_v8_apply, val_main_call3_v7_apply,
    val_main_call3_c_1_apply]
  exact inb_word (by rw [hT]; omega) (by rw [hT, toInt_2047]; omega)

/-- The patch take's in-bounds mask is one everywhere: the clip keeps every index in `[0, 575]`. -/
theorem imgMask_at (hpos : PosInRange x4) (b : Fin 8) (j : Fin 2623) :
    val_main_call4_v11 (F := Ideal) x4 (ix2 b j) = 1#1 := by
  unfold val_main_call4_v11
  refine reduce_last_one _ _ _ _ b j rfl ?_
  have hT := imgIdx_toInt x4 hpos b j
  rw [val_main_call4_v10_apply, val_main_call4_v6_apply, val_main_call4_v9_apply, imgStart_at x4 hpos,
    val_main_call4_v5_apply, val_main_call4_c_2_apply, val_main_call4_v8_apply, val_main_call4_v7_apply,
    val_main_call4_c_1_apply]
  exact inb_word (by rw [hT]; omega) (by rw [hT, toInt_575]; omega)

end Reference2

section Reference3

open Cert.ReferenceIdeal Cert.ReferenceIdeal.Gen Cert.ReferenceIdeal.ReadP

variable (x0 : (⟨S32000x2560, .f32⟩ : BufTy).Contents (Elt Ideal)) (x1 : (⟨S8x576x2560, .f32⟩ : BufTy).Contents (Elt Ideal))
  (x2 : (⟨S8x2048, .i32⟩ : BufTy).Contents (Elt Ideal)) (x4 : (⟨S8, .i32⟩ : BufTy).Contents (Elt Ideal))

/-- `embed_table[input_ids]` at `(b, t, k)`: under the id range neither the negative-index wrap nor the gather's clamp
    binds, and the row read is the id's. -/
theorem embRow_at (hids : IdsInRange x2) (b : Fin 8) (t : Fin 2048) (k : Fin 2560) :
    val_main_v6 (F := Ideal) x0 x2 (ix3 b t k) = x0 (ix2 ⟨min (x2 (ix2 b t)).toNat 31999, by omega⟩ k) := by
  have e : idx_main_v5 (ix3 b t (0 : Fin 1)) = ix2 b t :=
    funext fun a => match a with | ⟨0, _⟩ => rfl | ⟨1, _⟩ => rfl
  have h5 : val_main_v5 (F := Ideal) x2 (ix3 b t 0) = x2 (ix2 b t) := by
    rw [val_main_v5_apply, e, val_main_v4_apply, val_main_v1_apply, val_main_v3_apply, val_main_v0_apply,
      val_main_c_apply, val_main_v2_apply, val_main_c_0_apply]
    exact wrap_word _ (hids _).1
  have hr := toNat_of_range (n := 32000) (by omega) (hids (ix2 b t))
  unfold val_main_v6
  refine (rows_apply (V := 32000) _ (by omega) _ _ b t k).trans ?_
  refine congrArg (fun r => x0 (ix2 r k)) (Fin.ext ?_)
  show min (val_main_v5 (F := Ideal) x2 (ix3 b t 0)).toInt.toNat (32000 - 1) = min (x2 (ix2 b t)).toNat 31999
  rw [h5]
  omega

/-- The token take at `(b, j, k)`: the embeddings at the start index, read signed and clamped into `[0, 2047]`. -/
theorem tokTake_at (b : Fin 8) (j : Fin 2623) (k : Fin 2560) :
    val_main_call3_v12 (F := Ideal) x0 x2 x4 (ix3 b j k) = val_main_v6 (F := Ideal) x0 x2
      (ix3 b ⟨min (val_main_call3_v4 (F := Ideal) x4 (ix3 b j 0)).toInt.toNat 2047, by omega⟩ k) :=
  along_apply (N := 2048) _ (by omega) _ _ b j k

/-- The patch take at `(b, j, k)`: the image features at the start index, read signed and clamped into `[0, 575]`. -/
theorem imgTake_at (b : Fin 8) (j : Fin 2623) (k : Fin 2560) :
    val_main_call4_v12 (F := Ideal) x1 x4 (ix3 b j k)
      = x1 (ix3 b ⟨min (val_main_call4_v4 (F := Ideal) x4 (ix3 b j 0)).toInt.toNat 575, by omega⟩ k) :=
  along_apply (N := 576) _ (by omega) _ _ b j k

/-- `emb_tok[b, j, k]`: the table's row named by the id of token `min (tokOf p j) 2047`. -/
theorem tokRead_at (hids : IdsInRange x2) (hpos : PosInRange x4) (b : Fin 8) (j : Fin 2623) (k : Fin 2560) :
    val_main_v33 (F := Ideal) x0 x2 x4 (ix3 b j k)
      = x0 (ix2 ⟨min (x2 (ix2 b ⟨min (tokOf (x4 (ix1 b)).toNat j.val) 2047, by omega⟩)).toNat 31999, by omega⟩ k) := by
  have em : idx_main_call3_v13 (ix3 b j k) = ix2 b j :=
    funext fun a => match a with | ⟨0, _⟩ => rfl | ⟨1, _⟩ => rfl
  have hT := tokIdx_toInt x4 hpos b j
  have ht : (⟨min (val_main_call3_v4 (F := Ideal) x4 (ix3 b j 0)).toInt.toNat 2047, by omega⟩ : Fin 2048)
      = ⟨min (tokOf (x4 (ix1 b)).toNat j.val) 2047, by omega⟩ := Fin.ext (by
    show min (val_main_call3_v4 (F := Ideal) x4 (ix3 b j 0)).toInt.toNat 2047 = min (tokOf (x4 (ix1 b)).toNat j.val) 2047
    rw [tokStart_at x4 hpos, hT]; omega)
  rw [val_main_v33_apply, val_main_call3_v13_apply, em, tokMask_at x4 hpos, select_one, tokTake_at, ht,
    embRow_at x0 x2 hids]

/-- `emb_img[b, j, k]`: the image's patch `min (j - p) 575`. -/
theorem imgRead_at (hpos : PosInRange x4) (b : Fin 8) (j : Fin 2623) (k : Fin 2560) :
    val_main_v35 (F := Ideal) x1 x4 (ix3 b j k)
      = x1 (ix3 b ⟨min (j.val - (x4 (ix1 b)).toNat) 575, by omega⟩ k) := by
  have em : idx_main_call4_v13 (ix3 b j k) = ix2 b j :=
    funext fun a => match a with | ⟨0, _⟩ => rfl | ⟨1, _⟩ => rfl
  have hT := imgIdx_toInt x4 hpos b j
  have ht : (⟨min (val_main_call4_v4 (F := Ideal) x4 (ix3 b j 0)).toInt.toNat 575, by omega⟩ : Fin 576)
      = ⟨min (j.val - (x4 (ix1 b)).toNat) 575, by omega⟩ := Fin.ext (by
    show min (val_main_call4_v4 (F := Ideal) x4 (ix3 b j 0)).toInt.toNat 575 = min (j.val - (x4 (ix1 b)).toNat) 575
    rw [imgStart_at x4 hpos, hT]; omega)
  rw [val_main_v35_apply, val_main_call4_v13_apply, em, imgMask_at x4 hpos, select_one, imgTake_at, ht]

/-- The select's condition at `(b, j, k)` is `is_img[b, j]`. -/
theorem bit_at (b : Fin 8) (j : Fin 2623) (k : Fin 2560) :
    val_main_call5_v0 (F := Ideal) x4 (ix3 b j k) = val_main_v18 (F := Ideal) x4 (ix2 b j) := by
  have e : idx_main_v36 (idx_main_call5_v0 (ix3 b j k)) = ix2 b j :=
    funext fun a => match a with | ⟨0, _⟩ => rfl | ⟨1, _⟩ => rfl
  rw [val_main_call5_v0_apply, val_main_v36_apply, e]

end Reference3

/-! ## The reference's result is the specification -/

/-- THE REFERENCE COMPUTES THE SPLICED SEQUENCE: where every image position is a position of the token sequence and every
    token id a row of the table, the reference's first result is `spliced` of its arguments. -/
theorem ref_value (x0 : (⟨Cert.ReferenceIdeal.S32000x2560, .f32⟩ : BufTy).Contents (Elt Ideal))
    (x1 : (⟨Cert.ReferenceIdeal.S8x576x2560, .f32⟩ : BufTy).Contents (Elt Ideal))
    (x2 : (⟨Cert.ReferenceIdeal.S8x2048, .i32⟩ : BufTy).Contents (Elt Ideal))
    (x4 : (⟨Cert.ReferenceIdeal.S8, .i32⟩ : BufTy).Contents (Elt Ideal))
    (hids : IdsInRange x2) (hpos : PosInRange x4) :
    Cert.ReferenceIdeal.ReadP.val_main_v37 (F := Ideal) x0 x1 x2 x4 = spliced x0 x1 x2 x4 := by
  funext i
  obtain ⟨b, j, k, rfl⟩ : ∃ b j k, i = ix3 b j k := ⟨i 0, i 1, i 2, eq_ix3 i⟩
  rw [Cert.ReferenceIdeal.ReadP.val_main_v37_apply, bit_at, isImg_at]
  show Scalar.select _ _ _ = if (x4 (ix1 b)).toNat ≤ j.val ∧ j.val < (x4 (ix1 b)).toNat + 576 then
      x1 (ix3 b ⟨min (j.val - (x4 (ix1 b)).toNat) 575, by omega⟩ k)
    else x0 (ix2 ⟨min (x2 (ix2 b ⟨min (tokOf (x4 (ix1 b)).toNat j.val) 2047, by omega⟩)).toNat 31999, by omega⟩ k)
  by_cases h : (x4 (ix1 b)).toNat ≤ j.val ∧ j.val < (x4 (ix1 b)).toNat + 576
  · rw [(isImg_word (hpos (ix1 b)) j.val j.isLt).mpr h, select_one, if_pos h, imgRead_at x1 x4 hpos]
  · rw [eq_zero_of_ne_one fun hc => h ((isImg_word (hpos (ix1 b)) j.val j.isLt).mp hc), select_zero, if_neg h,
      tokRead_at x0 x2 x4 hids hpos]

end Cert.Splice

end
-- ==== Proof.lean ====
/-
  The certificate of a token-embedding splice.

  A sample `b` of a batch of 8 has 2048 token ids and one image position `p = img_pos[b]`; the result is the sequence of
  2623 rows of 2560 numbers that has the embeddings of tokens `0 … p - 1`, then the image's 576 patch rows, then the
  embeddings of tokens `p + 1 … 2047` (the embedding of a token is the row of the table its id names), beside three
  integer arrays computed from the labels and positions alone.

  The kernel builds it with two row-moving pipelines over a buffer of 8 · 2623 rows. The first moves, for every token
  `(b, l)`, row `ids[b, l]` of the table to row `b · 2623 + (l if l < p else l + 575)`; the second moves image row
  `(b, q)` to row `b · 2623 + p + q`, over what the first left there. The rows a pipeline reads and writes are
  words of scalar tables the host computes first, so the pipelines run only where every such row is inside its array:
  that is what the added conjuncts of the precondition give (ids in `[0, 32000)`, positions in `[0, 2048)`). Both
  destination maps are strictly increasing along their grids, so every point's row is written back, and a row of the
  result outside the image's range is a row the first pipeline wrote and the second did not: the result depends on no
  buffer's launch contents. No arithmetic is done on a float: the claim holds at every float instance, and in
  particular each program's frame does (the word-level program's by the same text).

  The reference computes the same sequence by gathers with clamped indices; under the two range conjuncts no clamp binds.
  The three integer results are the same host operations in both programs.
-/
import proofs.«423035_j55576876810961_2_alg».proof.Defs
import proofs.«423035_j55576876810961_2_alg».proof.Proof.Gen.Kernel
import proofs.«423035_j55576876810961_2_alg».proof.Proof.Gen.KernelIdeal
import proofs.«423035_j55576876810961_2_alg».proof.Proof.Gen.ReferenceIdeal
import proofs.«423035_j55576876810961_2_alg».proof.Proof.Gen.Pre_finite_inputs
import proofs.«423035_j55576876810961_2_alg».proof.Proof.PreDecode
import proofs.«423035_j55576876810961_2_alg».proof.Proof.KWFrame
import proofs.«423035_j55576876810961_2_alg».proof.Proof.KWOk
import proofs.«423035_j55576876810961_2_alg».proof.Proof.KIFrame
import proofs.«423035_j55576876810961_2_alg».proof.Proof.KIOk
import proofs.«423035_j55576876810961_2_alg».proof.Proof.KIValue
import proofs.«423035_j55576876810961_2_alg».proof.Proof.KIInts
import proofs.«423035_j55576876810961_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments unchanged: the range conjuncts make its tables admissible. -/
theorem frame_k : Cert.frame_Kernel := fun m g hpre => by
  obtain ⟨hids, hpos⟩ := Cert.Splice.ranges_of_pre _ _ _ _ _ (hpre 0)
  have hO0 := Cert.Kernel.Hand.ok0_of m hids hpos
  exact Cert.Kernel.Hand.frame_all m g hO0 (Cert.Kernel.Hand.ok1_of m hpos hO0)

/-- The same of the program read at the ideal instance. -/
theorem frame_ki : Cert.frame_KernelIdeal := fun m g hpre => by
  obtain ⟨hids, hpos⟩ := Cert.Splice.ranges_of_pre _ _ _ _ _ (hpre 0)
  have hO0 := Cert.KernelIdeal.Hand.ok0_of m hids hpos
  exact Cert.KernelIdeal.Hand.frame_all m g hO0 (Cert.KernelIdeal.Hand.ok1_of m hpos hO0)

/-- The reference is host operations only: its run, the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- Both programs end at the spliced sequence of the specification and at the same three integer arrays. -/
theorem algebraic : Cert.algebraic_KernelIdeal_ReferenceIdeal := by
  intro m g m' g' hpre hagree
  obtain ⟨hids, hpos⟩ := Cert.Splice.ranges_of_pre _ _ _ _ _ (hpre 0)
  have hO0 := Cert.KernelIdeal.Hand.ok0_of m hids hpos
  have hO1 := Cert.KernelIdeal.Hand.ok1_of m hpos hO0
  refine ⟨fun c => Cert.Splice.spliced (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    fun c => Cert.ReferenceIdeal.ReadP.val_main_v39 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun _ => broadcastInDim Cert.ReferenceIdeal.S8x2623 ![] Cert.ReferenceIdeal.Gen.bcast_S_S8x2623 (constantI Cert.ReferenceIdeal.S_ 1 1#1),
    fun _ => broadcastInDim Cert.ReferenceIdeal.S8x2623 ![1] Cert.ReferenceIdeal.Gen.bcast_S2623_S8x2623_1 (iotaInDim Cert.ReferenceIdeal.S2623 32 0), ?_, ?_⟩
  · refine (θ_run Cert.KernelIdeal.defs _ _).mono (fun r h c => ?_) (Cert.KernelIdeal.Hand.run_all m g hO0 hO1)
    obtain rfl : c = 0 := Subsingleton.elim _ _
    exact ⟨(h 0 _ (Cert.KernelIdeal.Hand.mem_uc Cert.KernelIdeal.main_v33 (by decide))).trans (Cert.KernelIdeal.Hand.kernel_value m hO0 hO1 hids hpos),
      (h 0 _ (Cert.KernelIdeal.Hand.mem_uc Cert.KernelIdeal.main_v55 (by decide))).trans (Cert.KernelIdeal.Hand.W14_v55 m hO0 hO1 0),
      (h 0 _ (Cert.KernelIdeal.Hand.mem_uc Cert.KernelIdeal.main_v56 (by decide))).trans (Cert.KernelIdeal.Hand.W14_v56 m hO0 hO1 0),
      (h 0 _ (Cert.KernelIdeal.Hand.mem_uc Cert.KernelIdeal.main_v58 (by decide))).trans (Cert.KernelIdeal.Hand.W14_v58 m hO0 hO1 0),
      (h 0 _ (Cert.KernelIdeal.Hand.mem_uc Cert.KernelIdeal.main_arg0 (by decide))).trans (Cert.KernelIdeal.Hand.W14_main_arg0 m hO0 hO1 0),
      (h 0 _ (Cert.KernelIdeal.Hand.mem_uc Cert.KernelIdeal.main_arg1 (by decide))).trans (Cert.KernelIdeal.Hand.W14_main_arg1 m hO0 hO1 0),
      (h 0 _ (Cert.KernelIdeal.Hand.mem_uc Cert.KernelIdeal.main_arg2 (by decide))).trans (Cert.KernelIdeal.Hand.W14_main_arg2 m hO0 hO1 0),
      (h 0 _ (Cert.KernelIdeal.Hand.mem_uc Cert.KernelIdeal.main_arg3 (by decide))).trans (Cert.KernelIdeal.Hand.W14_main_arg3 m hO0 hO1 0),
      (h 0 _ (Cert.KernelIdeal.Hand.mem_uc Cert.KernelIdeal.main_arg4 (by decide))).trans (Cert.KernelIdeal.Hand.W14_main_arg4 m hO0 hO1 0)⟩
  · refine (θ_run Cert.ReferenceIdeal.defs _ _).mono (fun r h c => ?_) (Cert.ReferenceIdeal.ValueP.run (F := Ideal) m' g')
    obtain rfl : c = 0 := Subsingleton.elim _ _
    obtain ⟨h37, h39, h40, h42, ha0, ha1, ha2, ha3, ha4⟩ := h 0
    obtain ⟨e0, e1, e2, e3, e4⟩ := hagree 0
    refine ⟨?_, ?_, h40, h42, ha0, ha1, ha2, ha3, ha4⟩
    · rw [h37, Cert.ReferenceIdeal.ReadP.val_main_v37_eq, e0, e1, e2, e4]
      exact Cert.Splice.ref_value _ _ _ _ hids hpos
    · rw [h39, Cert.ReferenceIdeal.ReadP.val_main_v39_eq, e3, e4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
